-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32x4 : Shape := ⟨3, ![100000, 32, 4]⟩
abbrev S100000x4 : Shape := ⟨2, ![100000, 4]⟩
abbrev S100000 : Shape := ⟨1, ![100000]⟩
abbrev S64x10 : Shape := ⟨2, ![64, 10]⟩
abbrev S64 : Shape := ⟨1, ![64]⟩
abbrev S_ : Shape := ⟨0, ![]⟩

class Facts : Prop where
  bcast_S_S100000x32x4 : S_.BroadcastsInDim S100000x32x4 (![] : Fin 0 → Fin S100000x32x4.rank)
  reducesTo_S100000x32x4_S_d0_1_2 : S100000x32x4.ReducesTo [0, 1, 2] S_
  h_S_ : 0 < S_.numel
  bcast_S_S64x10 : S_.BroadcastsInDim S64x10 (![] : Fin 0 → Fin S64x10.rank)
  reducesTo_S64x10_S_d0_1 : S64x10.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x32x4 .f32) (main_arg1 : IVec S100000x4 32) (main_arg2 : IVec S100000 32) (main_arg3 : FVec F S64x10 .f32) (main_arg4 : FVec F S64 .f32) (main_arg5 : FVec F S64 .f32) (main_arg6 : FVec F S64 .f32) (main_arg7 : FVec F S64 .f32) : IVec S_ 1 :=
  let main_v0 : FVec F S100000x32x4 .f32 := Host.absf main_arg0
  let main_cst : FVec F S_ .f32 := constant S_ .f32 0x7F800000#32
  let main_v1 : FVec F S100000x32x4 .f32 := broadcastInDim S100000x32x4 ![] bcast_S_S100000x32x4 main_cst
  let main_v2 : IVec S100000x32x4 1 := cmpf .olt main_v0 main_v1
  let main_c : IVec S_ 1 := constantI S_ 1 1#1
  let main_v3 : IVec S_ 1 := (fun x v => Host.reduce IntOp.andi x v reducesTo_S100000x32x4_S_d0_1_2 h_S_) main_v2 main_c
  let main_v4 : FVec F S64x10 .f32 := Host.absf main_arg3
  let main_cst_0 : FVec F S_ .f32 := constant S_ .f32 0x7F800000#32
  let main_v5 : FVec F S64x10 .f32 := broadcastInDim S64x10 ![] bcast_S_S64x10 main_cst_0
  let main_v6 : IVec S64x10 1 := cmpf .olt main_v4 main_v5
  let main_c_1 : IVec S_ 1 := constantI S_ 1 1#1
  let main_v7 : IVec S_ 1 := (fun x v => Host.reduce IntOp.andi x v reducesTo_S64x10_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x32x4 : Shape := ⟨3, ![100000, 32, 4]⟩
abbrev S100000x4 : Shape := ⟨2, ![100000, 4]⟩
abbrev S100000 : Shape := ⟨1, ![100000]⟩
abbrev S64x10 : Shape := ⟨2, ![64, 10]⟩
abbrev S64 : Shape := ⟨1, ![64]⟩
abbrev S64x4 : Shape := ⟨2, ![64, 4]⟩
abbrev S64x3 : Shape := ⟨2, ![64, 3]⟩
abbrev S_ : Shape := ⟨0, ![]⟩
abbrev S1 : Shape := ⟨1, ![1]⟩
abbrev S32x32 : Shape := ⟨2, ![32, 32]⟩
abbrev S4x64 : Shape := ⟨2, ![4, 64]⟩
abbrev S32x1x32x1 : Shape := ⟨4, ![32, 1, 32, 1]⟩
abbrev S1x4x1x64 : Shape := ⟨4, ![1, 4, 1, 64]⟩
abbrev S32x4x32x64 : Shape := ⟨4, ![32, 4, 32, 64]⟩
abbrev S128x2048 : Shape := ⟨2, ![128, 2048]⟩
abbrev S4x3 : Shape := ⟨2, ![4, 3]⟩
abbrev S32x1 : Shape := ⟨2, ![32, 1]⟩
abbrev S32x1x1x1 : Shape := ⟨4, ![32, 1, 1, 1]⟩
abbrev S1x4x1x3 : Shape := ⟨4, ![1, 4, 1, 3]⟩
abbrev S32x4x1x3 : Shape := ⟨4, ![32, 4, 1, 3]⟩
abbrev S128x3 : Shape := ⟨2, ![128, 3]⟩
abbrev S1x64 : Shape := ⟨2, ![1, 64]⟩
abbrev S32x64 : Shape := ⟨2, ![32, 64]⟩
abbrev S2048 : Shape := ⟨1, ![2048]⟩
abbrev S1x2048 : Shape := ⟨2, ![1, 2048]⟩
abbrev S100000x128 : Shape := ⟨2, ![100000, 128]⟩
abbrev S100000x1 : Shape := ⟨2, ![100000, 1]⟩
abbrev S100000x64 : Shape := ⟨2, ![100000, 64]⟩
abbrev S1000x128 : Shape := ⟨2, ![1000, 128]⟩
abbrev S1000x4 : Shape := ⟨2, ![1000, 4]⟩
abbrev S1000x1 : Shape := ⟨2, ![1000, 1]⟩
abbrev S1000x64 : Shape := ⟨2, ![1000, 64]⟩
abbrev S1000x2048 : Shape := ⟨2, ![1000, 2048]⟩
abbrev S1000x3 : Shape := ⟨2, ![1000, 3]⟩
abbrev S1000 : Shape := ⟨1, ![1000]⟩
abbrev S3x64 : Shape := ⟨2, ![3, 64]⟩
abbrev S1000x1024 : Shape := ⟨2, ![1000, 1024]⟩
abbrev S1000x512 : Shape := ⟨2, ![1000, 512]⟩
abbrev S1000x256 : Shape := ⟨2, ![1000, 256]⟩
abbrev S857088x64 : Shape := ⟨2, ![857088, 64]⟩
abbrev S4x214272x64 : Shape := ⟨3, ![4, 214272, 64]⟩
abbrev S4x64x214272 : Shape := ⟨3, ![4, 64, 214272]⟩
abbrev S1x11904x64 : Shape := ⟨3, ![1, 11904, 64]⟩
abbrev S1x64x11904 : Shape := ⟨3, ![1, 64, 11904]⟩
abbrev S11904x64 : Shape := ⟨2, ![11904, 64]⟩
abbrev S64x11904 : Shape := ⟨2, ![64, 11904]⟩
abbrev S4x64x496x432 : Shape := ⟨4, ![4, 64, 496, 432]⟩

abbrev nBuf : Space → Nat
  | .hbm => 94
  | .vmem => 20
  | .smem => 0
  | _ => 0

abbrev bufTy : (tb : Table) → Fin (tcTables nBuf tb) → BufTy
  | .hbm, ⟨0, _⟩ => ⟨S100000x32x4, .f32⟩
  | .hbm, ⟨1, _⟩ => ⟨S100000x4, .i32⟩
  | .hbm, ⟨2, _⟩ => ⟨S100000, .i32⟩
  | .hbm, ⟨3, _⟩ => ⟨S64x10, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x4, .f32⟩
  | .hbm, ⟨9, _⟩ => ⟨S64x3, .f32⟩
  | .hbm, ⟨10, _⟩ => ⟨S64x3, .f32⟩
  | .hbm, ⟨11, _⟩ => ⟨S64x3, .f32⟩
  | .hbm, ⟨12, _⟩ => ⟨S_, .i32⟩
  | .hbm, ⟨13, _⟩ => ⟨S1, .i32⟩
  | .hbm, ⟨14, _⟩ => ⟨S64x4, .f32⟩
  | .hbm, ⟨15, _⟩ => ⟨S32x32, .i32⟩
  | .hbm, ⟨16, _⟩ => ⟨S32x32, .i32⟩
  | .hbm, ⟨17, _⟩ => ⟨S_, .i32⟩
  | .hbm, ⟨18, _⟩ => ⟨S32x32, .i32⟩
  | .hbm, ⟨19, _⟩ => ⟨S32x32, .i32⟩
  | .hbm, ⟨20, _⟩ => ⟨S32x32, .i1⟩
  | .hbm, ⟨21, _⟩ => ⟨S32x32, .f32⟩
  | .hbm, ⟨22, _⟩ => ⟨S4x64, .f32⟩
  | .hbm, ⟨23, _⟩ => ⟨S32x1x32x1, .f32⟩
  | .hbm, ⟨24, _⟩ => ⟨S1x4x1x64, .f32⟩
  | .hbm, ⟨25, _⟩ => ⟨S32x4x32x64, .f32⟩
  | .hbm, ⟨26, _⟩ => ⟨S32x4x32x64, .f32⟩
  | .hbm, ⟨27, _⟩ => ⟨S32x4x32x64, .f32⟩
  | .hbm, ⟨28, _⟩ => ⟨S128x2048, .f32⟩
  | .hbm, ⟨29, _⟩ => ⟨S4x3, .i32⟩
  | .hbm, ⟨30, _⟩ => ⟨S4x3, .i32⟩
  | .hbm, ⟨31, _⟩ => ⟨S_, .i32⟩
  | .hbm, ⟨32, _⟩ => ⟨S4x3, .i32⟩
  | .hbm, ⟨33, _⟩ => ⟨S4x3, .i32⟩
  | .hbm, ⟨34, _⟩ => ⟨S4x3, .i1⟩
  | .hbm, ⟨35, _⟩ => ⟨S4x3, .f32⟩
  | .hbm, ⟨36, _⟩ => ⟨S_, .f32⟩
  | .hbm, ⟨37, _⟩ => ⟨S32x1, .f32⟩
  | .hbm, ⟨38, _⟩ => ⟨S32x1x1x1, .f32⟩
  | .hbm, ⟨39, _⟩ => ⟨S1x4x1x3, .f32⟩
  | .hbm, ⟨40, _⟩ => ⟨S32x4x1x3, .f32⟩
  | .hbm, ⟨41, _⟩ => ⟨S32x4x1x3, .f32⟩
  | .hbm, ⟨42, _⟩ => ⟨S32x4x1x3, .f32⟩
  | .hbm, ⟨43, _⟩ => ⟨S128x3, .f32⟩
  | .hbm, ⟨44, _⟩ => ⟨S1x64, .f32⟩
  | .hbm, ⟨45, _⟩ => ⟨S32x64, .f32⟩
  | .hbm, ⟨46, _⟩ => ⟨S2048, .f32⟩
  | .hbm, ⟨47, _⟩ => ⟨S1x2048, .f32⟩
  | .hbm, ⟨48, _⟩ => ⟨S1x64, .f32⟩
  | .hbm, ⟨49, _⟩ => ⟨S32x64, .f32⟩
  | .hbm, ⟨50, _⟩ => ⟨S2048, .f32⟩
  | .hbm, ⟨51, _⟩ => ⟨S1x2048, .f32⟩
  | .hbm, ⟨52, _⟩ => ⟨S1x64, .f32⟩
  | .hbm, ⟨53, _⟩ => ⟨S32x64, .f32⟩
  | .hbm, ⟨54, _⟩ => ⟨S2048, .f32⟩
  | .hbm, ⟨55, _⟩ => ⟨S1x2048, .f32⟩
  | .hbm, ⟨56, _⟩ => ⟨S1x64, .f32⟩
  | .hbm, ⟨57, _⟩ => ⟨S32x64, .f32⟩
  | .hbm, ⟨58, _⟩ => ⟨S2048, .f32⟩
  | .hbm, ⟨59, _⟩ => ⟨S1x2048, .f32⟩
  | .hbm, ⟨60, _⟩ => ⟨S100000x128, .f32⟩
  | .hbm, ⟨61, _⟩ => ⟨S100000x1, .i32⟩
  | .hbm, ⟨62, _⟩ => ⟨S100000x64, .f32⟩
  | .hbm, ⟨63, _⟩ => ⟨S100000x1, .i32⟩
  | .hbm, ⟨64, _⟩ => ⟨S100000, .i32⟩
  | .hbm, ⟨65, _⟩ => ⟨S100000x1, .i32⟩
  | .hbm, ⟨66, _⟩ => ⟨S100000, .i32⟩
  | .hbm, ⟨67, _⟩ => ⟨S_, .i32⟩
  | .hbm, ⟨68, _⟩ => ⟨S100000, .i32⟩
  | .hbm, ⟨69, _⟩ => ⟨S100000, .i32⟩
  | .hbm, ⟨70, _⟩ => ⟨S100000, .i32⟩
  | .hbm, ⟨71, _⟩ => ⟨S100000x1, .i32⟩
  | .hbm, ⟨72, _⟩ => ⟨S100000, .i32⟩
  | .hbm, ⟨73, _⟩ => ⟨S100000, .i32⟩
  | .hbm, ⟨74, _⟩ => ⟨S100000x1, .i32⟩
  | .hbm, ⟨75, _⟩ => ⟨S100000, .i32⟩
  | .hbm, ⟨76, _⟩ => ⟨S_, .i32⟩
  | .hbm, ⟨77, _⟩ => ⟨S100000, .i32⟩
  | .hbm, ⟨78, _⟩ => ⟨S100000, .i32⟩
  | .hbm, ⟨79, _⟩ => ⟨S100000, .i32⟩
  | .hbm, ⟨80, _⟩ => ⟨S_, .f32⟩
  | .hbm, ⟨81, _⟩ => ⟨S857088x64, .f32⟩
  | .hbm, ⟨82, _⟩ => ⟨S_, .i32⟩
  | .hbm, ⟨83, _⟩ => ⟨S100000, .i32⟩
  | .hbm, ⟨84, _⟩ => ⟨S100000, .i1⟩
  | .hbm, ⟨85, _⟩ => ⟨S_, .i32⟩
  | .hbm, ⟨86, _⟩ => ⟨S100000, .i32⟩
  | .hbm, ⟨87, _⟩ => ⟨S100000, .i32⟩
  | .hbm, ⟨88, _⟩ => ⟨S100000, .i32⟩
  | .hbm, ⟨89, _⟩ => ⟨S100000x1, .i32⟩
  | .hbm, ⟨90, _⟩ => ⟨S857088x64, .f32⟩
  | .hbm, ⟨91, _⟩ => ⟨S4x214272x64, .f32⟩
  | .hbm, ⟨92, _⟩ => ⟨S4x64x214272, .f32⟩
  | .hbm, ⟨93, _⟩ => ⟨S4x64x496x432, .f32⟩
  | .local _ .vmem, ⟨0, _⟩ => ⟨S1000x128, .f32⟩
  | .local _ .vmem, ⟨1, _⟩ => ⟨S1000x128, .f32⟩
  | .local _ .vmem, ⟨2, _⟩ => ⟨S1000x4, .i32⟩
  | .local _ .vmem, ⟨3, _⟩ => ⟨S1000x4, .i32⟩
  | .local _ .vmem, ⟨4, _⟩ => ⟨S1000x1, .i32⟩
  | .local _ .vmem, ⟨5, _⟩ => ⟨S1000x1, .i32⟩
  | .local _ .vmem, ⟨6, _⟩ => ⟨S128x2048, .f32⟩
  | .local _ .vmem, ⟨7, _⟩ => ⟨S128x3, .f32⟩
  | .local _ .vmem, ⟨8, _⟩ => ⟨S64x3, .f32⟩
  | .local _ .vmem, ⟨9, _⟩ => ⟨S64x3, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1000x64, .f32⟩
  | .local _ .vmem, ⟨15, _⟩ => ⟨S1000x64, .f32⟩
  | .local _ .vmem, ⟨16, _⟩ => ⟨S1x11904x64, .f32⟩
  | .local _ .vmem, ⟨17, _⟩ => ⟨S1x11904x64, .f32⟩
  | .local _ .vmem, ⟨18, _⟩ => ⟨S1x64x11904, .f32⟩
  | .local _ .vmem, ⟨19, _⟩ => ⟨S1x64x11904, .f32⟩
  | _, _ => ⟨S100000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_2 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_3 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_4 : Ref sig .tc := ⟨.hbm, 80, rfl⟩
abbrev main_v56 : Ref sig .tc := ⟨.hbm, 81, rfl⟩
abbrev main_c_5 : Ref sig .tc := ⟨.hbm, 82, rfl⟩
abbrev main_v57 : Ref sig .tc := ⟨.hbm, 83, rfl⟩
abbrev main_v58 : Ref sig .tc := ⟨.hbm, 84, rfl⟩
abbrev main_c_6 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![4, 18], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x11904x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x11904 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  slices_S64x10_S64x4_0_0 : S64x10.Slices ![0, 0] S64x4
  slices_S64x10_S64x3_0_4 : S64x10.Slices ![0, 4] S64x3
  slices_S64x10_S64x3_0_7 : S64x10.Slices ![0, 7] S64x3
  bcast_S_S1 : S_.BroadcastsInDim S1 (![] : Fin 0 → Fin S1.rank)
  bcast_S_S32x32 : S_.BroadcastsInDim S32x32 (![] : Fin 0 → Fin S32x32.rank)
  transposes_S64x4_S4x64_1_0 : S64x4.Transposes [1, 0] S4x64
  bcast_S32x32_S32x1x32x1_0_2 : S32x32.BroadcastsInDim S32x1x32x1 (![0, 2] : Fin 2 → Fin S32x1x32x1.rank)
  bcast_S4x64_S1x4x1x64_1_3 : S4x64.BroadcastsInDim S1x4x1x64 (![1, 3] : Fin 2 → Fin S1x4x1x64.rank)
  bcast_S32x1x32x1_S32x4x32x64_0_1_2_3 : S32x1x32x1.BroadcastsInDim S32x4x32x64 (![0, 1, 2, 3] : Fin 4 → Fin S32x4x32x64.rank)
  bcast_S1x4x1x64_S32x4x32x64_0_1_2_3 : S1x4x1x64.BroadcastsInDim S32x4x32x64 (![0, 1, 2, 3] : Fin 4 → Fin S32x4x32x64.rank)
  shapeCasts_S32x4x32x64_S128x2048 : S32x4x32x64.ShapeCasts S128x2048
  bcast_S_S4x3 : S_.BroadcastsInDim S4x3 (![] : Fin 0 → Fin S4x3.rank)
  bcast_S_S32x1 : S_.BroadcastsInDim S32x1 (![] : Fin 0 → Fin S32x1.rank)
  bcast_S32x1_S32x1x1x1_0_2 : S32x1.BroadcastsInDim S32x1x1x1 (![0, 2] : Fin 2 → Fin S32x1x1x1.rank)
  bcast_S4x3_S1x4x1x3_1_3 : S4x3.BroadcastsInDim S1x4x1x3 (![1, 3] : Fin 2 → Fin S1x4x1x3.rank)
  bcast_S32x1x1x1_S32x4x1x3_0_1_2_3 : S32x1x1x1.BroadcastsInDim S32x4x1x3 (![0, 1, 2, 3] : Fin 4 → Fin S32x4x1x3.rank)
  bcast_S1x4x1x3_S32x4x1x3_0_1_2_3 : S1x4x1x3.BroadcastsInDim S32x4x1x3 (![0, 1, 2, 3] : Fin 4 → Fin S32x4x1x3.rank)
  shapeCasts_S32x4x1x3_S128x3 : S32x4x1x3.ShapeCasts S128x3
  shapeCasts_S64_S1x64 : S64.ShapeCasts S1x64
  bcast_S1x64_S32x64_0_1 : S1x64.BroadcastsInDim S32x64 (![0, 1] : Fin 2 → Fin S32x64.rank)
  shapeCasts_S32x64_S2048 : S32x64.ShapeCasts S2048
  shapeCasts_S2048_S1x2048 : S2048.ShapeCasts S1x2048
  shapeCasts_S100000x32x4_S100000x128 : S100000x32x4.ShapeCasts S100000x128
  shapeCasts_S100000_S100000x1 : S100000.ShapeCasts S100000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S1000x4_S1000x4_0_0 : ∀ a, (![0, 0] : Fin 2 → Nat) a + S1000x4.size a ≤ S1000x4.size a
  h_S1000x4 : 0 < S1000x4.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x3_S128x3_0_0 : ∀ a, (![0, 0] : Fin 2 → Nat) a + S128x3.size a ≤ S128x3.size a
  h_S128x3 : 0 < S128x3.numel
  shapeCasts_S128x3_S128x3 : S128x3.ShapeCasts S128x3
  broadcasts_S1000x1_S1000x3 : S1000x1.Broadcasts S1000x3
  slices_S1000x4_o0_3_S1000x1 : S1000x4.Slices ![0, 3] S1000x1
  shapeCasts_S1000x1_S1000 : S1000x1.ShapeCasts S1000
  slices_S1000x4_o0_2_S1000x1 : S1000x4.Slices ![0, 2] S1000x1
  slices_S1000x4_o0_1_S1000x1 : S1000x4.Slices ![0, 1] S1000x1
  shapeCasts_S1000_S1000x1 : S1000.ShapeCasts S1000x1
  concatenates_S1000x1_S1000x1_S1000x1_S1000x3_d1 : Shape.Concatenates [S1000x1, S1000x1, S1000x1] S1000x3 1
  inb_S64x3_S64x3_0_0 : ∀ a, (![0, 0] : Fin 2 → Nat) a + S64x3.size a ≤ S64x3.size a
  h_S64x3 : 0 < S64x3.numel
  shapeCasts_S64x3_S64x3 : S64x3.ShapeCasts S64x3
  transposes_S64x3_p1_0_S3x64 : S64x3.Transposes [1, 0] S3x64
  concatenates_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x2048_d1 : Shape.Concatenates [S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64, S1000x64] S1000x2048 1
  iota_S1x2048_d1_w32 : S1x2048.Iotas .tc 32 [1]
  natLt_1_32 : 1 < 32
  broadcasts_S1x2048_S1000x2048 : S1x2048.Broadcasts S1000x2048
  broadcasts_S1000x1_S1000x2048 : S1000x1.Broadcasts S1000x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  slices_S1000x2048_o0_0_S1000x1024 : S1000x2048.Slices ![0, 0] S1000x1024
  slices_S1000x2048_o0_1024_S1000x1024 : S1000x2048.Slices ![0, 1024] S1000x1024
  slices_S1000x1024_o0_0_S1000x512 : S1000x1024.Slices ![0, 0] S1000x512
  slices_S1000x1024_o0_512_S1000x512 : S1000x1024.Slices ![0, 512] S1000x512
  slices_S1000x512_o0_0_S1000x256 : S1000x512.Slices ![0, 0] S1000x256
  slices_S1000x512_o0_256_S1000x256 : S1000x512.Slices ![0, 256] S1000x256
  slices_S1000x256_o0_0_S1000x128 : S1000x256.Slices ![0, 0] S1000x128
  slices_S1000x256_o0_128_S1000x128 : S1000x256.Slices ![0, 128] S1000x128
  slices_S1000x128_o0_0_S1000x64 : S1000x128.Slices ![0, 0] S1000x64
  slices_S1000x128_o0_64_S1000x64 : S1000x128.Slices ![0, 64] S1000x64
  inb_S1000x64_S1000x64_0_0 : ∀ a, (![0, 0] : Fin 2 → Nat) a + S1000x64.size a ≤ S1000x64.size a
  h_S1000x64 : 0 < S1000x64.numel
  slices_S100000x4_S100000x1_0_1 : S100000x4.Slices ![0, 1] S100000x1
  shapeCasts_S100000x1_S100000 : S100000x1.ShapeCasts S100000
  slices_S100000x4_S100000x1_0_2 : S100000x4.Slices ![0, 2] S100000x1
  bcast_S_S100000 : S_.BroadcastsInDim S100000 (![] : Fin 0 → Fin S100000.rank)
  slices_S100000x4_S100000x1_0_3 : S100000x4.Slices ![0, 3] S100000x1
  slices_S100000x4_S100000x1_0_0 : S100000x4.Slices ![0, 0] S100000x1
  bcast_S_S857088x64 : S_.BroadcastsInDim S857088x64 (![] : Fin 0 → Fin S857088x64.rank)
  bcast_S100000_S100000x1_0 : S100000.BroadcastsInDim S100000x1 (![0] : Fin 1 → Fin S100000x1.rank)
  shapeCasts_S857088x64_S4x214272x64 : S857088x64.ShapeCasts S4x214272x64
  inb_S1x11904x64_S1x11904x64_0_0_0 : ∀ a, (![0, 0, 0] : Fin 3 → Nat) a + S1x11904x64.size a ≤ S1x11904x64.size a
  h_S1x11904x64 : 0 < S1x11904x64.numel
  shapeCasts_S1x11904x64_S11904x64 : S1x11904x64.ShapeCasts S11904x64
  transposes_S11904x64_p1_0_S64x11904 : S11904x64.Transposes [1, 0] S64x11904
  inb_S1x64x11904_S1x64x11904_0_0_0 : ∀ a, (![0, 0, 0] : Fin 3 → Nat) a + S1x64x11904.size a ≤ S1x64x11904.size a
  h_S1x64x11904 : 0 < S1x64x11904.numel
  shapeCasts_S1x64x11904_S64x11904 : S1x64x11904.ShapeCasts S64x11904
  shapeCasts_S64x11904_S1x64x11904 : S64x11904.ShapeCasts S1x64x11904
  shapeCasts_S4x64x214272_S4x64x496x432 : S4x64x214272.ShapeCasts S4x64x496x432
  scatter_S64x4_S1_S64x3_01_n_1_0_wf : ScatterDims.WF S64x4 S1 S64x3 [0, 1] [] [1] 0
  dot_S1000x128_S128x2048_S1000x2048_1_0_0_1_n_n_wf : DotDims.WF S1000x128 S128x2048 S1000x2048 [1] [0] [0] [1] [] []
  dot_S1000x128_S128x3_S1000x3_1_0_0_1_n_n_wf : DotDims.WF S1000x128 S128x3 S1000x3 [1] [0] [0] [1] [] []
  dot_S1000x3_S3x64_S1000x64_1_0_0_1_n_n_wf : DotDims.WF S1000x3 S3x64 S1000x64 [1] [0] [0] [1] [] []
  scatter_S857088x64_S100000x1_S100000x64_1_0_0_1_wf : ScatterDims.WF S857088x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x4.size a ≤ S100000x4.size a
  hwx0_1 : ∀ i : grid0.Coords, EltTy.bits .i32 = 32 ∨ (Rect.block (s := S100000x4) S1000x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .i32 = 32 ∨ (Rect.block (s := S100000x1) S1000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x2048.size a
  hwx0_3 : ∀ i : grid0.Coords, EltTy.bits .f32 = 32 ∨ (Rect.block (s := S128x2048) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x3.size a ≤ S128x3.size a
  hwx0_4 : ∀ i : grid0.Coords, EltTy.bits .f32 = 32 ∨ (Rect.block (s := S128x3) S128x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x3.size a ≤ S64x3.size a
  hwx0_5 : ∀ i : grid0.Coords, EltTy.bits .f32 = 32 ∨ (Rect.block (s := S64x3) S64x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x3.size a ≤ S64x3.size a
  hwx0_6 : ∀ i : grid0.Coords, EltTy.bits .f32 = 32 ∨ (Rect.block (s := S64x3) S64x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x64.size a ≤ S100000x64.size a
  hwx0_11 : ∀ i : grid0.Coords, EltTy.bits .f32 = 32 ∨ (Rect.block (s := S100000x64) S1000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x11904x64.size a ≤ S4x214272x64.size a
  hwx1_0 : ∀ i : grid1.Coords, EltTy.bits .f32 = 32 ∨ (Rect.block (s := S4x214272x64) S1x11904x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x11904.size a ≤ S4x64x214272.size a
  hwx1_1 : ∀ i : grid1.Coords, EltTy.bits .f32 = 32 ∨ (Rect.block (s := S4x64x214272) S1x64x11904.size (cc1_transform_1 i) (hinb1_1 i)).WholeWords (EltTy.packing .f32)

variable [Facts₀]

def scatter_S64x4_S1_S64x3_01_n_1_0 : ScatterDims S64x4 S1 S64x3 where
  updateWindowDims := [0, 1]
  insertedWindowDims := []
  scatterDimsToOperandDims := [1]
  indexVectorDim := 0
  wf := scatter_S64x4_S1_S64x3_01_n_1_0_wf
def dot_S1000x128_S128x2048_S1000x2048_1_0_0_1_n_n : DotDims S1000x128 S128x2048 S1000x2048 where
  lhsContracting := [1]
  rhsContracting := [0]
  lhsNonContracting := [0]
  rhsNonContracting := [1]
  lhsBatch := []
  rhsBatch := []
  wf := dot_S1000x128_S128x2048_S1000x2048_1_0_0_1_n_n_wf
def dot_S1000x128_S128x3_S1000x3_1_0_0_1_n_n : DotDims S1000x128 S128x3 S1000x3 where
  lhsContracting := [1]
  rhsContracting := [0]
  lhsNonContracting := [0]
  rhsNonContracting := [1]
  lhsBatch := []
  rhsBatch := []
  wf := dot_S1000x128_S128x3_S1000x3_1_0_0_1_n_n_wf
def dot_S1000x3_S3x64_S1000x64_1_0_0_1_n_n : DotDims S1000x3 S3x64 S1000x64 where
  lhsContracting := [1]
  rhsContracting := [0]
  lhsNonContracting := [0]
  rhsNonContracting := [1]
  lhsBatch := []
  rhsBatch := []
  wf := dot_S1000x3_S3x64_S1000x64_1_0_0_1_n_n_wf
def scatter_S857088x64_S100000x1_S100000x64_1_0_0_1 : ScatterDims S857088x64 S100000x1 S100000x64 where
  updateWindowDims := [1]
  insertedWindowDims := [0]
  scatterDimsToOperandDims := [0]
  indexVectorDim := 1
  wf := scatter_S857088x64_S100000x1_S100000x64_1_0_0_1_wf

abbrev win0_0 : Pipeline.Window sig grid0 :=
  Pipeline.Window.ofSpec (Memref.whole main_v38) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S64x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v40) S1000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v64) S1x11904x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S1x64x11904.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x32x4 : Shape := ⟨3, ![100000, 32, 4]⟩
abbrev S100000x4 : Shape := ⟨2, ![100000, 4]⟩
abbrev S100000 : Shape := ⟨1, ![100000]⟩
abbrev S64x10 : Shape := ⟨2, ![64, 10]⟩
abbrev S64 : Shape := ⟨1, ![64]⟩
abbrev S100000x32x3 : Shape := ⟨3, ![100000, 32, 3]⟩
abbrev S100000x1x1 : Shape := ⟨3, ![100000, 1, 1]⟩
abbrev S_ : Shape := ⟨0, ![]⟩
abbrev S100000x3 : Shape := ⟨2, ![100000, 3]⟩
abbrev S100000x1x3 : Shape := ⟨3, ![100000, 1, 3]⟩
abbrev S100000x32x1 : Shape := ⟨3, ![100000, 32, 1]⟩
abbrev S100000x32 : Shape := ⟨2, ![100000, 32]⟩
abbrev S100000x1 : Shape := ⟨2, ![100000, 1]⟩
abbrev S100000x32x10 : Shape := ⟨3, ![100000, 32, 10]⟩
abbrev S32 : Shape := ⟨1, ![32]⟩
abbrev S1x32 : Shape := ⟨2, ![1, 32]⟩
abbrev S100000x32x64 : Shape := ⟨3, ![100000, 32, 64]⟩
abbrev S1x1x64 : Shape := ⟨3, ![1, 1, 64]⟩
abbrev S100000x64 : Shape := ⟨2, ![100000, 64]⟩
abbrev S857088x64 : Shape := ⟨2, ![857088, 64]⟩
abbrev S4x214272x64 : Shape := ⟨3, ![4, 214272, 64]⟩
abbrev S4x64x214272 : Shape := ⟨3, ![4, 64, 214272]⟩
abbrev S4x64x496x432 : Shape := ⟨4, ![4, 64, 496, 432]⟩

abbrev nBuf : Space → Nat
  | .hbm => 126
  | .vmem => 0
  | .smem => 0
  | _ => 0

abbrev bufTy : (tb : Table) → Fin (tcTables nBuf tb) → BufTy
  | .hbm, ⟨0, _⟩ => ⟨S100000x32x4, .f32⟩
  | .hbm, ⟨1, _⟩ => ⟨S100000x4, .i32⟩
  | .hbm, ⟨2, _⟩ => ⟨S100000, .i32⟩
  | .hbm, ⟨3, _⟩ => ⟨S64x10, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S100000x32x3, .f32⟩
  | .hbm, ⟨9, _⟩ => ⟨S100000, .f32⟩
  | .hbm, ⟨10, _⟩ => ⟨S100000x1x1, .f32⟩
  | .hbm, ⟨11, _⟩ => ⟨S_, .f32⟩
  | .hbm, ⟨12, _⟩ => ⟨S100000x3, .f32⟩
  | .hbm, ⟨13, _⟩ => ⟨S100000x1x3, .f32⟩
  | .hbm, ⟨14, _⟩ => ⟨S100000x1x3, .f32⟩
  | .hbm, ⟨15, _⟩ => ⟨S100000x1x3, .f32⟩
  | .hbm, ⟨16, _⟩ => ⟨S100000x32x3, .f32⟩
  | .hbm, ⟨17, _⟩ => ⟨S100000x32x3, .f32⟩
  | .hbm, ⟨18, _⟩ => ⟨S100000x4, .f32⟩
  | .hbm, ⟨19, _⟩ => ⟨S100000x32x1, .f32⟩
  | .hbm, ⟨20, _⟩ => ⟨S100000x32, .f32⟩
  | .hbm, ⟨21, _⟩ => ⟨S100000x1, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .f32⟩
  | .hbm, ⟨30, _⟩ => ⟨S100000x32, .f32⟩
  | .hbm, ⟨31, _⟩ => ⟨S100000x32, .f32⟩
  | .hbm, ⟨32, _⟩ => ⟨S100000x32x1, .f32⟩
  | .hbm, ⟨33, _⟩ => ⟨S100000x32, .f32⟩
  | .hbm, ⟨34, _⟩ => ⟨S100000x1, .f32⟩
  | .hbm, ⟨35, _⟩ => ⟨S100000, .f32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S_, .f32⟩
  | .hbm, ⟨41, _⟩ => ⟨S100000x1, .f32⟩
  | .hbm, ⟨42, _⟩ => ⟨S100000x1, .f32⟩
  | .hbm, ⟨43, _⟩ => ⟨S100000x32, .f32⟩
  | .hbm, ⟨44, _⟩ => ⟨S100000x32, .f32⟩
  | .hbm, ⟨45, _⟩ => ⟨S100000x32x1, .f32⟩
  | .hbm, ⟨46, _⟩ => ⟨S100000x32, .f32⟩
  | .hbm, ⟨47, _⟩ => ⟨S100000x1, .f32⟩
  | .hbm, ⟨48, _⟩ => ⟨S100000, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x32, .f32⟩
  | .hbm, ⟨57, _⟩ => ⟨S100000x32, .f32⟩
  | .hbm, ⟨58, _⟩ => ⟨S100000x32x1, .f32⟩
  | .hbm, ⟨59, _⟩ => ⟨S100000x32x1, .f32⟩
  | .hbm, ⟨60, _⟩ => ⟨S100000x32x1, .f32⟩
  | .hbm, ⟨61, _⟩ => ⟨S100000x32x3, .f32⟩
  | .hbm, ⟨62, _⟩ => ⟨S100000x32x10, .f32⟩
  | .hbm, ⟨63, _⟩ => ⟨S32, .i32⟩
  | .hbm, ⟨64, _⟩ => ⟨S1x32, .i32⟩
  | .hbm, ⟨65, _⟩ => ⟨S100000x1, .i32⟩
  | .hbm, ⟨66, _⟩ => ⟨S100000x32, .i32⟩
  | .hbm, ⟨67, _⟩ => ⟨S100000x32, .i32⟩
  | .hbm, ⟨68, _⟩ => ⟨S100000x32, .i1⟩
  | .hbm, ⟨69, _⟩ => ⟨S100000x32, .f32⟩
  | .hbm, ⟨70, _⟩ => ⟨S100000x32x1, .f32⟩
  | .hbm, ⟨71, _⟩ => ⟨S100000x32x10, .f32⟩
  | .hbm, ⟨72, _⟩ => ⟨S100000x32x10, .f32⟩
  | .hbm, ⟨73, _⟩ => ⟨S100000x32x64, .f32⟩
  | .hbm, ⟨74, _⟩ => ⟨S1x1x64, .f32⟩
  | .hbm, ⟨75, _⟩ => ⟨S100000x32x64, .f32⟩
  | .hbm, ⟨76, _⟩ => ⟨S100000x32x64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S1x1x64, .f32⟩
  | .hbm, ⟨82, _⟩ => ⟨S100000x32x64, .f32⟩
  | .hbm, ⟨83, _⟩ => ⟨S100000x32x64, .f32⟩
  | .hbm, ⟨84, _⟩ => ⟨S1x1x64, .f32⟩
  | .hbm, ⟨85, _⟩ => ⟨S100000x32x64, .f32⟩
  | .hbm, ⟨86, _⟩ => ⟨S100000x32x64, .f32⟩
  | .hbm, ⟨87, _⟩ => ⟨S1x1x64, .f32⟩
  | .hbm, ⟨88, _⟩ => ⟨S100000x32x64, .f32⟩
  | .hbm, ⟨89, _⟩ => ⟨S100000x32x64, .f32⟩
  | .hbm, ⟨90, _⟩ => ⟨S_, .f32⟩
  | .hbm, ⟨91, _⟩ => ⟨S100000x32x64, .f32⟩
  | .hbm, ⟨92, _⟩ => ⟨S100000x32x64, .f32⟩
  | .hbm, ⟨93, _⟩ => ⟨S_, .f32⟩
  | .hbm, ⟨94, _⟩ => ⟨S100000x64, .f32⟩
  | .hbm, ⟨95, _⟩ => ⟨S100000x1, .i32⟩
  | .hbm, ⟨96, _⟩ => ⟨S100000, .i32⟩
  | .hbm, ⟨97, _⟩ => ⟨S100000x1, .i32⟩
  | .hbm, ⟨98, _⟩ => ⟨S100000, .i32⟩
  | .hbm, ⟨99, _⟩ => ⟨S_, .i32⟩
  | .hbm, ⟨100, _⟩ => ⟨S100000, .i32⟩
  | .hbm, ⟨101, _⟩ => ⟨S100000, .i32⟩
  | .hbm, ⟨102, _⟩ => ⟨S100000, .i32⟩
  | .hbm, ⟨103, _⟩ => ⟨S100000x1, .i32⟩
  | .hbm, ⟨104, _⟩ => ⟨S100000, .i32⟩
  | .hbm, ⟨105, _⟩ => ⟨S100000, .i32⟩
  | .hbm, ⟨106, _⟩ => ⟨S100000x1, .i32⟩
  | .hbm, ⟨107, _⟩ => ⟨S100000, .i32⟩
  | .hbm, ⟨108, _⟩ => ⟨S_, .i32⟩
  | .hbm, ⟨109, _⟩ => ⟨S100000, .i32⟩
  | .hbm, ⟨110, _⟩ => ⟨S100000, .i32⟩
  | .hbm, ⟨111, _⟩ => ⟨S100000, .i32⟩
  | .hbm, ⟨112, _⟩ => ⟨S_, .f32⟩
  | .hbm, ⟨113, _⟩ => ⟨S857088x64, .f32⟩
  | .hbm, ⟨114, _⟩ => ⟨S_, .i32⟩
  | .hbm, ⟨115, _⟩ => ⟨S100000, .i32⟩
  | .hbm, ⟨116, _⟩ => ⟨S100000, .i1⟩
  | .hbm, ⟨117, _⟩ => ⟨S_, .i32⟩
  | .hbm, ⟨118, _⟩ => ⟨S100000, .i32⟩
  | .hbm, ⟨119, _⟩ => ⟨S100000, .i32⟩
  | .hbm, ⟨120, _⟩ => ⟨S100000, .i32⟩
  | .hbm, ⟨121, _⟩ => ⟨S100000x1, .i32⟩
  | .hbm, ⟨122, _⟩ => ⟨S857088x64, .f32⟩
  | .hbm, ⟨123, _⟩ => ⟨S4x214272x64, .f32⟩
  | .hbm, ⟨124, _⟩ => ⟨S4x64x214272, .f32⟩
  | .hbm, ⟨125, _⟩ => ⟨S4x64x496x432, .f32⟩
  | _, _ => ⟨S100000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call0_cst : Ref sig .tc := ⟨.hbm, 90, rfl⟩
abbrev main_call0_v0 : Ref sig .tc := ⟨.hbm, 91, rfl⟩
abbrev main_v74 : Ref sig .tc := ⟨.hbm, 92, rfl⟩
abbrev main_cst_7 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_c : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_c_8 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_9 : Ref sig .tc := ⟨.hbm, 112, rfl⟩
abbrev main_v91 : Ref sig .tc := ⟨.hbm, 113, rfl⟩
abbrev main_c_10 : Ref sig .tc := ⟨.hbm, 114, rfl⟩
abbrev main_v92 : Ref sig .tc := ⟨.hbm, 115, rfl⟩
abbrev main_v93 : Ref sig .tc := ⟨.hbm, 116, rfl⟩
abbrev main_c_11 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩

abbrev nD : Nat := 1
abbrev τ : Topo := Topo.v7x

variable {F : FTy → Type} [FloatOps F]

class Facts₀ : Prop where
  slices_S100000x32x4_S100000x32x3_0_0_0 : S100000x32x4.Slices ![0, 0, 0] S100000x32x3
  bcast_S100000_S100000x1x1_0 : S100000.BroadcastsInDim S100000x1x1 (![0] : Fin 1 → Fin S100000x1x1.rank)
  reducesTo_S100000x32x3_S100000x3_d1 : S100000x32x3.ReducesTo [1] S100000x3
  h_S_ : 0 < S_.numel
  bcast_S100000x3_S100000x1x3_0_2 : S100000x3.BroadcastsInDim S100000x1x3 (![0, 2] : Fin 2 → Fin S100000x1x3.rank)
  bcast_S100000x1x1_S100000x1x3_0_1_2 : S100000x1x1.BroadcastsInDim S100000x1x3 (![0, 1, 2] : Fin 3 → Fin S100000x1x3.rank)
  bcast_S100000x1x3_S100000x32x3_0_1_2 : S100000x1x3.BroadcastsInDim S100000x32x3 (![0, 1, 2] : Fin 3 → Fin S100000x32x3.rank)
  slices_S100000x32x4_S100000x32x1_0_0_0 : S100000x32x4.Slices ![0, 0, 0] S100000x32x1
  shapeCasts_S100000x32x1_S100000x32 : S100000x32x1.ShapeCasts S100000x32
  slices_S100000x4_S100000x1_0_3 : S100000x4.Slices ![0, 3] S100000x1
  shapeCasts_S100000x1_S100000 : S100000x1.ShapeCasts S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  slices_S100000x32x4_S100000x32x1_0_0_1 : S100000x32x4.Slices ![0, 0, 1] S100000x32x1
  slices_S100000x4_S100000x1_0_2 : S100000x4.Slices ![0, 2] S100000x1
  slices_S100000x32x4_S100000x32x1_0_0_2 : S100000x32x4.Slices ![0, 0, 2] S100000x32x1
  slices_S100000x4_S100000x1_0_1 : S100000x4.Slices ![0, 1] S100000x1
  bcast_S100000x32_S100000x32x1_0_1 : S100000x32.BroadcastsInDim S100000x32x1 (![0, 1] : Fin 2 → Fin S100000x32x1.rank)
  concatenates_S100000x32x1_S100000x32x1_S100000x32x1_S100000x32x3_d2 : Shape.Concatenates [S100000x32x1, S100000x32x1, S100000x32x1] S100000x32x3 2
  concatenates_S100000x32x4_S100000x32x3_S100000x32x3_S100000x32x10_d2 : Shape.Concatenates [S100000x32x4, S100000x32x3, S100000x32x3] S100000x32x10 2
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S100000x32x1_S100000x32x10_0_1_2 : S100000x32x1.BroadcastsInDim S100000x32x10 (![0, 1, 2] : Fin 3 → Fin S100000x32x10.rank)
  bcast_S64_S1x1x64_2 : S64.BroadcastsInDim S1x1x64 (![2] : Fin 1 → Fin S1x1x64.rank)
  bcast_S1x1x64_S100000x32x64_0_1_2 : S1x1x64.BroadcastsInDim S100000x32x64 (![0, 1, 2] : Fin 3 → Fin S100000x32x64.rank)
  bcast_S_S64 : S_.BroadcastsInDim S64 (![] : Fin 0 → Fin S64.rank)
  bcast_S_S100000x32x64 : S_.BroadcastsInDim S100000x32x64 (![] : Fin 0 → Fin S100000x32x64.rank)
  reducesTo_S100000x32x64_S100000x64_d1 : S100000x32x64.ReducesTo [1] S100000x64
  bcast_S_S100000 : S_.BroadcastsInDim S100000 (![] : Fin 0 → Fin S100000.rank)
  slices_S100000x4_S100000x1_0_0 : S100000x4.Slices ![0, 0] S100000x1
  bcast_S_S857088x64 : S_.BroadcastsInDim S857088x64 (![] : Fin 0 → Fin S857088x64.rank)
  shapeCasts_S857088x64_S4x214272x64 : S857088x64.ShapeCasts S4x214272x64
  transposes_S4x214272x64_S4x64x214272_0_2_1 : S4x214272x64.Transposes [0, 2, 1] S4x64x214272
  shapeCasts_S4x64x214272_S4x64x496x432 : S4x64x214272.ShapeCasts S4x64x496x432
  dot_S100000x32x10_S64x10_S100000x32x64_2_1_01_0_n_n_wf : DotDims.WF S100000x32x10 S64x10 S100000x32x64 [2] [1] [0, 1] [0] [] []
  scatter_S857088x64_S100000x1_S100000x64_1_0_0_1_wf : ScatterDims.WF S857088x64 S100000x1 S100000x64 [1] [0] [0] 1

variable [Facts₀]

def dot_S100000x32x10_S64x10_S100000x32x64_2_1_01_0_n_n : DotDims S100000x32x10 S64x10 S100000x32x64 where
  lhsContracting := [2]
  rhsContracting := [1]
  lhsNonContracting := [0, 1]
  rhsNonContracting := [0]
  lhsBatch := []
  rhsBatch := []
  wf := dot_S100000x32x10_S64x10_S100000x32x64_2_1_01_0_n_n_wf
def scatter_S857088x64_S100000x1_S100000x64_1_0_0_1 : ScatterDims S857088x64 S100000x1 S100000x64 where
  updateWindowDims := [1]
  insertedWindowDims := [0]
  scatterDimsToOperandDims := [0]
  indexVectorDim := 1
  wf := scatter_S857088x64_S100000x1_S100000x64_1_0_0_1_wf

class Facts : Prop extends Facts₀ where

variable [Facts]
-- ==== Proof.Pillar.lean ====
/-
  The per-pillar feature, as one function of a pillar's own data, in the two arrangements the two programs
  compute it in.  A pillar holds 32 point slots of 4 raw features; its points are embedded by a bias-free linear
  layer over 10 features — the 4 raw ones, the offsets of x, y, z from the mean of the pillar's points, and the
  offsets of x, y, z from the centre of the pillar's voxel —, the slots past the pillar's count are zeroed,
  every slot goes through the batch normalisation and the rectifier, and the 32 slots are pooled by maximum.

  One arrangement zeroes the 10 features of an empty slot and then contracts them with the 10 weights.  The other
  folds the offset columns of the weights into the raw columns, contracts the 4 raw features with the folded
  weights, subtracts the part of the contraction that does not depend on the slot, and zeroes last; it also
  divides by the count clamped below by one, which differs from the count only where every slot is empty.  The two
  agree on the extended reals whenever the raw features and the weights are real numbers: that is distributivity
  of the product over a finite sum, which needs every summand finite.
-/
import Idealize.ShloMosaic.PureOps.Ideal
import Idealize.ShloMosaic.Lib.ValueIdx

noncomputable section

open Idealize.ShloMosaic

namespace Cert.Pillar

/-- A 32-bit word read as the (signed) integer it denotes, as a real. -/
def fl (b : BitVec 32) : EReal := ((b.toInt : ℝ) : EReal)

/-- Whether slot `p` holds a point of a pillar of `np` points: 1 when `p < np` as signed integers, else 0. -/
def occ (p : Fin 32) (np : BitVec 32) : EReal :=
  ((((IntOp.cmpi .slt (BitVec.ofNat 32 p.val) np).setWidth 32).toInt : ℝ) : EReal)

/-- The flat position of channel `ch` of slot `p` in a row of 32 × 64 activations. -/
def lane (p : Fin 32) (ch : Fin 64) : Fin 2048 := ⟨p.val * 64 + ch.val, by have := p.isLt; have := ch.isLt; omega⟩

/-- The flat position of raw feature `f` of slot `p` in a row of 32 × 4 raw features. -/
def slot (p : Fin 32) (f : Fin 4) : Fin 128 := ⟨p.val * 4 + f.val, by have := p.isLt; have := f.isLt; omega⟩

/-- The voxel's horizontal extent (the single-precision 0.16), half of it, the y origin shifted by half an extent
    (the single-precision -39.6), the voxel's height 4 and the z origin shifted by half a height, -1. -/
def vx : EReal := Ideal.ofBits .f32 0x3E23D70A#32
def xo : EReal := Ideal.ofBits .f32 0x3DA3D70A#32
def yo : EReal := Ideal.ofBits .f32 0xC21E6666#32
def vz : EReal := Ideal.ofBits .f32 0x40800000#32
def zo : EReal := Ideal.ofBits .f32 0xBF800000#32
/-- The normalisation's epsilon (the single-precision 0.001), and the words of 1 and 0. -/
def eps : EReal := Ideal.ofBits .f32 0x3A83126F#32
def one : EReal := Ideal.ofBits .f32 0x3F800000#32
def zero : EReal := Ideal.ofBits .f32 0x00000000#32

/-- The centre of the pillar's voxel: x from the grid's x index (coordinate 3), y from its y index
    (coordinate 2), z from its z index (coordinate 1). -/
def off (co : Fin 4 → BitVec 32) : Fin 3 → EReal :=
  ![fl (co 3) * vx + xo, fl (co 2) * vx + yo, fl (co 1) * vz + zo]

/-- The weights of the raw features with the two offset columns folded in: an offset feature is the raw x, y or z
    minus a term that does not depend on the slot. -/
def weff (w : Fin 10 → EReal) : Fin 4 → EReal :=
  ![w 0 + (w 4 + w 7), w 1 + (w 5 + w 8), w 2 + (w 6 + w 9), w 3]

/-- The weights of the offsets from the points' mean, and of the offsets from the voxel's centre. -/
def wcl (w : Fin 10 → EReal) : Fin 3 → EReal := ![w 4, w 5, w 6]
def wce (w : Fin 10 → EReal) : Fin 3 → EReal := ![w 7, w 8, w 9]

/-- The sum of coordinate `j` (x, y or z) over all 32 slots. -/
def xyzsum (v : Fin 32 → Fin 4 → EReal) (j : Fin 3) : EReal := ∑ p : Fin 32, v p j.castSucc

/-- The points' mean with the count clamped below by one, and with the count as it is. -/
def meanK (v : Fin 32 → Fin 4 → EReal) (np : BitVec 32) (j : Fin 3) : EReal := Ideal.div (xyzsum v j) (max (fl np) one)
def meanR (v : Fin 32 → Fin 4 → EReal) (np : BitVec 32) (j : Fin 3) : EReal := Ideal.div (xyzsum v j) (fl np)

/-- The linear layer at slot `p`, folded arrangement: zeroed last. -/
def actK (v : Fin 32 → Fin 4 → EReal) (co : Fin 4 → BitVec 32) (np : BitVec 32) (w : Fin 10 → EReal) (p : Fin 32) : EReal :=
  ((∑ f : Fin 4, v p f * weff w f) - ((∑ j : Fin 3, meanK v np j * wcl w j) + (∑ j : Fin 3, off co j * wce w j))) * occ p np

/-- The 10 features of slot `p`. -/
def feats (v : Fin 32 → Fin 4 → EReal) (co : Fin 4 → BitVec 32) (np : BitVec 32) (p : Fin 32) : Fin 10 → EReal :=
  ![v p 0, v p 1, v p 2, v p 3, v p 0 - meanR v np 0, v p 1 - meanR v np 1, v p 2 - meanR v np 2,
    v p 0 - off co 0, v p 1 - off co 1, v p 2 - off co 2]

/-- The linear layer at slot `p`, plain arrangement: the features zeroed first. -/
def actR (v : Fin 32 → Fin 4 → EReal) (co : Fin 4 → BitVec 32) (np : BitVec 32) (w : Fin 10 → EReal) (p : Fin 32) : EReal :=
  ∑ f : Fin 10, (feats v co np p f * occ p np) * w f

/-- Batch normalisation with running statistics, then the rectifier. -/
def bn (x g b mu va : EReal) : EReal := max (((x - mu) * Ideal.rsqrt (va + eps)) * g + b) zero

/-- The pooled feature of one channel: the maximum over the 32 slots. -/
def feat (act : Fin 32 → EReal) (g b mu va : EReal) : EReal := Finset.univ.sup fun p : Fin 32 => bn (act p) g b mu va

end Cert.Pillar

end
-- ==== Proof.PillarLaws.lean ====
/-
  The two arrangements of the linear layer agree on real data.  An empty slot is zero on both sides, whatever the
  mean is (a product with zero is zero on the extended reals); on an occupied slot the pillar's count is at least
  one, so the clamp does nothing, the mean is a real number, and the identity is distributivity over the ten
  features.
-/
import proofs.«414826_j24292335026905_3_alg».proof.Proof.Pillar

noncomputable section

open Idealize.ShloMosaic

namespace Cert.Pillar

theorem one_eq : one = 1 := by
  simp [one, Ideal.ofBits, Ideal.ieee, -EReal.coe_mul]; norm_num

theorem zero_eq : zero = 0 := by
  simp [zero, Ideal.ofBits, Ideal.ieee]

theorem vx_real : ∃ r : ℝ, vx = (r : EReal) := by
  unfold vx; simp [Ideal.ofBits, Ideal.ieee, -EReal.coe_mul]
theorem xo_real : ∃ r : ℝ, xo = (r : EReal) := by
  unfold xo; simp [Ideal.ofBits, Ideal.ieee, -EReal.coe_mul]
theorem yo_real : ∃ r : ℝ, yo = (r : EReal) := by
  unfold yo; simp [Ideal.ofBits, Ideal.ieee, -EReal.coe_mul]
  exact ⟨_, (EReal.coe_neg _).symm⟩
theorem vz_real : ∃ r : ℝ, vz = (r : EReal) := by
  unfold vz; simp [Ideal.ofBits, Ideal.ieee, -EReal.coe_mul]
theorem zo_real : ∃ r : ℝ, zo = (r : EReal) := by
  unfold zo; simp [Ideal.ofBits, Ideal.ieee, -EReal.coe_mul]
  exact ⟨_, (EReal.coe_neg _).symm⟩

/-- A slot is empty, or it is occupied and then the pillar's count is at least one. -/
theorem occ_cases (p : Fin 32) (np : BitVec 32) : occ p np = 0 ∨ (occ p np = 1 ∧ (1 : ℝ) ≤ (np.toInt : ℝ)) := by
  unfold occ IntOp.cmpi
  by_cases h : (BitVec.ofNat 32 p.val).slt np
  · right
    refine ⟨by simp [h], ?_⟩
    have hp : (BitVec.ofNat 32 p.val).toInt = (p.val : Int) := by
      have := p.isLt
      simp only [BitVec.toInt_eq_toNat_cond, BitVec.toNat_ofNat]
      split <;> omega
    have hlt : (BitVec.ofNat 32 p.val).toInt < np.toInt := by
      simpa [BitVec.slt] using h
    have : (1 : Int) ≤ np.toInt := by omega
    exact_mod_cast this
  · left
    simp [h]

/-- Distributivity over the ten features, on real numbers read as extended reals. -/
theorem act_core (a : Fin 4 → ℝ) (w : Fin 10 → ℝ) (M O : Fin 3 → ℝ) :
    ((∑ f : Fin 4, (a f : EReal) * (![(w 0 : EReal) + ((w 4 : EReal) + (w 7 : EReal)), (w 1 : EReal) + ((w 5 : EReal) + (w 8 : EReal)),
          (w 2 : EReal) + ((w 6 : EReal) + (w 9 : EReal)), (w 3 : EReal)] : Fin 4 → EReal) f)
        - ((∑ j : Fin 3, (M j : EReal) * (![(w 4 : EReal), (w 5 : EReal), (w 6 : EReal)] : Fin 3 → EReal) j)
          + (∑ j : Fin 3, (O j : EReal) * (![(w 7 : EReal), (w 8 : EReal), (w 9 : EReal)] : Fin 3 → EReal) j))) * 1
      = ∑ f : Fin 10, ((![(a 0 : EReal), (a 1 : EReal), (a 2 : EReal), (a 3 : EReal), (a 0 : EReal) - (M 0 : EReal), (a 1 : EReal) - (M 1 : EReal),
          (a 2 : EReal) - (M 2 : EReal), (a 0 : EReal) - (O 0 : EReal), (a 1 : EReal) - (O 1 : EReal), (a 2 : EReal) - (O 2 : EReal)] : Fin 10 → EReal) f * 1)
          * (w f : EReal) := by
  simp [Fin.sum_univ_succ]
  norm_cast
  ring

/-- The extended real of a finite sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_affine (x a b : ℝ) : ∃ r : ℝ, (x : EReal) * (a : EReal) + (b : EReal) = (r : EReal) :=
  ⟨x * a + b, by push_cast; rfl⟩

/-- The centre of a voxel is a real point. -/
theorem off_real (co : Fin 4 → BitVec 32) (j : Fin 3) : ∃ r : ℝ, off co j = (r : EReal) := by
  obtain ⟨a, ha⟩ := vx_real
  obtain ⟨b, hb⟩ := xo_real
  obtain ⟨b', hb'⟩ := yo_real
  obtain ⟨a', ha'⟩ := vz_real
  obtain ⟨b'', hb''⟩ := zo_real
  unfold off fl
  rw [ha, hb, hb', ha', hb'']
  fin_cases j
  · exact real_affine _ _ _
  · exact real_affine _ _ _
  · exact real_affine _ _ _

/-- The two arrangements of the linear layer agree when the raw features and the weights are real numbers. -/
theorem act_eq (v : Fin 32 → Fin 4 → EReal) (co : Fin 4 → BitVec 32) (np : BitVec 32) (w : Fin 10 → EReal)
    (hv : ∀ p f, ∃ r : ℝ, v p f = (r : EReal)) (hw : ∀ f, ∃ r : ℝ, w f = (r : EReal)) (p : Fin 32) :
    actK v co np w p = actR v co np w p := by
  rcases occ_cases p np with h0 | ⟨h1, hnp⟩
  · unfold actK actR
    rw [h0]
    simp
  · choose vr hvr using hv
    choose wr hwr using hw
    have hmax : max (fl np) one = fl np := by
      rw [one_eq]; unfold fl
      exact max_eq_left (by exact_mod_cast hnp)
    have hne : (np.toInt : ℝ) ≠ 0 := by linarith
    have hM : ∀ j : Fin 3, ∃ r : ℝ, meanR v np j = (r : EReal) := fun j => by
      unfold meanR fl xyzsum
      rw [Ideal.div_coe hne]
      simp only [hvr]
      exact ⟨(∑ p : Fin 32, vr p j.castSucc) * (1 / (np.toInt : ℝ)), by rw [EReal.coe_mul, coe_sum]⟩
    choose mr hmr using hM
    choose or hor using off_real co
    have hMK : ∀ j, meanK v np j = (mr j : EReal) := fun j => by
      unfold meanK; rw [hmax]; exact hmr j
    unfold actK actR
    rw [h1]
    simp only [hMK, feats, weff, wcl, wce, hmr, hor, hvr, hwr]
    exact act_core (vr p) wr mr or

/-- The pooled features of the two arrangements agree on real data. -/
theorem feat_eq (v : Fin 32 → Fin 4 → EReal) (co : Fin 4 → BitVec 32) (np : BitVec 32) (w : Fin 10 → EReal) (g b mu va : EReal)
    (hv : ∀ p f, ∃ r : ℝ, v p f = (r : EReal)) (hw : ∀ f, ∃ r : ℝ, w f = (r : EReal)) :
    feat (actK v co np w) g b mu va = feat (actR v co np w) g b mu va := by
  unfold feat
  exact Finset.sup_congr rfl fun p _ => by rw [act_eq v co np w hv hw p]

end Cert.Pillar

end
-- ==== Proof.Swapped.lean ====
/-
  The second region swaps the two last axes of its input.  Its grid has 4 × 18 points; point (b, g) stages cells
  11904 g to 11904 g + 11903 of batch b with all 64 channels, transposes the block, and writes it back channel-major.
  The blocks cover the output array, so entry (b, ch, y) of the output is entry (b, y, ch) of the input: the host's
  transpose of the input.  The last host operation re-lays the cells as 496 × 432.
-/
import proofs.«414826_j24292335026905_3_alg».proof.Proof.Gen.KernelIdeal.Frame
import proofs.«414826_j24292335026905_3_alg».proof.Proof.Pillar
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Host

open Idealize.ShloMosaic Idealize.ShloMosaic.TcCoe Idealize.SL.Sem Idealize.ShloMosaic.ValueIdx Cert.KernelIdeal Cert.KernelIdeal.Gen Cert.Pillar

variable {F : FTy → Type} [FloatOps F]
variable (m : (ℓ : Loc nD τ sig) → Buf (Elt F) ℓ) (ρ : Dev nD → PrngReg)

variable (c : Dev nD)

namespace Swapped

/-- The three zero offsets of a rank-3 whole-shape access, as the constant function. -/
theorem hz3 : (![0, 0, 0] : Fin 3 → Nat) = fun _ => 0 := funext fun a => by fin_cases a <;> rfl

/-- The body's payload at (u, ch, y) is its loaded block at (u, y, ch): the unit axis dropped, the matrix transposed,
    the unit axis put back. -/
theorem pay_apply (x0 : Vec F S1x11904x64 .f32) (u : Fin 1) (ch : Fin 64) (y : Fin 11904) :
    k1_pay1 x0 (ix3 u ch y) = x0 (ix3 u y ch) := by
  unfold k1_pay1
  dsimp only
  rw [shapeCast_ab_1ab_apply, transpose_ix2_apply, shapeCast_1ab_ab_apply]
  rw [Fin.fin_one_eq_zero u]

/-- The body loads its input buffer whole and stores its one result whole: what it leaves in the output's buffer is the
    payload of the input block. -/
theorem out_eq (x0 : Vec F S1x11904x64 .f32) : out1_1 x0 = k1_pay1 x0 := by
  unfold out1_1
  rw [View.canon_unit_zero hz3]
  simp only [View.ld_unit_zero (S := S1x11904x64) hz3]

/-- An array with its two last axes swapped: (b, ch, y) ↦ X (b, y, ch). -/
def swapArr (X : Vec F S4x214272x64 .f32) : Vec F S4x64x214272 .f32 := fun i => X (ix3 (i 0) (i 2) (i 1))

/-- It is the transpose by the permutation [0, 2, 1]. -/
theorem swapArr_eq_transpose (X : Vec F S4x214272x64 .f32) (h : S4x214272x64.Transposes [0, 2, 1] S4x64x214272) :
    swapArr X = transpose S4x64x214272 [0, 2, 1] X h := by
  funext i
  obtain ⟨p, q, r, rfl⟩ : ∃ p q r, i = ix3 p q r := ⟨i 0, i 1, i 2, eq_ix3 i⟩
  rw [transpose_ix3_021_apply]
  rfl

/-- Read at `i`, it is `X` at any index with the same first coordinate and the other two exchanged. -/
theorem swapArr_at (X : Vec F S4x214272x64 .f32) (i : S4x64x214272.Idx) (k : S4x214272x64.Idx)
    (h0 : (k 0).val = (i 0).val) (h1 : (k 1).val = (i 2).val) (h2 : (k 2).val = (i 1).val) : swapArr X i = X k := by
  unfold swapArr
  refine congrArg X (funext fun a => Fin.ext ?_)
  match a with
  | ⟨0, _⟩ => exact h0.symm
  | ⟨1, _⟩ => exact h1.symm
  | ⟨2, _⟩ => exact h2.symm

/-- Block (b, g, 0) of the input array: batch b, cells 11904 g + 0 … 11904 g + 11903, all 64 channels. -/
def blkIn (X : Vec F S4x214272x64 .f32) (b : Fin 4) (g : Fin 18) : Vec F S1x11904x64 .f32 :=
  fun k => X (ix3 b ⟨11904 * g.val + (k 1).val, by have := g.isLt; have hk : (k 1).val < 11904 := (k 1).isLt; omega⟩ (k 2))

/-- The payload of block (b, g, 0), at (u, ch, y), is the swapped array at batch b, channel ch, cell 11904 g + y. -/
theorem pay_blkIn (X : Vec F S4x214272x64 .f32) (b : Fin 4) (g : Fin 18) (u : Fin 1) (ch : Fin 64) (y : Fin 11904)
    (i : S4x64x214272.Idx) (h0 : (i 0).val = b.val) (h1 : (i 1).val = ch.val) (h2 : (i 2).val = 11904 * g.val + y.val) :
    swapArr X i = k1_pay1 (blkIn X b g) (ix3 u ch y) := by
  rw [pay_apply]
  unfold blkIn
  refine swapArr_at X i _ ?_ ?_ ?_
  · exact h0.symm
  · exact h2.symm
  · exact h1.symm

/-- The printed index maps, decided over the grid: the output block (b, 0, g) is written from the input block (b, g, 0),
    with b below 4 and g below 18. -/
theorem idx_facts : ∀ t : Fin cfg1.N, win1_0.index t (0 : Fin 3) = win1_1.index t (0 : Fin 3)
    ∧ win1_0.index t (1 : Fin 3) = win1_1.index t (2 : Fin 3)
    ∧ win1_0.index t (2 : Fin 3) = 0
    ∧ win1_1.index t (1 : Fin 3) = 0
    ∧ win1_1.index t (0 : Fin 3) ≤ 3
    ∧ win1_1.index t (2 : Fin 3) ≤ 17 :=
  (by decide +kernel : ∀ t : Fin grid1.N, _)

/-- Every output block (b, 0, g) is some point's. -/
theorem idx_onto : ∀ (q0 : Fin 4) (q2 : Fin 18), ∃ t : Fin cfg1.N, win1_1.index t = ![q0.val, 0, q2.val] :=
  (by decide +kernel : ∀ (q0 : Fin 4) (q2 : Fin 18), ∃ t : Fin grid1.N, win1_1.index t = ![q0.val, 0, q2.val])

/-- The batch and the group of cells that point `t` handles. -/
def bOf (t : Fin cfg1.N) : Fin 4 := ⟨win1_1.index t (0 : Fin 3), Nat.lt_succ_of_le (idx_facts t).2.2.2.2.1⟩
def gOf (t : Fin cfg1.N) : Fin 18 := ⟨win1_1.index t (2 : Fin 3), Nat.lt_succ_of_le (idx_facts t).2.2.2.2.2⟩

/-- Block `t` of the swapped array is the payload of input block (b, g, 0), for ANY array `X`. -/
theorem read_swap (X : Vec F S4x214272x64 .f32) (t : Fin cfg1.N) :
    (((cfg1.win 1).blk t).view.read (Elt F) (swapArr X) : Vec F S1x64x11904 .f32) = k1_pay1 (blkIn X (bOf t) (gOf t)) := by
  obtain ⟨e0, e1, e2, e3, e4, e5⟩ := idx_facts t
  refine funext fun (y : S1x64x11904.Idx) => ?_
  rw [View.read_apply]
  show swapArr X (((cfg1.win 1).blk t).view.emb y) = _
  refine (pay_blkIn X (bOf t) (gOf t) (y 0) (y 1) (y 2) _ ?_ ?_ ?_).trans ?_
  · show win1_1.index t (0 : Fin 3) * 1 + 1 * (y 0).val = win1_1.index t (0 : Fin 3)
    have hy : (y 0).val < 1 := (y 0).isLt
    omega
  · show win1_1.index t (1 : Fin 3) * 64 + 1 * (y 1).val = (y 1).val
    omega
  · show win1_1.index t (2 : Fin 3) * 11904 + 1 * (y 2).val = 11904 * win1_1.index t (2 : Fin 3) + (y 2).val
    omega
  · congr 1
    exact (eq_ix3 (n0 := 1) (n1 := 64) (n2 := 11904) y).symm

section AnyContents

variable (V : (c : Dev nD) → (b : Ref sig .tc) → Buf (Elt F) ((c : Thread nD τ).loc b))

/-- The input window's block at point `t` is block (b, g, 0) of the input array, whatever the arrays hold. -/
theorem iblk_eq (t : Fin cfg1.N) :
    (iblk1 V c 0 t : Vec F S1x11904x64 .f32) = blkIn (V c main_v64 : Vec F S4x214272x64 .f32) (bOf t) (gOf t) := by
  obtain ⟨e0, e1, e2, e3, e4, e5⟩ := idx_facts t
  funext k
  unfold iblk1 blkIn
  rw [View.read_apply]
  show V c main_v64 _ = V c main_v64 _
  congr 1
  funext a
  apply Fin.ext
  match a with
  | ⟨0, _⟩ =>
    show win1_0.index t (0 : Fin 3) * 1 + 1 * (k 0).val = win1_1.index t (0 : Fin 3)
    have hk : (k 0).val < 1 := (k 0).isLt
    omega
  | ⟨1, _⟩ =>
    show win1_0.index t (1 : Fin 3) * 11904 + 1 * (k 1).val = 11904 * win1_1.index t (2 : Fin 3) + (k 1).val
    omega
  | ⟨2, _⟩ =>
    show win1_0.index t (2 : Fin 3) * 64 + 1 * (k 2).val = (k 2).val
    omega

/-- What point `t` writes back is block `t` of the input array with its two last axes swapped. -/
theorem flushed_eq (t : Fin cfg1.N) :
    (dat1 V c).flushed 1 t
      = ((cfg1.win 1).blk t).view.read (Elt F) (swapArr (V c main_v64 : Vec F S4x214272x64 .f32)) := by
  show (cfg1.win 1).cut (grid1.coords t) ((dat1 V c).after 1 t) = _
  rw [after1_1, out_eq, iblk_eq]
  exact (read_swap _ t).symm

end AnyContents

/-- An index of the output array is in point `t`'s block iff each coordinate is in the block's range on its axis. -/
theorem mem_blk (t : Fin cfg1.N) (i : S4x64x214272.Idx) :
    i ∈ ((cfg1.win 1).blk t).view.set ↔ ∀ a : Fin 3, win1_1.index t a * S1x64x11904.size a ≤ (i a).val
      ∧ (i a).val < win1_1.index t a * S1x64x11904.size a + S1x64x11904.size a := by
  show i ∈ ((View.whole main_v65).slice (win1_1.rect t)).set ↔ _
  rw [View.set_slice_whole, Rect.mem_set_unit]
  exact Iff.rfl

/-- The output's blocks fill the array: cell y of batch b lies in block (b, 0, y / 11904), which is written back. -/
theorem cover (i : S4x64x214272.Idx) :
    ∃ t : Fin cfg1.N, (cfg1.win 1).flush t = true ∧ i ∈ ((cfg1.win 1).blk t).view.set := by
  have hi0 : (i 0).val < 4 := (i 0).isLt
  have hi1 : (i 1).val < 64 := (i 1).isLt
  have hi2 : (i 2).val < 214272 := (i 2).isLt
  obtain ⟨t, ht⟩ := idx_onto ⟨(i 0).val, hi0⟩ ⟨(i 2).val / 11904, by omega⟩
  have q0 : win1_1.index t (0 : Fin 3) = (i 0).val := congrFun ht 0
  have q1 : win1_1.index t (1 : Fin 3) = 0 := congrFun ht 1
  have q2 : win1_1.index t (2 : Fin 3) = (i 2).val / 11904 := congrFun ht 2
  refine ⟨t, flush1_1 t, ?_⟩
  rw [mem_blk]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 64 ≤ (i 1).val ∧ (i 1).val < win1_1.index t (1 : Fin 3) * 64 + 64; omega
  | ⟨2, _⟩ => show win1_1.index t (2 : Fin 3) * 11904 ≤ (i 2).val ∧ (i 2).val < win1_1.index t (2 : Fin 3) * 11904 + 11904; omega

/-- The second region's output array ends holding its input array with the two last axes swapped, whatever the arrays
    held at its entry. -/
theorem arr_swap (V : (c : Dev nD) → (b : Ref sig .tc) → Buf (Elt F) ((c : Thread nD τ).loc b)) :
    ((dat1 V c).arrAt 1 cfg1.N : Vec F S4x64x214272 .f32) = swapArr (V c main_v64 : Vec F S4x214272x64 .f32) :=
  (dat1 V c).arrAt_eq_of_cover 1 (swapArr (V c main_v64 : Vec F S4x214272x64 .f32)) (fun t _ => flushed_eq c V t) cover

end Swapped

/-- The second region swaps the two last axes of its input array, and the last host operation re-lays the result. -/
theorem result_eq (h : S4x214272x64.Transposes [0, 2, 1] S4x64x214272) :
    (W9 m ρ c (Proc.devRef .tc main_v66) : Vec F S4x64x496x432 .f32)
      = shapeCast S4x64x496x432 (transpose S4x64x214272 [0, 2, 1] (V7 m ρ c main_v64 : Vec F S4x214272x64 .f32) h) shapeCasts_S4x64x214272_S4x64x496x432 := by
  rw [← Swapped.swapArr_eq_transpose _ h, ← Swapped.arr_swap c (V7 m ρ), ← W8_arr m ρ c 1]
  show StableHlo.after hostOps2 (W8 m ρ c) (Proc.devRef .tc main_v66) = _
  after_results
  rfl

end Cert.KernelIdeal.Host

end
-- ==== Proof.Scattered.lean ====
/-
  The placement of the pillars' rows on the grid, which both programs perform with the same host operations: the cell
  of a pillar from its four integer coordinates, a negative cell counted from the end, the scatter of the rows into a
  zero array, the array re-laid by batch.  Named as one function so that the two programs' results are compared
  through the equality of what they place.
-/
import proofs.«414826_j24292335026905_3_alg».proof.Proof.Gen.KernelIdeal.Frame
import proofs.«414826_j24292335026905_3_alg».proof.Proof.Gen.ReferenceIdeal.Read
import proofs.«414826_j24292335026905_3_alg».proof.Proof.Pillar
import Idealize.ShloMosaic.Lib.ValueIdx
import Idealize.ShloMosaic.Lib.Pipeline.Value
import Idealize.ShloMosaic.PureOps.Ideal.Laws

noncomputable section

namespace Cert.KernelIdeal.Host

open Idealize.ShloMosaic Idealize.ShloMosaic.TcCoe Idealize.SL.Sem Idealize.ShloMosaic.ValueIdx Cert.KernelIdeal Cert.KernelIdeal.Gen Cert.Pillar

variable {F : FTy → Type} [FloatOps F]

/-- Where the pillars' features go: a zero array of 4 × 214272 cells of 64 channels, pillar `n`'s row written at the
    cell its four coordinates name (batch × 214272 + z + 432 y + x, a negative cell counted from the end), re-laid
    as batch × cell × channel.  Both programs apply this same function. -/
def place (x1 : Vec F S100000x4 .i32) (pf : Vec F S100000x64 .f32) : Vec F S4x214272x64 .f32 :=
  shapeCast S4x214272x64
    (Host.scatter scatter_S857088x64_S100000x1_S100000x64_1_0_0_1 (fun _ b => b)
      (broadcastInDim S857088x64 ![] bcast_S_S857088x64 (constant (F := F) S_ .f32 0x00000000#32))
      (broadcastInDim S100000x1 ![0] bcast_S100000_S100000x1_0
        (select
          (cmpi .slt
            (addi (muli (shapeCast S100000 (extractStridedSlice S100000x1 ![0, 0] x1 slices_S100000x4_S100000x1_0_0) shapeCasts_S100000x1_S100000) (broadcastInDim S100000 ![] bcast_S_S100000 (constantI S_ 32 214272#32)))
            (addi (addi (shapeCast S100000 (extractStridedSlice S100000x1 ![0, 1] x1 slices_S100000x4_S100000x1_0_1) shapeCasts_S100000x1_S100000)
                        (muli (shapeCast S100000 (extractStridedSlice S100000x1 ![0, 2] x1 slices_S100000x4_S100000x1_0_2) shapeCasts_S100000x1_S100000) (broadcastInDim S100000 ![] bcast_S_S100000 (constantI S_ 32 432#32))))
                  (shapeCast S100000 (extractStridedSlice S100000x1 ![0, 3] x1 slices_S100000x4_S100000x1_0_3) shapeCasts_S100000x1_S100000)))
            (broadcastInDim S100000 ![] bcast_S_S100000 (constantI S_ 32 0#32)))
          (addi
            (addi (muli (shapeCast S100000 (extractStridedSlice S100000x1 ![0, 0] x1 slices_S100000x4_S100000x1_0_0) shapeCasts_S100000x1_S100000) (broadcastInDim S100000 ![] bcast_S_S100000 (constantI S_ 32 214272#32)))
            (addi (addi (shapeCast S100000 (extractStridedSlice S100000x1 ![0, 1] x1 slices_S100000x4_S100000x1_0_1) shapeCasts_S100000x1_S100000)
                        (muli (shapeCast S100000 (extractStridedSlice S100000x1 ![0, 2] x1 slices_S100000x4_S100000x1_0_2) shapeCasts_S100000x1_S100000) (broadcastInDim S100000 ![] bcast_S_S100000 (constantI S_ 32 432#32))))
                  (shapeCast S100000 (extractStridedSlice S100000x1 ![0, 3] x1 slices_S100000x4_S100000x1_0_3) shapeCasts_S100000x1_S100000)))
            (broadcastInDim S100000 ![] bcast_S_S100000 (constantI S_ 32 857088#32)))
          (addi (muli (shapeCast S100000 (extractStridedSlice S100000x1 ![0, 0] x1 slices_S100000x4_S100000x1_0_0) shapeCasts_S100000x1_S100000) (broadcastInDim S100000 ![] bcast_S_S100000 (constantI S_ 32 214272#32)))
            (addi (addi (shapeCast S100000 (extractStridedSlice S100000x1 ![0, 1] x1 slices_S100000x4_S100000x1_0_1) shapeCasts_S100000x1_S100000)
                        (muli (shapeCast S100000 (extractStridedSlice S100000x1 ![0, 2] x1 slices_S100000x4_S100000x1_0_2) shapeCasts_S100000x1_S100000) (broadcastInDim S100000 ![] bcast_S_S100000 (constantI S_ 32 432#32))))
                  (shapeCast S100000 (extractStridedSlice S100000x1 ![0, 3] x1 slices_S100000x4_S100000x1_0_3) shapeCasts_S100000x1_S100000)))))
      pf)
    shapeCasts_S857088x64_S4x214272x64

/-- The host operations between the two regions, run from any contents `V`, leave in the re-laid scatter's array the
    placement of `V`'s pooled features at `V`'s coordinates: each operation's result is read off at its own array, the
    others' arrays being untouched. -/
theorem after_hostOps1 (V : Valuation τ sig (Elt F)) :
    (StableHlo.after hostOps1 V (Proc.devRef .tc main_v64) : Vec F S4x214272x64 .f32)
      = place (V (Proc.devRef .tc main_arg1)) (V (Proc.devRef .tc main_v40)) := by
  unfold place
  after_results_simp
  rfl

variable (m : (ℓ : Loc nD τ sig) → Buf (Elt F) ℓ) (ρ : Dev nD → PrngReg) (c : Dev nD)

/-- The coordinates' array at the first region's exit is the launch memory's: the region reads it through an input
    window, whose array ends as it was entered, and no host operation writes it. -/
theorem W6_main_arg1 : W6 m ρ c (Proc.devRef .tc main_arg1) = m ((c : Thread nD τ).loc main_arg1) :=
  calc W6 m ρ c (Proc.devRef .tc main_arg1)
    _ = W7 m ρ c (Proc.devRef .tc main_arg1) := (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).symm
    _ = W8 m ρ c (Proc.devRef .tc main_arg1) := (W8_of_ne m ρ c main_arg1 (by decide)).symm
    _ = W9 m ρ c (Proc.devRef .tc main_arg1) := (StableHlo.after_of_forall_not_mem (b := Proc.devRef .tc main_arg1) _ _ (List.forall_iff_forall_mem.mp (by
      simp only [hostOps2, List.flatten_cons, List.flatten_nil, List.append_nil, List.cons_append,
        List.nil_append, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).symm
    _ = m ((c : Thread nD τ).loc main_arg1) := W9_main_arg1 m ρ c

theorem kernel_placed :
    (V7 m ρ c main_v64 : Vec F S4x214272x64 .f32) = place (m ((c.tc : Thread nD τ).loc main_arg1)) (V6 m ρ c main_v40) := by
  refine (after_hostOps1 (W6 m ρ c)).trans ?_
  rw [W6_main_arg1]

theorem ref_placed (x0 : (⟨Cert.ReferenceIdeal.S100000x32x4, .f32⟩ : BufTy).Contents (Elt F)) (x1 : (⟨Cert.ReferenceIdeal.S100000x4, .i32⟩ : BufTy).Contents (Elt F)) (x2 : (⟨Cert.ReferenceIdeal.S100000, .i32⟩ : BufTy).Contents (Elt F)) (x3 : (⟨Cert.ReferenceIdeal.S64x10, .f32⟩ : BufTy).Contents (Elt F)) (x4 x5 x6 x7 : (⟨Cert.ReferenceIdeal.S64, .f32⟩ : BufTy).Contents (Elt F)) :
    Cert.ReferenceIdeal.Read.val_main_v99 (F := F) x0 x1 x2 x3 x4 x5 x6 x7
      = place x1 (Cert.ReferenceIdeal.Read.val_main_v75 (F := F) x0 x1 x2 x3 x4 x5 x6 x7) := by
  unfold place
  unfold Cert.ReferenceIdeal.Read.val_main_v99 Cert.ReferenceIdeal.Read.val_main_v98 Cert.ReferenceIdeal.Read.val_main_v97
    Cert.ReferenceIdeal.Read.val_main_v96 Cert.ReferenceIdeal.Read.val_main_v95 Cert.ReferenceIdeal.Read.val_main_v94
    Cert.ReferenceIdeal.Read.val_main_v93 Cert.ReferenceIdeal.Read.val_main_v92 Cert.ReferenceIdeal.Read.val_main_v91
    Cert.ReferenceIdeal.Read.val_main_v90 Cert.ReferenceIdeal.Read.val_main_v89 Cert.ReferenceIdeal.Read.val_main_v88
    Cert.ReferenceIdeal.Read.val_main_v87 Cert.ReferenceIdeal.Read.val_main_v86 Cert.ReferenceIdeal.Read.val_main_v85
    Cert.ReferenceIdeal.Read.val_main_v84 Cert.ReferenceIdeal.Read.val_main_v83 Cert.ReferenceIdeal.Read.val_main_v82
    Cert.ReferenceIdeal.Read.val_main_v81 Cert.ReferenceIdeal.Read.val_main_v80 Cert.ReferenceIdeal.Read.val_main_v79
    Cert.ReferenceIdeal.Read.val_main_v78 Cert.ReferenceIdeal.Read.val_main_v77 Cert.ReferenceIdeal.Read.val_main_v76
    Cert.ReferenceIdeal.Read.val_main_c Cert.ReferenceIdeal.Read.val_main_c_8 Cert.ReferenceIdeal.Read.val_main_cst_9
    Cert.ReferenceIdeal.Read.val_main_c_10 Cert.ReferenceIdeal.Read.val_main_c_11
  rfl

-- From here on the placement is one opaque function: the two programs are compared through it, never through its body.
attribute [irreducible] place

end Cert.KernelIdeal.Host

end
-- ==== Proof.Rows.lean ====
/-
  From the first region's blocks to its output array.  The grid has 100 points; point t stages rows 1000 t to
  1000 t + 999 of the three arrays that are cut by rows and the whole of the eight parameter arrays, and writes back
  rows 1000 t to 1000 t + 999 of the output.  Row n of the output array is therefore row n mod 1000 of what point
  n / 1000 stores: the blocks cover the array, and each is the body's one whole-block store.
-/
import proofs.«414826_j24292335026905_3_alg».proof.Proof.Gen.KernelIdeal.Frame
import proofs.«414826_j24292335026905_3_alg».proof.Proof.Pillar
import Idealize.ShloMosaic.Lib.ValueIdx
import Idealize.ShloMosaic.Lib.Pipeline.Value
import Idealize.ShloMosaic.PureOps.Ideal.Laws

noncomputable section

namespace Cert.KernelIdeal.Host

open Idealize.ShloMosaic Idealize.ShloMosaic.TcCoe Idealize.SL.Sem Idealize.ShloMosaic.ValueIdx Cert.KernelIdeal Cert.KernelIdeal.Gen Cert.Pillar

/-- The pillar that row `r` of block `t` holds. -/
def row (t : Fin 100) (r : Fin 1000) : Fin 100000 := ⟨1000 * t.val + r.val, by have := t.isLt; have := r.isLt; omega⟩

/-- What the body stores for one block of 1000 pillars, from the block's inputs. -/
def blockOut (x0 : Vec Ideal S1000x128 .f32) (x1 : Vec Ideal S1000x4 .i32) (x2 : Vec Ideal S1000x1 .i32) (x3 : Vec Ideal S128x2048 .f32)
    (x4 : Vec Ideal S128x3 .f32) (x5 x6 : Vec Ideal S64x3 .f32) (x7 x8 x9 x10 : Vec Ideal S1x2048 .f32) : Vec Ideal S1000x64 .f32 :=
  k0_pay1 (F := Ideal) (k0_pay10 (k0_pay4 x2) (k0_pay5 x0 x3) (k0_pay6 x0 x2 x4) (k0_pay7 x1) (k0_pay8 x1) (k0_pay9 x1) x5 x6) (k0_pay11 x7) x8 x9 x10

namespace Rows

/-- The zero offsets of a whole-block rectangle, as the constant function. -/
theorem zero_off : (![0, 0] : Fin 2 → Nat) = fun _ => 0 := funext fun a => by fin_cases a <;> rfl

/-- The body loads every staging buffer whole and stores its one result whole: what it leaves in the output's
    buffer is `blockOut` of the input blocks. -/
theorem out_eq_blockOut (x0 : Vec Ideal S1000x128 .f32) (x1 : Vec Ideal S1000x4 .i32) (x2 : Vec Ideal S1000x1 .i32) (x3 : Vec Ideal S128x2048 .f32)
    (x4 : Vec Ideal S128x3 .f32) (x5 x6 : Vec Ideal S64x3 .f32) (x7 x8 x9 x10 : Vec Ideal S1x2048 .f32) :
    out0_11 (F := Ideal) x0 x1 x2 x3 x4 x5 x6 x7 x8 x9 x10 = blockOut x0 x1 x2 x3 x4 x5 x6 x7 x8 x9 x10 := by
  unfold out0_11 blockOut
  rw [View.canon_unit_zero zero_off]
  simp only [View.ld_unit_zero (S := S1000x128) zero_off, View.ld_unit_zero (S := S1000x4) zero_off,
    View.ld_unit_zero (S := S1000x1) zero_off, View.ld_unit_zero (S := S128x2048) zero_off,
    View.ld_unit_zero (S := S128x3) zero_off, View.ld_unit_zero (S := S64x3) zero_off,
    View.ld_unit_zero (S := S1x2048) zero_off]
end Rows

variable (m : (ℓ : Loc nD τ sig) → Buf (Elt Ideal) ℓ) (ρ : Dev nD → PrngReg) (c : Dev nD)

/-- Block `t` of the three arrays that are cut into blocks of 1000 rows. -/
def rows0 (t : Fin 100) : Vec Ideal S1000x128 .f32 := fun y => (V5 m ρ c main_v38 : Vec Ideal S100000x128 .f32) (ix2 (row t (y 0)) (y 1))
def rows1 (t : Fin 100) : Vec Ideal S1000x4 .i32 := fun y => (V5 m ρ c main_arg1 : Vec Ideal S100000x4 .i32) (ix2 (row t (y 0)) (y 1))
def rows2 (t : Fin 100) : Vec Ideal S1000x1 .i32 := fun y => (V5 m ρ c main_v39 : Vec Ideal S100000x1 .i32) (ix2 (row t (y 0)) (y 1))

namespace Rows

/-- The printed index maps over the grid: the three row-blocked inputs and the output take block (t, 0) at point
    `t`; the other eight inputs take block (0, 0) at every point. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- A grid point as a number below 100. -/
def pt (t : Fin cfg0.N) : Fin 100 := Fin.cast N_0 t

/-- Window 0's block at point `t` is rows `1000 t …` of its array. -/
theorem iblk_rows0 (t : Fin cfg0.N) : (iblk0 (V5 m ρ) c 0 t : Vec Ideal S1000x128 .f32) = rows0 m ρ c (pt t) := by
  obtain ⟨⟨e0, e1⟩, -⟩ := index_facts t
  funext y
  unfold iblk0 rows0
  rw [View.read_apply]
  show V5 m ρ c main_v38 _ = V5 m ρ c main_v38 _
  congr 1
  funext a
  apply Fin.ext
  match a with
  | ⟨0, _⟩ => show win0_0.index t (0 : Fin 2) * 1000 + 1 * (y 0).val = 1000 * t.val + (y 0).val; rw [e0]; omega
  | ⟨1, _⟩ => show win0_0.index t (1 : Fin 2) * 128 + 1 * (y 1).val = (y 1).val; rw [e1]; omega

/-- Window 1's block at point `t` is rows `1000 t …` of its array. -/
theorem iblk_rows1 (t : Fin cfg0.N) : (iblk0 (V5 m ρ) c 1 t : Vec Ideal S1000x4 .i32) = rows1 m ρ c (pt t) := by
  obtain ⟨-, ⟨e0, e1⟩, -⟩ := index_facts t
  funext y
  unfold iblk0 rows1
  rw [View.read_apply]
  show V5 m ρ c main_arg1 _ = V5 m ρ c main_arg1 _
  congr 1
  funext a
  apply Fin.ext
  match a with
  | ⟨0, _⟩ => show win0_1.index t (0 : Fin 2) * 1000 + 1 * (y 0).val = 1000 * t.val + (y 0).val; rw [e0]; omega
  | ⟨1, _⟩ => show win0_1.index t (1 : Fin 2) * 4 + 1 * (y 1).val = (y 1).val; rw [e1]; omega

/-- Window 2's block at point `t` is rows `1000 t …` of its array. -/
theorem iblk_rows2 (t : Fin cfg0.N) : (iblk0 (V5 m ρ) c 2 t : Vec Ideal S1000x1 .i32) = rows2 m ρ c (pt t) := by
  obtain ⟨-, -, ⟨e0, e1⟩, -⟩ := index_facts t
  funext y
  unfold iblk0 rows2
  rw [View.read_apply]
  show V5 m ρ c main_v39 _ = V5 m ρ c main_v39 _
  congr 1
  funext a
  apply Fin.ext
  match a with
  | ⟨0, _⟩ => show win0_2.index t (0 : Fin 2) * 1000 + 1 * (y 0).val = 1000 * t.val + (y 0).val; rw [e0]; omega
  | ⟨1, _⟩ => show win0_2.index t (1 : Fin 2) * 1 + 1 * (y 1).val = (y 1).val; rw [e1]; omega

/-- Window 3's block is its whole array at every point. -/
theorem iblk_whole3 (t : Fin cfg0.N) : (iblk0 (V5 m ρ) c 3 t : Vec Ideal S128x2048 .f32) = V5 m ρ c main_v13 := by
  obtain ⟨-, -, -, ⟨e0, e1⟩, -⟩ := index_facts t
  funext y
  unfold iblk0
  rw [View.read_apply]
  show V5 m ρ c main_v13 _ = V5 m ρ c main_v13 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 2048 + 1 * (y 1).val = (y 1).val; rw [e1]; omega

/-- Window 4's block is its whole array at every point. -/
theorem iblk_whole4 (t : Fin cfg0.N) : (iblk0 (V5 m ρ) c 4 t : Vec Ideal S128x3 .f32) = V5 m ρ c main_v21 := by
  obtain ⟨-, -, -, -, ⟨e0, e1⟩, -⟩ := index_facts t
  funext y
  unfold iblk0
  rw [View.read_apply]
  show V5 m ρ c main_v21 _ = V5 m ρ c main_v21 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 3 + 1 * (y 1).val = (y 1).val; rw [e1]; omega

/-- Window 5's block is its whole array at every point. -/
theorem iblk_whole5 (t : Fin cfg0.N) : (iblk0 (V5 m ρ) c 5 t : Vec Ideal S64x3 .f32) = V5 m ρ c main_v1 := by
  obtain ⟨-, -, -, -, -, ⟨e0, e1⟩, -⟩ := index_facts t
  funext y
  unfold iblk0
  rw [View.read_apply]
  show V5 m ρ c main_v1 _ = V5 m ρ c main_v1 _
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 3 + 1 * (y 1).val = (y 1).val; rw [e1]; omega

/-- Window 6's block is its whole array at every point. -/
theorem iblk_whole6 (t : Fin cfg0.N) : (iblk0 (V5 m ρ) c 6 t : Vec Ideal S64x3 .f32) = V5 m ρ c main_v2 := by
  obtain ⟨-, -, -, -, -, -, ⟨e0, e1⟩, -⟩ := index_facts t
  funext y
  unfold iblk0
  rw [View.read_apply]
  show V5 m ρ c main_v2 _ = V5 m ρ c main_v2 _
  congr 1
  funext a
  apply Fin.ext
  match a with
  | ⟨0, _⟩ => show win0_6.index t (0 : Fin 2) * 64 + 1 * (y 0).val = (y 0).val; rw [e0]; omega
  | ⟨1, _⟩ => show win0_6.index t (1 : Fin 2) * 3 + 1 * (y 1).val = (y 1).val; rw [e1]; omega

/-- Window 7's block is its whole array at every point. -/
theorem iblk_whole7 (t : Fin cfg0.N) : (iblk0 (V5 m ρ) c 7 t : Vec Ideal S1x2048 .f32) = V5 m ρ c main_v25 := by
  obtain ⟨-, -, -, -, -, -, -, ⟨e0, e1⟩, -⟩ := index_facts t
  funext y
  unfold iblk0
  rw [View.read_apply]
  show V5 m ρ c main_v25 _ = V5 m ρ c main_v25 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 2048 + 1 * (y 1).val = (y 1).val; rw [e1]; omega

/-- Window 8's block is its whole array at every point. -/
theorem iblk_whole8 (t : Fin cfg0.N) : (iblk0 (V5 m ρ) c 8 t : Vec Ideal S1x2048 .f32) = V5 m ρ c main_v29 := by
  obtain ⟨-, -, -, -, -, -, -, -, ⟨e0, e1⟩, -⟩ := index_facts t
  funext y
  unfold iblk0
  rw [View.read_apply]
  show V5 m ρ c main_v29 _ = V5 m ρ c main_v29 _
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 2048 + 1 * (y 1).val = (y 1).val; rw [e1]; omega

/-- Window 9's block is its whole array at every point. -/
theorem iblk_whole9 (t : Fin cfg0.N) : (iblk0 (V5 m ρ) c 9 t : Vec Ideal S1x2048 .f32) = V5 m ρ c main_v33 := by
  obtain ⟨-, -, -, -, -, -, -, -, -, ⟨e0, e1⟩, -⟩ := index_facts t
  funext y
  unfold iblk0
  rw [View.read_apply]
  show V5 m ρ c main_v33 _ = V5 m ρ c main_v33 _
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 2048 + 1 * (y 1).val = (y 1).val; rw [e1]; omega

/-- Window 10's block is its whole array at every point. -/
theorem iblk_whole10 (t : Fin cfg0.N) : (iblk0 (V5 m ρ) c 10 t : Vec Ideal S1x2048 .f32) = V5 m ρ c main_v37 := by
  obtain ⟨-, -, -, -, -, -, -, -, -, -, ⟨e0, e1⟩, -⟩ := index_facts t
  funext y
  unfold iblk0
  rw [View.read_apply]
  show V5 m ρ c main_v37 _ = V5 m ρ c main_v37 _
  congr 1
  funext a
  apply Fin.ext
  match a with
  | ⟨0, _⟩ => show win0_10.index t (0 : Fin 2) * 1 + 1 * (y 0).val = (y 0).val; rw [e0]; omega
  | ⟨1, _⟩ => show win0_10.index t (1 : Fin 2) * 2048 + 1 * (y 1).val = (y 1).val; rw [e1]; omega

/-- The point that handles row `n`, and the row of that point's block it is. -/
def ptOf (n : Fin 100000) : Fin 100 := ⟨n.val / 1000, by have := n.isLt; omega⟩
def rowOf (n : Fin 100000) : Fin 1000 := ⟨n.val % 1000, Nat.mod_lt _ (by decide)⟩

/-- What the output array ends holding at row `n`, channel `ch`: row `n % 1000` of what point `n / 1000` stores. -/
def finalAt (n : Fin 100000) (ch : Fin 64) : Elt Ideal .f32 :=
  blockOut (rows0 m ρ c (ptOf n)) (rows1 m ρ c (ptOf n)) (rows2 m ρ c (ptOf n)) (V5 m ρ c main_v13) (V5 m ρ c main_v21) (V5 m ρ c main_v1) (V5 m ρ c main_v2)
          (V5 m ρ c main_v25) (V5 m ρ c main_v29) (V5 m ρ c main_v33) (V5 m ρ c main_v37) (ix2 (rowOf n) ch)

/-- The same as an array. -/
def finalArr : Vec Ideal S100000x64 .f32 := fun i => finalAt m ρ c (i 0) (i 1)

/-- At row `1000 t + r` it is row `r` of what point `t` stores. -/
theorem finalArr_at (t : Fin 100) (r : Fin 1000) (ch : Fin 64) (i : S100000x64.Idx)
    (h0 : (i 0).val = 1000 * t.val + r.val) (h1 : (i 1).val = ch.val) :
    finalArr m ρ c i = blockOut (rows0 m ρ c t) (rows1 m ρ c t) (rows2 m ρ c t) (V5 m ρ c main_v13) (V5 m ρ c main_v21) (V5 m ρ c main_v1) (V5 m ρ c main_v2)
          (V5 m ρ c main_v25) (V5 m ρ c main_v29) (V5 m ρ c main_v33) (V5 m ρ c main_v37) (ix2 r ch) := by
  have hp : ptOf (i 0) = t := Fin.ext (by show (i 0).val / 1000 = t.val; have := r.isLt; omega)
  have hr : rowOf (i 0) = r := Fin.ext (by show (i 0).val % 1000 = r.val; have := r.isLt; omega)
  have hc : (i 1 : Fin 64) = ch := Fin.ext h1
  unfold finalArr finalAt
  rw [hp, hr, hc]

/-- Block `t` of that array is what point `t` stores. -/
theorem read_finalArr (t : Fin cfg0.N) :
    (((cfg0.win 11).blk t).view.read (Elt Ideal) (finalArr m ρ c) : Vec Ideal S1000x64 .f32)
      = blockOut (rows0 m ρ c (pt t)) (rows1 m ρ c (pt t)) (rows2 m ρ c (pt t)) (V5 m ρ c main_v13) (V5 m ρ c main_v21) (V5 m ρ c main_v1) (V5 m ρ c main_v2)
          (V5 m ρ c main_v25) (V5 m ρ c main_v29) (V5 m ρ c main_v33) (V5 m ρ c main_v37) := by
  obtain ⟨-, -, -, -, -, -, -, -, -, -, -, ⟨e0, e1⟩⟩ := index_facts t
  refine funext fun (y : S1000x64.Idx) => ?_
  rw [View.read_apply]
  show finalArr m ρ c (((cfg0.win 11).blk t).view.emb y) = _
  refine (finalArr_at m ρ c (pt t) (y 0) (y 1) _ ?_ ?_).trans ?_
  · show win0_11.index t (0 : Fin 2) * 1000 + 1 * (y 0).val = 1000 * t.val + (y 0).val
    rw [e0]; omega
  · show win0_11.index t (1 : Fin 2) * 64 + 1 * (y 1).val = (y 1).val
    rw [e1]; omega
  · congr 1
    exact (eq_ix2 (n0 := 1000) (n1 := 64) y).symm

/-- What point `t` writes back is block `t` of that array. -/
theorem flushed_eq (t : Fin cfg0.N) :
    (dat0 (V5 m ρ) c).flushed 11 t = ((cfg0.win 11).blk t).view.read (Elt Ideal) (finalArr m ρ c) := by
  show (cfg0.win 11).cut (grid0.coords t) ((dat0 (V5 m ρ) c).after 11 t) = _
  rw [after0_11, out_eq_blockOut, iblk_rows0, iblk_rows1, iblk_rows2, iblk_whole3, iblk_whole4, iblk_whole5, iblk_whole6,
    iblk_whole7, iblk_whole8, iblk_whole9, iblk_whole10]
  exact (read_finalArr m ρ c t).symm

/-- An index of the output array is in point `t`'s block iff each coordinate is in the block's range on its axis. -/
theorem mem_blk (t : Fin cfg0.N) (i : S100000x64.Idx) :
    i ∈ ((cfg0.win 11).blk t).view.set ↔ ∀ a : Fin 2, win0_11.index t a * S1000x64.size a ≤ (i a).val
      ∧ (i a).val < win0_11.index t a * S1000x64.size a + S1000x64.size a := by
  show i ∈ ((View.whole main_v40).slice (win0_11.rect t)).set ↔ _
  rw [View.set_slice_whole, Rect.mem_set_unit]
  exact Iff.rfl

/-- Row `n` of the output array is covered by point `n / 1000`, which writes back. -/
theorem cover (i : S100000x64.Idx) :
    ∃ t : Fin cfg0.N, (cfg0.win 11).flush t = true ∧ i ∈ ((cfg0.win 11).blk t).view.set := by
  have hi0 : (i 0).val < 100000 := (i 0).isLt
  have hi1 : (i 1).val < 64 := (i 1).isLt
  have hN : (i 0).val / 1000 < cfg0.N := by show _ < grid0.N; rw [N_0]; omega
  obtain ⟨-, -, -, -, -, -, -, -, -, -, -, ⟨e0, e1⟩⟩ := index_facts ⟨(i 0).val / 1000, hN⟩
  refine ⟨⟨(i 0).val / 1000, hN⟩, flush0_11 _, ?_⟩
  rw [mem_blk]
  intro a
  match a with
  | ⟨0, _⟩ =>
    show win0_11.index ⟨(i 0).val / 1000, hN⟩ (0 : Fin 2) * 1000 ≤ (i 0).val
      ∧ (i 0).val < win0_11.index ⟨(i 0).val / 1000, hN⟩ (0 : Fin 2) * 1000 + 1000
    rw [e0]; show (i 0).val / 1000 * 1000 ≤ (i 0).val ∧ (i 0).val < (i 0).val / 1000 * 1000 + 1000; omega
  | ⟨1, _⟩ =>
    show win0_11.index ⟨(i 0).val / 1000, hN⟩ (1 : Fin 2) * 64 ≤ (i 1).val
      ∧ (i 1).val < win0_11.index ⟨(i 0).val / 1000, hN⟩ (1 : Fin 2) * 64 + 64
    rw [e1]; omega

/-- The output array after the region. -/
theorem final : (dat0 (V5 m ρ) c).arrAt 11 cfg0.N = finalArr m ρ c :=
  (dat0 (V5 m ρ) c).arrAt_eq_of_cover 11 (finalArr m ρ c) (fun t _ => flushed_eq m ρ c t) (cover)

end Rows

theorem pillars_final (t : Fin 100) (r : Fin 1000) (ch : Fin 64) :
    (V6 m ρ c main_v40 : Vec Ideal S100000x64 .f32) (ix2 (row t r) ch)
      = blockOut (rows0 m ρ c t) (rows1 m ρ c t) (rows2 m ρ c t) (V5 m ρ c main_v13) (V5 m ρ c main_v21) (V5 m ρ c main_v1) (V5 m ρ c main_v2)
          (V5 m ρ c main_v25) (V5 m ρ c main_v29) (V5 m ρ c main_v33) (V5 m ρ c main_v37) (ix2 r ch) := by
  have h : (V6 m ρ c main_v40 : Vec Ideal S100000x64 .f32) = Rows.finalArr m ρ c :=
    (hF0 m ρ c 11).symm.trans (Rows.final m ρ c)
  refine (congrFun h _).trans ?_
  exact Rows.finalArr_at m ρ c t r ch _ rfl rfl

end Cert.KernelIdeal.Host

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.Gemm.lean ====
/-
  The matrix products and the small pointwise pieces of the first region's body, read at an index on the extended
  reals.  A product into a zero accumulator is the plain sum over the contracted axis, and rounding an operand to a
  narrower float format first changes nothing there.  The row's mean is the product with the matrix that picks x, y
  and z out of every slot, divided by the row's count clamped below by one; the voxel's centre is an affine function
  of one integer coordinate of the row.
-/
import proofs.«414826_j24292335026905_3_alg».proof.Proof.Gen.KernelIdeal.Skeleton
import proofs.«414826_j24292335026905_3_alg».proof.Proof.Pillar
import proofs.«414826_j24292335026905_3_alg».proof.Proof.LibKeepdims
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.TcCoe Idealize.SL.Sem Idealize.ShloMosaic.ValueIdx Cert.KernelIdeal Cert.KernelIdeal.Gen Cert.Pillar

/-! ## The operand indices of the two products

Both products contract the left operand's second axis with the right operand's first: at the result's index
`(r, q)` and the contraction index `k` the left operand is read at `(r, k)` and the right one at `(k, q)`. -/

theorem lhs_pay5_0 (i : S1000x2048.Idx) (q : dot_S1000x128_S128x2048_S1000x2048_1_0_0_1_n_n.contr.Idx) :
    (dot_S1000x128_S128x2048_S1000x2048_1_0_0_1_n_n.lhsIdx i q 0).val = (i 0).val := by
  unfold DotDims.lhsIdx
  rw [dif_neg (show ¬(0 : Fin S1000x128.rank) ∈ dot_S1000x128_S128x2048_S1000x2048_1_0_0_1_n_n.lhsBatch by decide), dif_pos (show (0 : Fin S1000x128.rank) ∈ dot_S1000x128_S128x2048_S1000x2048_1_0_0_1_n_n.lhsNonContracting by decide)]
  rfl
theorem lhs_pay5_1 (i : S1000x2048.Idx) (q : dot_S1000x128_S128x2048_S1000x2048_1_0_0_1_n_n.contr.Idx) :
    (dot_S1000x128_S128x2048_S1000x2048_1_0_0_1_n_n.lhsIdx i q 1).val = (q ⟨0, by decide⟩).val :=
  dot_S1000x128_S128x2048_S1000x2048_1_0_0_1_n_n.lhsIdx_val_of_single rfl i q
theorem rhs_pay5_0 (i : S1000x2048.Idx) (q : dot_S1000x128_S128x2048_S1000x2048_1_0_0_1_n_n.contr.Idx) :
    (dot_S1000x128_S128x2048_S1000x2048_1_0_0_1_n_n.rhsIdx i q 0).val = (q ⟨0, by decide⟩).val :=
  dot_S1000x128_S128x2048_S1000x2048_1_0_0_1_n_n.rhsIdx_val_of_single rfl i q
theorem rhs_pay5_1 (i : S1000x2048.Idx) (q : dot_S1000x128_S128x2048_S1000x2048_1_0_0_1_n_n.contr.Idx) :
    (dot_S1000x128_S128x2048_S1000x2048_1_0_0_1_n_n.rhsIdx i q 1).val = (i 1).val := by
  unfold DotDims.rhsIdx
  rw [dif_neg (show ¬(1 : Fin S128x2048.rank) ∈ dot_S1000x128_S128x2048_S1000x2048_1_0_0_1_n_n.rhsBatch by decide), dif_pos (show (1 : Fin S128x2048.rank) ∈ dot_S1000x128_S128x2048_S1000x2048_1_0_0_1_n_n.rhsNonContracting by decide)]
  rfl

theorem lhs_pay6_0 (i : S1000x3.Idx) (q : dot_S1000x128_S128x3_S1000x3_1_0_0_1_n_n.contr.Idx) :
    (dot_S1000x128_S128x3_S1000x3_1_0_0_1_n_n.lhsIdx i q 0).val = (i 0).val := by
  unfold DotDims.lhsIdx
  rw [dif_neg (show ¬(0 : Fin S1000x128.rank) ∈ dot_S1000x128_S128x3_S1000x3_1_0_0_1_n_n.lhsBatch by decide), dif_pos (show (0 : Fin S1000x128.rank) ∈ dot_S1000x128_S128x3_S1000x3_1_0_0_1_n_n.lhsNonContracting by decide)]
  rfl
theorem lhs_pay6_1 (i : S1000x3.Idx) (q : dot_S1000x128_S128x3_S1000x3_1_0_0_1_n_n.contr.Idx) :
    (dot_S1000x128_S128x3_S1000x3_1_0_0_1_n_n.lhsIdx i q 1).val = (q ⟨0, by decide⟩).val :=
  dot_S1000x128_S128x3_S1000x3_1_0_0_1_n_n.lhsIdx_val_of_single rfl i q
theorem rhs_pay6_0 (i : S1000x3.Idx) (q : dot_S1000x128_S128x3_S1000x3_1_0_0_1_n_n.contr.Idx) :
    (dot_S1000x128_S128x3_S1000x3_1_0_0_1_n_n.rhsIdx i q 0).val = (q ⟨0, by decide⟩).val :=
  dot_S1000x128_S128x3_S1000x3_1_0_0_1_n_n.rhsIdx_val_of_single rfl i q
theorem rhs_pay6_1 (i : S1000x3.Idx) (q : dot_S1000x128_S128x3_S1000x3_1_0_0_1_n_n.contr.Idx) :
    (dot_S1000x128_S128x3_S1000x3_1_0_0_1_n_n.rhsIdx i q 1).val = (i 1).val := by
  unfold DotDims.rhsIdx
  rw [dif_neg (show ¬(1 : Fin S128x3.rank) ∈ dot_S1000x128_S128x3_S1000x3_1_0_0_1_n_n.rhsBatch by decide), dif_pos (show (1 : Fin S128x3.rank) ∈ dot_S1000x128_S128x3_S1000x3_1_0_0_1_n_n.rhsNonContracting by decide)]
  rfl

/-- The product of a `[1000, 128]` by a `[128, 2048]` operand into the zero accumulator, at `(r, q)`: the sum over
    the contracted axis. -/
theorem matmul5_apply {φ₁ φ₂ : FTy} (a : FVec Ideal S1000x128 φ₁) (b : FVec Ideal S128x2048 φ₂) (r : Fin 1000) (q : Fin 2048) :
    FloatOps.matmul dot_S1000x128_S128x2048_S1000x2048_1_0_0_1_n_n none a b (constant S1000x2048 .f32 0x00000000#32) (ix2 r q)
      = ∑ k : Fin 128, a (ix2 r k) * b (ix2 k q) := by
  rw [Ideal.matmul_constant_zero_apply, ← Equiv.sum_comp (ValueIdx.contrEquiv1 dot_S1000x128_S128x2048_S1000x2048_1_0_0_1_n_n 128 rfl rfl).symm]
  refine Finset.sum_congr rfl fun k _ => ?_
  have hk := ValueIdx.contrEquiv1_symm_val dot_S1000x128_S128x2048_S1000x2048_1_0_0_1_n_n 128 rfl rfl k
  have el : dot_S1000x128_S128x2048_S1000x2048_1_0_0_1_n_n.lhsIdx (ix2 r q) ((ValueIdx.contrEquiv1 dot_S1000x128_S128x2048_S1000x2048_1_0_0_1_n_n 128 rfl rfl).symm k) = ix2 r k := funext fun a => Fin.ext (by
    match a with
    | ⟨0, _⟩ => exact lhs_pay5_0 _ _
    | ⟨1, _⟩ => exact (lhs_pay5_1 _ _).trans hk)
  have er : dot_S1000x128_S128x2048_S1000x2048_1_0_0_1_n_n.rhsIdx (ix2 r q) ((ValueIdx.contrEquiv1 dot_S1000x128_S128x2048_S1000x2048_1_0_0_1_n_n 128 rfl rfl).symm k) = ix2 k q := funext fun a => Fin.ext (by
    match a with
    | ⟨0, _⟩ => exact (rhs_pay5_0 _ _).trans hk
    | ⟨1, _⟩ => exact rhs_pay5_1 _ _)
  rw [el, er]

/-- The product of a `[1000, 128]` by a `[128, 3]` operand into the zero accumulator, at `(r, j)`. -/
theorem matmul6_apply {φ₁ φ₂ : FTy} (a : FVec Ideal S1000x128 φ₁) (b : FVec Ideal S128x3 φ₂) (r : Fin 1000) (j : Fin 3) :
    FloatOps.matmul dot_S1000x128_S128x3_S1000x3_1_0_0_1_n_n none a b (constant S1000x3 .f32 0x00000000#32) (ix2 r j)
      = ∑ k : Fin 128, a (ix2 r k) * b (ix2 k j) := by
  rw [Ideal.matmul_constant_zero_apply, ← Equiv.sum_comp (ValueIdx.contrEquiv1 dot_S1000x128_S128x3_S1000x3_1_0_0_1_n_n 128 rfl rfl).symm]
  refine Finset.sum_congr rfl fun k _ => ?_
  have hk := ValueIdx.contrEquiv1_symm_val dot_S1000x128_S128x3_S1000x3_1_0_0_1_n_n 128 rfl rfl k
  have el : dot_S1000x128_S128x3_S1000x3_1_0_0_1_n_n.lhsIdx (ix2 r j) ((ValueIdx.contrEquiv1 dot_S1000x128_S128x3_S1000x3_1_0_0_1_n_n 128 rfl rfl).symm k) = ix2 r k := funext fun a => Fin.ext (by
    match a with
    | ⟨0, _⟩ => exact lhs_pay6_0 _ _
    | ⟨1, _⟩ => exact (lhs_pay6_1 _ _).trans hk)
  have er : dot_S1000x128_S128x3_S1000x3_1_0_0_1_n_n.rhsIdx (ix2 r j) ((ValueIdx.contrEquiv1 dot_S1000x128_S128x3_S1000x3_1_0_0_1_n_n 128 rfl rfl).symm k) = ix2 k j := funext fun a => Fin.ext (by
    match a with
    | ⟨0, _⟩ => exact (rhs_pay6_0 _ _).trans hk
    | ⟨1, _⟩ => exact rhs_pay6_1 _ _)
  rw [el, er]

/-- A column `[a, 1]` cast to the vector `[a]` reads, at `r`, the column at row `r`. -/
theorem shapeCast_a1_a_apply {α : Type} {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- The one-column slice at column `c` of an `[a, b]` array reads, at `(r, 0)`, the array at `(r, c)`. -/
theorem slice_col_apply {α : Type} {a b : ℕ} (c : ℕ) (x : (⟨2, ![a, b]⟩ : Shape).Idx → α)
    (h : (⟨2, ![a, b]⟩ : Shape).Slices ![0, c] ⟨2, ![a, 1]⟩) (r : Fin a) (k : Fin b) (hk : k.val = c) :
    extractStridedSlice ⟨2, ![a, 1]⟩ ![0, c] x h (ix2 r (0 : Fin 1)) = x (ix2 r k) :=
  extractStridedSlice_apply _ x h _ _ fun ax => match ax with
    | ⟨0, _⟩ => by show r.val = 0 + r.val; rw [Nat.zero_add]
    | ⟨1, _⟩ => by show k.val = c + 0; rw [hk, Nat.add_zero]

theorem pay5_apply (x0 : Vec Ideal S1000x128 .f32) (x3 : Vec Ideal S128x2048 .f32) (r : Fin 1000) (q : Fin 2048) :
    k0_pay5 (F := Ideal) x0 x3 (ix2 r q) = ∑ k : Fin 128, x0 (ix2 r k) * x3 (ix2 k q) := by
  unfold k0_pay5 k0_pay2
  rw [shapeCast_self, shapeCast_self]
  exact matmul5_apply _ _ r q

theorem pay6_apply (x0 : Vec Ideal S1000x128 .f32) (x2 : Vec Ideal S1000x1 .i32) (x4 : Vec Ideal S128x3 .f32) (r : Fin 1000) (j : Fin 3) :
    k0_pay6 (F := Ideal) x0 x2 x4 (ix2 r j)
      = Ideal.div (∑ k : Fin 128, x0 (ix2 r k) * x4 (ix2 k j)) (max (fl (x2 (ix2 r 0))) one) := by
  unfold k0_pay6 k0_pay4 k0_pay2
  rw [shapeCast_self, shapeCast_self, shapeCast_self]
  show Ideal.div (FloatOps.matmul (F := Ideal) dot_S1000x128_S128x3_S1000x3_1_0_0_1_n_n none x0 x4 (constant S1000x3 .f32 0x00000000#32) (ix2 r j))
      (broadcastTo S1000x3 _ broadcasts_S1000x1_S1000x3 (ix2 r j)) = _
  rw [matmul6_apply, Keepdims.broadcastTo_a1_ab_apply]
  rfl

theorem pay7_apply (x1 : Vec Ideal S1000x4 .i32) (r : Fin 1000) :
    k0_pay7 (F := Ideal) x1 (ix2 r 0) = fl (x1 (ix2 r 3)) * vx + xo := by
  unfold k0_pay7 k0_pay3
  refine (Keepdims.shapeCast_a_a1_apply _ _ r 0).trans ?_
  show shapeCast S1000 _ shapeCasts_S1000x1_S1000 (ix1 r) * _ + _ = _
  rw [shapeCast_a1_a_apply, slice_col_apply _ _ _ r 3 (by decide)]
  rfl

theorem pay8_apply (x1 : Vec Ideal S1000x4 .i32) (r : Fin 1000) :
    k0_pay8 (F := Ideal) x1 (ix2 r 0) = fl (x1 (ix2 r 2)) * vx + yo := by
  unfold k0_pay8 k0_pay3
  refine (Keepdims.shapeCast_a_a1_apply _ _ r 0).trans ?_
  show shapeCast S1000 _ shapeCasts_S1000x1_S1000 (ix1 r) * _ + _ = _
  rw [shapeCast_a1_a_apply, slice_col_apply _ _ _ r 2 (by decide)]
  rfl

theorem pay9_apply (x1 : Vec Ideal S1000x4 .i32) (r : Fin 1000) :
    k0_pay9 (F := Ideal) x1 (ix2 r 0) = fl (x1 (ix2 r 1)) * vz + zo := by
  unfold k0_pay9 k0_pay3
  refine (Keepdims.shapeCast_a_a1_apply _ _ r 0).trans ?_
  show shapeCast S1000 _ shapeCasts_S1000x1_S1000 (ix1 r) * _ + _ = _
  rw [shapeCast_a1_a_apply, slice_col_apply _ _ _ r 1 (by decide)]
  rfl

end Cert.KernelIdeal.Body

end
-- ==== Proof.SlotMask.lean ====
/-
  The occupancy mask of a block of 1000 pillars, as the kernel's body spells it: the lane index of a row of
  32 × 64 activations divided by 64, rounding toward minus infinity (the slot the lane belongs to), compared with
  the pillar's count.  Named here so that the rest of the body can be read with the mask as one term, and the
  mask itself read at a lane on its own.
-/
import proofs.«414826_j24292335026905_3_alg».proof.Proof.Gen.KernelIdeal

noncomputable section

namespace Cert.KernelIdeal.Body

open Idealize.ShloMosaic Idealize.SL.Sem Cert.KernelIdeal Cert.KernelIdeal.Gen

variable {F : FTy → Type} [FloatOps F]

/-- The slot of each lane: the lane index divided by 64, with the correction that makes a signed division round
    toward minus infinity. -/
noncomputable def slotIdx : IVec S1x2048 32 :=
  have v51 : IVec S1x2048 32 := iota .tc S1x2048 32 [1] iota_S1x2048_d1_w32
  have v52 : IVec S1x2048 32 := broadcast S1x2048 64#32
  have v53 : IVec S1x2048 32 := divsi v51 v52
  have v54 : IVec S1x2048 32 := broadcast S1x2048 0#32
  have v55 : IVec S1x2048 1 := cmpi .sgt v51 v54
  have v56 : IVec S1x2048 32 := extui 32 v55 natLt_1_32
  have v57 : IVec S1x2048 32 := broadcast S1x2048 0#32
  have v58 : IVec S1x2048 1 := cmpi .slt v51 v57
  have v59 : IVec S1x2048 32 := extui 32 v58 natLt_1_32
  have v60 : IVec S1x2048 32 := subi v56 v59
  let v61 : BitVec 1 := Scalar.cmpi .sgt 64#32 0#32
  let v62 : BitVec 32 := Scalar.extui v61
  let v63 : BitVec 1 := Scalar.cmpi .slt 64#32 0#32
  let v64 : BitVec 32 := Scalar.extui v63
  let v65 : BitVec 32 := Scalar.subi v62 v64
  have v66 : IVec S1x2048 32 := broadcast S1x2048 v65
  have v67 : IVec S1x2048 1 := cmpi .ne v60 v66
  have v68 : IVec S1x2048 32 := broadcast S1x2048 64#32
  have v69 : IVec S1x2048 32 := remsi v51 v68
  have v70 : IVec S1x2048 32 := broadcast S1x2048 0#32
  have v71 : IVec S1x2048 1 := cmpi .ne v69 v70
  have v72 : IVec S1x2048 1 := andi v67 v71
  have v73 : IVec S1x2048 32 := broadcast S1x2048 1#32
  have v74 : IVec S1x2048 32 := subi v53 v73
  have v75 : IVec S1x2048 32 := select v72 v74 v53
  v75

/-- 1 at the lanes whose slot is below the pillar's count, else 0. -/
noncomputable def slotMask (v6 : IVec S1000x1 32) : FVec F S1000x2048 .f32 :=
  have v76 : IVec S1000x2048 32 := broadcastTo S1000x2048 slotIdx broadcasts_S1x2048_S1000x2048
  have v77 : IVec S1000x2048 32 := broadcastTo S1000x2048 v6 broadcasts_S1000x1_S1000x2048
  have v78 : IVec S1000x2048 1 := cmpi .slt v76 v77
  have v79 : IVec S1000x2048 32 := extui 32 v78 natLt_1_32
  have v80 : FVec F S1000x2048 .f32 := sitofp .f32 v79
  v80

end Cert.KernelIdeal.Body

end
-- ==== Proof.Bias.lean ====
/-
  The bias of the folded arrangement, read at one lane.  The part of the linear layer that does not depend on the
  slot is a row of 64 numbers per pillar: the three offsets' weights contracted with the points' mean, plus the three
  centre weights contracted with the voxel's centre.  The body computes it as two [1000,3] × [3,64] products into
  zero accumulators — the right operands the transposed [64,3] weight blocks, the second left operand the three
  centre columns laid side by side —, lays 32 copies of the [1000,64] result side by side to cover the 32 slots of a
  row of 32 × 64 activations, subtracts that from the activations and multiplies by the occupancy mask.

  Read at lane 64 p + ch of row r this is the activation minus the bias of channel ch, times the mask: a copy of
  width 64 laid at offset 64 p is read at the lane's remainder modulo 64, which is ch whatever p is.
-/
import proofs.«414826_j24292335026905_3_alg».proof.Proof.Gen.KernelIdeal.Skeleton
import proofs.«414826_j24292335026905_3_alg».proof.Proof.SlotMask
import proofs.«414826_j24292335026905_3_alg».proof.Proof.Pillar
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.TcCoe Idealize.SL.Sem Idealize.ShloMosaic.ValueIdx Cert.KernelIdeal Cert.KernelIdeal.Gen Cert.Pillar

/-- The left operand's row is the output's row … -/
theorem dot_lhs_0 (i : S1000x64.Idx) (q : dot_S1000x3_S3x64_S1000x64_1_0_0_1_n_n.contr.Idx) : (dot_S1000x3_S3x64_S1000x64_1_0_0_1_n_n.lhsIdx i q 0).val = (i 0).val := by
  unfold DotDims.lhsIdx
  rw [dif_neg (show ¬(0 : Fin S1000x3.rank) ∈ dot_S1000x3_S3x64_S1000x64_1_0_0_1_n_n.lhsBatch by decide),
    dif_pos (show (0 : Fin S1000x3.rank) ∈ dot_S1000x3_S3x64_S1000x64_1_0_0_1_n_n.lhsNonContracting by decide)]
  rfl
/-- … and its column the contraction position. -/
theorem dot_lhs_1 (i : S1000x64.Idx) (q : dot_S1000x3_S3x64_S1000x64_1_0_0_1_n_n.contr.Idx) : (dot_S1000x3_S3x64_S1000x64_1_0_0_1_n_n.lhsIdx i q 1).val = (q ⟨0, by decide⟩).val :=
  dot_S1000x3_S3x64_S1000x64_1_0_0_1_n_n.lhsIdx_val_of_single rfl i q
/-- The right operand's row is the contraction position … -/
theorem dot_rhs_0 (i : S1000x64.Idx) (q : dot_S1000x3_S3x64_S1000x64_1_0_0_1_n_n.contr.Idx) : (dot_S1000x3_S3x64_S1000x64_1_0_0_1_n_n.rhsIdx i q 0).val = (q ⟨0, by decide⟩).val :=
  dot_S1000x3_S3x64_S1000x64_1_0_0_1_n_n.rhsIdx_val_of_single rfl i q
/-- … and its column the output's column. -/
theorem dot_rhs_1 (i : S1000x64.Idx) (q : dot_S1000x3_S3x64_S1000x64_1_0_0_1_n_n.contr.Idx) : (dot_S1000x3_S3x64_S1000x64_1_0_0_1_n_n.rhsIdx i q 1).val = (i 1).val := by
  unfold DotDims.rhsIdx
  rw [dif_neg (show ¬(1 : Fin S3x64.rank) ∈ dot_S1000x3_S3x64_S1000x64_1_0_0_1_n_n.rhsBatch by decide),
    dif_pos (show (1 : Fin S3x64.rank) ∈ dot_S1000x3_S3x64_S1000x64_1_0_0_1_n_n.rhsNonContracting by decide)]
  rfl

/-- The left operand's index of the product at output (r, ch) and contraction position k is (r, k). -/
theorem dot_lhsIdx (r : Fin 1000) (ch : Fin 64) (k : Fin 3) :
    dot_S1000x3_S3x64_S1000x64_1_0_0_1_n_n.lhsIdx (ix2 r ch) ((contrEquiv1 dot_S1000x3_S3x64_S1000x64_1_0_0_1_n_n 3 rfl rfl).symm k) = ix2 r k := by
  have hk := contrEquiv1_symm_val dot_S1000x3_S3x64_S1000x64_1_0_0_1_n_n 3 rfl rfl k
  funext ax
  apply Fin.ext
  match ax with
  | ⟨0, _⟩ => exact dot_lhs_0 _ _
  | ⟨1, _⟩ => exact (dot_lhs_1 _ _).trans hk

/-- The right operand's index there is (k, ch). -/
theorem dot_rhsIdx (r : Fin 1000) (ch : Fin 64) (k : Fin 3) :
    dot_S1000x3_S3x64_S1000x64_1_0_0_1_n_n.rhsIdx (ix2 r ch) ((contrEquiv1 dot_S1000x3_S3x64_S1000x64_1_0_0_1_n_n 3 rfl rfl).symm k) = ix2 k ch := by
  have hk := contrEquiv1_symm_val dot_S1000x3_S3x64_S1000x64_1_0_0_1_n_n 3 rfl rfl k
  funext ax
  apply Fin.ext
  match ax with
  | ⟨0, _⟩ => exact (dot_rhs_0 _ _).trans hk
  | ⟨1, _⟩ => exact dot_rhs_1 _ _

/-- A [1000,3] × [3,64] product into the zero accumulator, its right operand a transposed [64,3] matrix: at (r, ch)
    the sum over the three columns of the left operand's row r times the matrix's row ch. -/
theorem matmulT_apply (a : FVec Ideal S1000x3 .f32) (w : FVec Ideal S64x3 .f32) (r : Fin 1000) (ch : Fin 64) :
    matmul dot_S1000x3_S3x64_S1000x64_1_0_0_1_n_n none a (transpose S3x64 [1, 0] w transposes_S64x3_p1_0_S3x64)
        (constant (F := Ideal) S1000x64 .f32 0x00000000#32) (ix2 r ch)
      = ∑ j : Fin 3, a (ix2 r j) * w (ix2 ch j) := by
  refine (Ideal.matmul_constant_zero_apply dot_S1000x3_S3x64_S1000x64_1_0_0_1_n_n none a _ (ix2 r ch)).trans ?_
  rw [← Equiv.sum_comp (contrEquiv1 dot_S1000x3_S3x64_S1000x64_1_0_0_1_n_n 3 rfl rfl).symm]
  refine Finset.sum_congr rfl fun k _ => ?_
  rw [dot_lhsIdx, dot_rhsIdx]
  exact congrArg (a (ix2 r k) * ·) (transpose_ix2_apply w transposes_S64x3_p1_0_S3x64 k ch)

/-- A shape cast to the same shape reads the operand. -/
theorem shapeCast_same_apply (w : FVec Ideal S64x3 .f32) (ch : Fin 64) (j : Fin 3) :
    shapeCast S64x3 w shapeCasts_S64x3_S64x3 (ix2 ch j) = w (ix2 ch j) :=
  shapeCast_apply w shapeCasts_S64x3_S64x3 (ix2 ch j) (ix2 ch j) rfl

/-- Three columns laid side by side, read at (r, j): column j at row r. -/
theorem cols_apply (c0 c1 c2 : FVec Ideal S1000x1 .f32) (r : Fin 1000) (j : Fin 3) :
    concatenate S1000x3 1 [⟨S1000x1, c0⟩, ⟨S1000x1, c1⟩, ⟨S1000x1, c2⟩] concatenates_S1000x1_S1000x1_S1000x1_S1000x3_d1 (ix2 r j)
      = (![c0 (ix2 r 0), c1 (ix2 r 0), c2 (ix2 r 0)] : Fin 3 → EReal) j := by
  have h := concatenate_ofFn_unit_apply (t := S1000x3) (s₁ := S1000x1) 1 (![c0, c1, c2] : Fin 3 → FVec Ideal S1000x1 .f32)
    concatenates_S1000x1_S1000x1_S1000x1_S1000x3_d1 rfl rfl (ix2 r j) j rfl (ix2 r 0)
    (fun b hb => match b with
      | ⟨0, _⟩ => rfl
      | ⟨1, _⟩ => absurd rfl hb)
  refine h.trans ?_
  match j with
  | ⟨0, _⟩ => rfl
  | ⟨1, _⟩ => rfl
  | ⟨2, _⟩ => rfl

/-- The bias: the two products added. -/
def bias (v18 : FVec Ideal S1000x3 .f32) (v37 v38 v39 : FVec Ideal S1000x1 .f32) (x5 x6 : Vec Ideal S64x3 .f32) :
    FVec Ideal S1000x64 .f32 :=
  addf
    (matmul dot_S1000x3_S3x64_S1000x64_1_0_0_1_n_n none v18
      (transpose S3x64 [1, 0] (shapeCast S64x3 x5 shapeCasts_S64x3_S64x3 : FVec Ideal S64x3 .f32) transposes_S64x3_p1_0_S3x64)
      (constant (F := Ideal) S1000x64 .f32 0x00000000#32))
    (matmul dot_S1000x3_S3x64_S1000x64_1_0_0_1_n_n none
      (concatenate S1000x3 1 [⟨S1000x1, v37⟩, ⟨S1000x1, v38⟩, ⟨S1000x1, v39⟩] concatenates_S1000x1_S1000x1_S1000x1_S1000x3_d1)
      (transpose S3x64 [1, 0] (shapeCast S64x3 x6 shapeCasts_S64x3_S64x3 : FVec Ideal S64x3 .f32) transposes_S64x3_p1_0_S3x64)
      (constant (F := Ideal) S1000x64 .f32 0x00000000#32))

/-- The bias of channel ch of pillar r. -/
theorem bias_apply (v18 : FVec Ideal S1000x3 .f32) (v37 v38 v39 : FVec Ideal S1000x1 .f32) (x5 x6 : Vec Ideal S64x3 .f32)
    (r : Fin 1000) (ch : Fin 64) :
    bias v18 v37 v38 v39 x5 x6 (ix2 r ch)
      = (∑ j : Fin 3, v18 (ix2 r j) * x5 (ix2 ch j))
        + (∑ j : Fin 3, (![v37 (ix2 r 0), v38 (ix2 r 0), v39 (ix2 r 0)] : Fin 3 → EReal) j * x6 (ix2 ch j)) := by
  unfold bias
  rw [addf_apply, matmulT_apply, matmulT_apply]
  simp only [shapeCast_same_apply, cols_apply]

/-- 32 copies of a [1000,64] array laid side by side, read at lane 64 p + ch of row r: the array at (r, ch). -/
theorem tile_apply (b : FVec Ideal S1000x64 .f32) (r : Fin 1000) (p : Fin 32) (ch : Fin 64) :
    concatenate S1000x2048 1 (List.replicate 32 (⟨S1000x64, b⟩ : (s : Shape) × (s.Idx → Ideal .f32)))
        concatenates_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x64_S1000x2048_d1
        (ix2 r (lane p ch))
      = b (ix2 r ch) :=
  concatenate_replicate_apply (t := S1000x2048) (s₁ := S1000x64) 1 32 b _ rfl (ix2 r (lane p ch)) (ix2 r ch)
    (by
      show ch.val = (p.val * 64 + ch.val) % 64
      have := ch.isLt
      omega)
    (fun c hc => match c with
      | ⟨0, _⟩ => rfl
      | ⟨1, _⟩ => absurd rfl hc)

theorem pay10_apply (v6 : IVec S1000x1 32) (v15 : FVec Ideal S1000x2048 .f32) (v18 : FVec Ideal S1000x3 .f32)
    (v37 v38 v39 : FVec Ideal S1000x1 .f32) (x5 x6 : Vec Ideal S64x3 .f32) (r : Fin 1000) (p : Fin 32) (ch : Fin 64) :
    k0_pay10 (F := Ideal) v6 v15 v18 v37 v38 v39 x5 x6 (ix2 r (lane p ch))
      = (v15 (ix2 r (lane p ch))
          - ((∑ j : Fin 3, v18 (ix2 r j) * x5 (ix2 ch j))
            + (∑ j : Fin 3, (![v37 (ix2 r 0), v38 (ix2 r 0), v39 (ix2 r 0)] : Fin 3 → EReal) j * x6 (ix2 ch j))))
        * slotMask (F := Ideal) v6 (ix2 r (lane p ch)) := by
  show (v15 (ix2 r (lane p ch))
      - concatenate S1000x2048 1 (List.replicate 32 (⟨S1000x64, bias v18 v37 v38 v39 x5 x6⟩ : (s : Shape) × (s.Idx → Ideal .f32))) _
          (ix2 r (lane p ch)))
    * slotMask (F := Ideal) v6 (ix2 r (lane p ch)) = _
  rw [tile_apply, bias_apply]

end Cert.KernelIdeal.Body

end
-- ==== Proof.MaskAt.lean ====
/-
  The occupancy mask read at a lane.  The lane index of a row of 32 × 64 activations, divided by 64, is the slot the
  lane belongs to: for the 2048 lane indices this is a finite check on words.  Compared with the row's count and
  read as a float, it is 1 on the lanes of occupied slots and 0 elsewhere.
-/
import proofs.«414826_j24292335026905_3_alg».proof.Proof.SlotMask
import proofs.«414826_j24292335026905_3_alg».proof.Proof.Pillar
import Idealize.ShloMosaic.Lib.ValueIdx
import Idealize.ShloMosaic.Lib.Pipeline.Value
import Idealize.ShloMosaic.PureOps.Ideal.Laws
import Idealize.ShloMosaic.Lib.Decide

noncomputable section

namespace Cert.KernelIdeal.Body

open Idealize.ShloMosaic Idealize.ShloMosaic.TcCoe Idealize.SL.Sem Idealize.ShloMosaic.ValueIdx Cert.KernelIdeal Cert.KernelIdeal.Gen Cert.Pillar

/-- The slot of a lane as a function of the lane's word: the signed quotient by 64, lowered by one when the
    operands' signs differ and the remainder is not zero. -/
def slotWord (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

theorem slotIdx_eq_slotWord (i : S1x2048.Idx) : slotIdx i = slotWord (BitVec.ofNat 32 (i 1).val) := by
  have h : iota .tc S1x2048 32 [1] iota_S1x2048_d1_w32 i = BitVec.ofNat 32 (i 1).val :=
    iota_single_apply .tc S1x2048 32 1 iota_S1x2048_d1_w32 i
  show slotWord (iota .tc S1x2048 32 [1] iota_S1x2048_d1_w32 i) = _
  rw [h]

theorem slotWord_lt (q : Fin 2048) : slotWord (BitVec.ofNat 32 q.val) = BitVec.ofNat 32 (q.val / 64) := by
  revert q
  decide +kernel

theorem slotIdx_apply (p : Fin 32) (ch : Fin 64) : slotIdx (ix2 0 (lane p ch)) = BitVec.ofNat 32 p.val := by
  rw [slotIdx_eq_slotWord]
  show slotWord (BitVec.ofNat 32 (lane p ch).val) = _
  rw [slotWord_lt]
  congr 1
  have := p.isLt; have := ch.isLt
  show (p.val * 64 + ch.val) / 64 = p.val
  omega

theorem slotMask_apply (v6 : IVec S1000x1 32) (r : Fin 1000) (p : Fin 32) (ch : Fin 64) :
    slotMask (F := Ideal) v6 (ix2 r (lane p ch)) = occ p (v6 (ix2 r 0)) := by
  have h1 : broadcastTo S1000x2048 slotIdx broadcasts_S1x2048_S1000x2048 (ix2 r (lane p ch)) = BitVec.ofNat 32 p.val := by
    rw [broadcastTo_apply slotIdx broadcasts_S1x2048_S1000x2048 (ix2 r (lane p ch)) (ix2 0 (lane p ch))
      (by intro a; match a with | ⟨0, _⟩ => rfl | ⟨1, _⟩ => rfl)]
    exact slotIdx_apply p ch
  have h2 : broadcastTo S1000x2048 v6 broadcasts_S1000x1_S1000x2048 (ix2 r (lane p ch)) = v6 (ix2 r 0) :=
    broadcastTo_apply v6 broadcasts_S1000x1_S1000x2048 (ix2 r (lane p ch)) (ix2 r 0)
      (by intro a; match a with | ⟨0, _⟩ => rfl | ⟨1, _⟩ => rfl)
  show ((((IntOp.cmpi .slt (broadcastTo S1000x2048 slotIdx broadcasts_S1x2048_S1000x2048 (ix2 r (lane p ch)))
      (broadcastTo S1000x2048 v6 broadcasts_S1000x1_S1000x2048 (ix2 r (lane p ch)))).setWidth 32).toInt : ℝ) : EReal) = _
  rw [h1, h2]
  rfl

end Cert.KernelIdeal.Body

end
-- ==== Proof.Pooled.lean ====
/-
  The end of the first region's body, read at an index: the normalisation and the rectifier act lane by lane, and the
  maximum over the 32 slots is taken as a tree of five halvings, each the maximum of the lower and the upper half of
  the lanes.  Halving five times from 2048 lanes leaves, at channel ch, the maximum over the lanes ch + 64 p, that is
  over the 32 slots.
-/
import proofs.«414826_j24292335026905_3_alg».proof.Proof.Gen.KernelIdeal.Skeleton
import proofs.«414826_j24292335026905_3_alg».proof.Proof.Pillar
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.TcCoe Idealize.SL.Sem Idealize.ShloMosaic.ValueIdx Cert.KernelIdeal Cert.KernelIdeal.Gen Cert.Pillar

theorem pay11_apply (x7 : Vec Ideal S1x2048 .f32) : k0_pay11 (F := Ideal) x7 = x7 :=
  shapeCast_self _ _

theorem pay4_apply (x2 : Vec Ideal S1000x1 .i32) : k0_pay4 (F := Ideal) x2 = x2 :=
  shapeCast_self _ _

/-- A supremum over the first `2 c` naturals is the larger of the supremum over the even and the supremum over the odd ones. -/
theorem sup_range_even_odd (h : ℕ → EReal) (c : ℕ) :
    (Finset.range (2 * c)).sup h
      = max ((Finset.range c).sup fun q => h (2 * q)) ((Finset.range c).sup fun q => h (2 * q + 1)) := by
  induction c with
  | zero => simp
  | succ c ih =>
    have e : 2 * (c + 1) = (2 * c + 1) + 1 := by ring
    rw [e, Finset.range_add_one (n := 2 * c + 1), Finset.sup_insert, Finset.range_add_one (n := 2 * c), Finset.sup_insert, ih,
      Finset.range_add_one (n := c), Finset.sup_insert, Finset.sup_insert]
    simp only [max_assoc, max_comm, max_left_comm]

/-- A supremum over the first `n` naturals is the supremum over `Fin n`. -/
theorem sup_range_eq_sup_fin (g : ℕ → EReal) (n : ℕ) :
    (Finset.range n).sup g = Finset.univ.sup fun p : Fin n => g p.val :=
  le_antisymm
    (Finset.sup_le fun q hq => Finset.le_sup (f := fun p : Fin n => g p.val) (Finset.mem_univ ⟨q, Finset.mem_range.1 hq⟩))
    (Finset.sup_le fun p _ => Finset.le_sup (f := g) (Finset.mem_range.2 p.isLt))

/-- One halving of the pooling tree. If row `r` of a `[1000, 2 m]` block holds, at column `j`, the supremum of `T` over the
    `c` positions `j + 2 m q`, then the maximum of the block's lower and upper halves holds, at column `j`, the supremum of
    `T` over the `2 c` positions `j + m q`. -/
theorem halved_sup {n m : ℕ} (hn : n = 2 * m) (X : FVec Ideal (⟨2, ![1000, n]⟩ : Shape) .f32)
    (h0 : (⟨2, ![1000, n]⟩ : Shape).Slices ![0, 0] ⟨2, ![1000, m]⟩)
    (h1 : (⟨2, ![1000, n]⟩ : Shape).Slices ![0, m] ⟨2, ![1000, m]⟩)
    (r : Fin 1000) (T : ℕ → EReal) (c : ℕ)
    (hX : ∀ j : Fin n, X (ix2 r j) = (Finset.range c).sup fun q => T (j.val + n * q))
    (j : Fin m) :
    maximumf (extractStridedSlice ⟨2, ![1000, m]⟩ ![0, 0] X h0) (extractStridedSlice ⟨2, ![1000, m]⟩ ![0, m] X h1) (ix2 r j)
      = (Finset.range (2 * c)).sup fun q => T (j.val + m * q) := by
  subst hn
  have hj := j.isLt
  have e0 := hX ⟨j.val, by omega⟩
  have e1 := hX ⟨m + j.val, by omega⟩
  simp only [] at e0 e1
  rw [maximumf_apply, slice2_axis1_apply 0 X h0 r j ⟨j.val, by omega⟩ (by simp),
    slice2_axis1_apply m X h1 r j ⟨m + j.val, by omega⟩ rfl, e0, e1, sup_range_even_odd]
  congr 1
  · refine Finset.sup_congr rfl fun q _ => congrArg T ?_
    ring
  · refine Finset.sup_congr rfl fun q _ => congrArg T ?_
    ring

/-- Row `r` after the normalisation and the rectifier, as a function of the flat position `k` (`⊥` past the row's end). -/
def rowT (v82 : FVec Ideal S1000x2048 .f32) (v84 : FVec Ideal S1x2048 .f32) (v85 v87 v89 : Vec Ideal S1x2048 .f32)
    (r : Fin 1000) (k : ℕ) : EReal :=
  if h : k < 2048 then
    bn (v82 (ix2 r ⟨k, h⟩)) (v84 (ix2 0 ⟨k, h⟩)) (v85 (ix2 0 ⟨k, h⟩)) (v87 (ix2 0 ⟨k, h⟩)) (v89 (ix2 0 ⟨k, h⟩))
  else ⊥

theorem rowT_lane (v82 : FVec Ideal S1000x2048 .f32) (v84 : FVec Ideal S1x2048 .f32) (v85 v87 v89 : Vec Ideal S1x2048 .f32)
    (r : Fin 1000) (k : Fin 2048) :
    rowT v82 v84 v85 v87 v89 r k.val
      = bn (v82 (ix2 r k)) (v84 (ix2 0 k)) (v85 (ix2 0 k)) (v87 (ix2 0 k)) (v89 (ix2 0 k)) :=
  dif_pos k.isLt

theorem pay1_apply (v82 : FVec Ideal S1000x2048 .f32) (v84 : FVec Ideal S1x2048 .f32) (v85 v87 v89 : Vec Ideal S1x2048 .f32)
    (r : Fin 1000) (ch : Fin 64) :
    k0_pay1 (F := Ideal) v82 v84 v85 v87 v89 (ix2 r ch)
      = Finset.univ.sup fun p : Fin 32 =>
          bn (v82 (ix2 r (lane p ch))) (v84 (ix2 0 (lane p ch))) (v85 (ix2 0 (lane p ch))) (v87 (ix2 0 (lane p ch))) (v89 (ix2 0 (lane p ch))) := by
  refine (halved_sup (m := 64) rfl _ _ _ r (rowT v82 v84 v85 v87 v89 r) 16
    (fun j => halved_sup (m := 128) rfl _ _ _ r (rowT v82 v84 v85 v87 v89 r) 8
      (fun j => halved_sup (m := 256) rfl _ _ _ r (rowT v82 v84 v85 v87 v89 r) 4
        (fun j => halved_sup (m := 512) rfl _ _ _ r (rowT v82 v84 v85 v87 v89 r) 2
          (fun j => halved_sup (m := 1024) rfl _ _ _ r (rowT v82 v84 v85 v87 v89 r) 1
            (fun j => ?base) j) j) j) j) ch).trans ?fin
  case base =>
    rw [Finset.range_one, Finset.sup_singleton, Nat.mul_zero, Nat.add_zero, rowT_lane]
    simp only [maximumf_apply, addf_apply, mulf_apply, subf_apply, broadcast_apply, broadcastTo_1b_ab_apply, shapeCast_self]
    rfl
  case fin =>
    refine (sup_range_eq_sup_fin _ 32).trans (Finset.sup_congr rfl fun p _ => ?_)
    have hp := p.isLt
    have hc := ch.isLt
    have e : ch.val + 64 * p.val = (lane p ch).val := by
      show ch.val + 64 * p.val = p.val * 64 + ch.val
      omega
    rw [e, rowT_lane]

end Cert.KernelIdeal.Body

end
-- ==== Proof.FoldedWeights.lean ====
/-
  The three arrays the host builds from the 64 × 10 weights before the first region, read at an index.

  The weights of the offset features are folded into those of the raw features: the two 64 × 3 blocks of columns
  4–6 and 7–9 are added, and their sum is added into columns 0–2 of the 64 × 4 block of columns 0–3 by a scatter
  with one index, zero, so that every update lands on its own element and column 3 is left as it was. The folded
  weights, transposed, are multiplied entry by entry with the 32 × 32 identity matrix — the comparison of two iotas,
  converted — after both are broadcast to [32, 4, 32, 64], and the product is re-laid as a 128 × 2048 matrix: its entry
  at row 4 p' + f and column 64 p + ch is the identity's entry (p', p) times the folded weight of channel ch and raw
  feature f. The two blocks of offset columns are also kept as they are.
-/
import proofs.«414826_j24292335026905_3_alg».proof.Proof.Gen.KernelIdeal.Frame
import proofs.«414826_j24292335026905_3_alg».proof.Proof.Pillar
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.Host

open Idealize.ShloMosaic Idealize.ShloMosaic.TcCoe Idealize.SL.Sem Idealize.ShloMosaic.ValueIdx Cert.KernelIdeal Cert.KernelIdeal.Gen Cert.Pillar

variable (m : (ℓ : Loc nD τ sig) → Buf (Elt Ideal) ℓ) (ρ : Dev nD → PrngReg) (c : Dev nD)

namespace FoldedWeights

/-! ## The two blocks of offset columns -/

/-- The first offset block of the weights, as the host slices it out of the launch argument: no later host
    operation before the first region writes it. -/
theorem V5_main_v1_eq :
    (V5 m ρ c main_v1 : Vec Ideal S64x3 .f32)
      = extractStridedSlice S64x3 ![0, 4] (m ((c.tc : Thread nD τ).loc main_arg3) : Vec Ideal S64x10 .f32) slices_S64x10_S64x3_0_4 := by
  have h4 : W5 m ρ c (Proc.devRef .tc main_v1) = W4 m ρ c (Proc.devRef .tc main_v1) := StableHlo.after_of_forall_not_mem (b := Proc.devRef .tc main_v1) _ _ (List.forall_iff_forall_mem.mp (by
          simp only [hostOps0_4, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  have h3 : W4 m ρ c (Proc.devRef .tc main_v1) = W3 m ρ c (Proc.devRef .tc main_v1) := StableHlo.after_of_forall_not_mem (b := Proc.devRef .tc main_v1) _ _ (List.forall_iff_forall_mem.mp (by
          simp only [hostOps0_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  have h2 : W3 m ρ c (Proc.devRef .tc main_v1) = W2 m ρ c (Proc.devRef .tc main_v1) := StableHlo.after_of_forall_not_mem (b := Proc.devRef .tc main_v1) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  have h1 : W2 m ρ c (Proc.devRef .tc main_v1) = W1 m ρ c (Proc.devRef .tc main_v1) := StableHlo.after_of_forall_not_mem (b := Proc.devRef .tc main_v1) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  show W5 m ρ c (Proc.devRef .tc main_v1) = _
  rw [h4, h3, h2, h1]
  show StableHlo.after hostOps0 (W0 m ρ c) (Proc.devRef .tc main_v1) = _
  after_results

/-- The second offset block of the weights, likewise. -/
theorem V5_main_v2_eq :
    (V5 m ρ c main_v2 : Vec Ideal S64x3 .f32)
      = extractStridedSlice S64x3 ![0, 7] (m ((c.tc : Thread nD τ).loc main_arg3) : Vec Ideal S64x10 .f32) slices_S64x10_S64x3_0_7 := by
  have h4 : W5 m ρ c (Proc.devRef .tc main_v2) = W4 m ρ c (Proc.devRef .tc main_v2) := StableHlo.after_of_forall_not_mem (b := Proc.devRef .tc main_v2) _ _ (List.forall_iff_forall_mem.mp (by
          simp only [hostOps0_4, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  have h3 : W4 m ρ c (Proc.devRef .tc main_v2) = W3 m ρ c (Proc.devRef .tc main_v2) := StableHlo.after_of_forall_not_mem (b := Proc.devRef .tc main_v2) _ _ (List.forall_iff_forall_mem.mp (by
          simp only [hostOps0_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  have h2 : W3 m ρ c (Proc.devRef .tc main_v2) = W2 m ρ c (Proc.devRef .tc main_v2) := StableHlo.after_of_forall_not_mem (b := Proc.devRef .tc main_v2) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  have h1 : W2 m ρ c (Proc.devRef .tc main_v2) = W1 m ρ c (Proc.devRef .tc main_v2) := StableHlo.after_of_forall_not_mem (b := Proc.devRef .tc main_v2) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  show W5 m ρ c (Proc.devRef .tc main_v2) = _
  rw [h4, h3, h2, h1]
  show StableHlo.after hostOps0 (W0 m ρ c) (Proc.devRef .tc main_v2) = _
  after_results

/-- A block of `n` columns of a 64 × 10 matrix starting at column `o`, read at `(ch, j)`: column `o + j`. -/
theorem slice_cols_apply {n : Nat} (o : Nat) (x : Vec Ideal S64x10 .f32) (h : S64x10.Slices ![0, o] ⟨2, ![64, n]⟩)
    (ch : Fin 64) (j : Fin n) (g : Fin 10) (hg : g.val = o + j.val) :
    extractStridedSlice ⟨2, ![64, n]⟩ ![0, o] x h (ix2 ch j) = x (ix2 ch g) :=
  extractStridedSlice_apply _ x h _ _ fun a => match a with
    | ⟨0, _⟩ => (Nat.zero_add _).symm
    | ⟨1, _⟩ => hg

/-! ## A fold of point updates, read at a point -/

/-- A left fold that, for each member `n` of a list, replaces the value at position `r n` by `f` of what is there
    and `v n`, read at a position no member names: what was there at the start. -/
theorem foldl_upd_of_forall_ne {ι κ α : Type} [DecidableEq ι] (f : α → α → α) (r : κ → ι) (v : κ → α) (i : ι) :
    ∀ (l : List κ) (x : ι → α), (∀ n ∈ l, r n ≠ i) →
      l.foldl (fun acc n => fun i' => if i' = r n then f (acc (r n)) (v n) else acc i') x i = x i
  | [], _, _ => rfl
  | n :: l, x, h => by
    rw [List.foldl_cons, foldl_upd_of_forall_ne f r v i l _ fun k hk => h k (List.mem_cons_of_mem _ hk)]
    exact if_neg fun e => h n List.mem_cons_self e.symm

/-- The same fold over a list without repeats, read at the position a member `n₀` names, when no other member
    names it: `f` of what was there at the start and `v n₀`. -/
theorem foldl_upd_of_mem {ι κ α : Type} [DecidableEq ι] (f : α → α → α) (r : κ → ι) (v : κ → α) (n₀ : κ)
    (l : List κ) (hl : l.Nodup) (hn : n₀ ∈ l) (hinj : ∀ n ∈ l, r n = r n₀ → n = n₀) (x : ι → α) :
    l.foldl (fun acc n => fun i' => if i' = r n then f (acc (r n)) (v n) else acc i') x (r n₀) = f (x (r n₀)) (v n₀) := by
  obtain ⟨s, t, rfl⟩ := List.append_of_mem hn
  have hnot : n₀ ∉ s ++ t := (List.nodup_cons.mp (List.nodup_middle.mp hl)).1
  have hs : ∀ n ∈ s, r n ≠ r n₀ := fun n hns e =>
    hnot (List.mem_append_left _ (hinj n (List.mem_append_left _ hns) e ▸ hns))
  have ht : ∀ n ∈ t, r n ≠ r n₀ := fun n hnt e =>
    hnot (List.mem_append_right _ (hinj n (List.mem_append_right _ (List.mem_cons_of_mem _ hnt)) e ▸ hnt))
  rw [List.foldl_append, List.foldl_cons, foldl_upd_of_forall_ne f r v (r n₀) t _ ht]
  show (if r n₀ = r n₀ then f (List.foldl _ x s (r n₀)) (v n₀) else _) = _
  rw [if_pos rfl, foldl_upd_of_forall_ne f r v (r n₀) s _ hs]

/-! ## A scatter whose every update lands inside the operand, no two at one element -/

section Scatter
variable {s si u : Shape} {α : Type} {w : Nat}

/-- The scatter as the fold of point updates, when every update index has a result index. -/
theorem scatter_eq_foldl (d : ScatterDims s si u) (f : α → α → α) (x : s.Idx → α) (idx : IVec si w) (upd : u.Idx → α)
    (g : u.Idx → s.Idx) (hg : ∀ j, d.resultIdx? j idx = some (g j)) :
    Host.scatter d f x idx upd
      = (List.finRange u.numel).foldl (fun acc n => fun i' =>
          if i' = g (u.rowMajor.symm n) then f (acc (g (u.rowMajor.symm n))) (upd (u.rowMajor.symm n)) else acc i') x := by
  unfold Host.scatter
  congr 1
  funext acc n
  rw [hg (u.rowMajor.symm n)]

/-- Read where update `j` lands: the body of the operand's element and the update's. -/
theorem scatter_apply_hit (d : ScatterDims s si u) (f : α → α → α) (x : s.Idx → α) (idx : IVec si w) (upd : u.Idx → α)
    (g : u.Idx → s.Idx) (hg : ∀ j, d.resultIdx? j idx = some (g j)) (hinj : Function.Injective g) (j : u.Idx) :
    Host.scatter d f x idx upd (g j) = f (x (g j)) (upd j) := by
  rw [scatter_eq_foldl d f x idx upd g hg]
  have h := foldl_upd_of_mem f (fun n => g (u.rowMajor.symm n)) (fun n => upd (u.rowMajor.symm n)) (u.rowMajor j)
    (List.finRange u.numel) (List.nodup_finRange _) (List.mem_finRange _)
    (fun n _ e => by
      have := hinj e
      rw [Equiv.symm_apply_apply] at this
      rw [← this, Equiv.apply_symm_apply]) x
  simp only [Equiv.symm_apply_apply] at h
  exact h

/-- Read where no update lands: the operand's element. -/
theorem scatter_apply_miss (d : ScatterDims s si u) (f : α → α → α) (x : s.Idx → α) (idx : IVec si w) (upd : u.Idx → α)
    (g : u.Idx → s.Idx) (hg : ∀ j, d.resultIdx? j idx = some (g j)) (i : s.Idx) (hi : ∀ j, g j ≠ i) :
    Host.scatter d f x idx upd i = x i := by
  rw [scatter_eq_foldl d f x idx upd g hg]
  exact foldl_upd_of_forall_ne f _ _ i _ x fun n _ => hi _

end Scatter

/-! ## The host's scatter of the two offset blocks into the raw block -/

/-- With the one scatter index zero, update `(ch, k)` lands at `(ch, k)`. -/
theorem fold_resultIdx (idx : IVec S1 32) (hidx : ∀ i, idx i = 0#32) (j : S64x3.Idx) :
    scatter_S64x4_S1_S64x3_01_n_1_0.resultIdx? j idx = some (ix2 (j 0) (Fin.castSucc (j 1))) := by
  have hst : ∀ a, scatter_S64x4_S1_S64x3_01_n_1_0.start j idx a = 0 := fun a => by
    unfold ScatterDims.start
    split
    · rw [hidx]; rfl
    · rfl
  have hw : ∀ a, scatter_S64x4_S1_S64x3_01_n_1_0.window j a
      = ((ix2 (j 0) (Fin.castSucc (j 1)) : S64x4.Idx) a).val := fun a =>
    match a with | ⟨0, _⟩ => rfl | ⟨1, _⟩ => rfl
  have h : ∀ a, 0 ≤ scatter_S64x4_S1_S64x3_01_n_1_0.start j idx a + scatter_S64x4_S1_S64x3_01_n_1_0.window j a
      ∧ scatter_S64x4_S1_S64x3_01_n_1_0.start j idx a + scatter_S64x4_S1_S64x3_01_n_1_0.window j a < S64x4.size a := fun a => by
    rw [hst, hw, Int.zero_add]
    exact ⟨Int.natCast_nonneg _, Int.ofNat_lt.mpr (Fin.isLt _)⟩
  unfold ScatterDims.resultIdx?
  rw [dif_pos h]
  congr 1
  funext a
  apply Fin.ext
  show (scatter_S64x4_S1_S64x3_01_n_1_0.start j idx a + scatter_S64x4_S1_S64x3_01_n_1_0.window j a).toNat = _
  rw [hst, hw, Int.zero_add, Int.toNat_natCast]
  rfl

/-! ## The identity matrix as the host builds it: a comparison of two iotas, converted -/

/-- The word of `a = b` for two positions below 32, read unsigned. -/
theorem eye_word (a b : Fin 32) :
    (IntOp.cmpi .eq (IntOp.addi (BitVec.ofNat 32 a.val) 0#32) (BitVec.ofNat 32 b.val)).toNat = if a = b then 1 else 0 := by
  have hinj : BitVec.ofNat 32 a.val = BitVec.ofNat 32 b.val → a = b := fun h => by
    have h' := congrArg BitVec.toNat h
    simp only [BitVec.toNat_ofNat, Nat.reducePow] at h'
    have ha := a.isLt
    have hb := b.isLt
    exact Fin.ext (by omega)
  unfold IntOp.cmpi IntOp.addi
  rw [BitVec.add_zero]
  by_cases h : a = b
  · subst h
    rw [if_pos rfl, beq_self_eq_true]
    rfl
  · rw [if_neg h, beq_eq_false_iff_ne.mpr fun e => h (hinj e)]
    rfl

/-! ## The three arrays behind the folded weights, as the host operations compute them -/

/-- The second stretch of host operations at the folded weights' buffer, from any contents of the first stretch's
    buffers: the product of the identity matrix broadcast along raw features and channels and the transposed folded
    weights broadcast along the two slot axes, re-laid as a matrix. -/
theorem after_kron (F1 : Valuation τ sig (Elt Ideal)) :
    @Eq (Vec Ideal S128x2048 .f32) (StableHlo.after hostOps0_1 F1 (Proc.devRef .tc main_v13))
      (shapeCast S128x2048
          (mulf (F := Ideal) (φ := .f32)
            (broadcastInDim S32x4x32x64 ![0, 1, 2, 3] bcast_S32x1x32x1_S32x4x32x64_0_1_2_3
              (broadcastInDim S32x1x32x1 ![0, 2] bcast_S32x32_S32x1x32x1_0_2 (F1 (Proc.devRef .tc main_v11) : Vec Ideal S32x32 .f32)))
            (broadcastInDim S32x4x32x64 ![0, 1, 2, 3] bcast_S1x4x1x64_S32x4x32x64_0_1_2_3
              (broadcastInDim S1x4x1x64 ![1, 3] bcast_S4x64_S1x4x1x64_1_3 (F1 (Proc.devRef .tc main_v12) : Vec Ideal S4x64 .f32))))
          shapeCasts_S32x4x32x64_S128x2048) := by
  after_results
  simp only [StableHlo.TRef.ofBuf, StableHlo.TRef.toBuf, cast_eq]
  rfl

/-- The identity matrix after the first stretch. -/
theorem W1_main_v11_eq :
    @Eq (Vec Ideal S32x32 .f32) (W1 m ρ c (Proc.devRef .tc main_v11))
      (uitofp (F := Ideal) .f32 (cmpi .eq (addi (iotaInDim S32x32 32 0) (broadcastInDim S32x32 ![] bcast_S_S32x32 (constantI S_ 32 0#32)))
          (iotaInDim S32x32 32 1))) := by
  show StableHlo.after hostOps0 (W0 m ρ c) (Proc.devRef .tc main_v11) = _
  after_results

/-- The transposed folded weights after the first stretch. -/
theorem W1_main_v12_eq :
    @Eq (Vec Ideal S4x64 .f32) (W1 m ρ c (Proc.devRef .tc main_v12))
      (transpose S4x64 [1, 0]
          (Host.scatter scatter_S64x4_S1_S64x3_01_n_1_0 (FloatOps.addf (F := Ideal) (φ := .f32))
            (extractStridedSlice S64x4 ![0, 0] (m ((c.tc : Thread nD τ).loc main_arg3) : Vec Ideal S64x10 .f32) slices_S64x10_S64x4_0_0)
            (broadcastInDim S1 ![] bcast_S_S1 (constantI S_ 32 0#32))
            (addf (F := Ideal) (φ := .f32)
              (extractStridedSlice S64x3 ![0, 4] (m ((c.tc : Thread nD τ).loc main_arg3) : Vec Ideal S64x10 .f32) slices_S64x10_S64x3_0_4)
              (extractStridedSlice S64x3 ![0, 7] (m ((c.tc : Thread nD τ).loc main_arg3) : Vec Ideal S64x10 .f32) slices_S64x10_S64x3_0_7)))
          transposes_S64x4_S4x64_1_0) := by
  show StableHlo.after hostOps0 (W0 m ρ c) (Proc.devRef .tc main_v12) = _
  after_results

/-! ## The pieces read at an index -/

/-- The identity matrix broadcast to `[32, 4, 32, 64]` reads its entry at the two slot coordinates. -/
theorem eye_bcast_apply (E : Vec Ideal S32x32 .f32) (p' : Fin 32) (f : Fin 4) (p : Fin 32) (ch : Fin 64) :
    broadcastInDim S32x4x32x64 ![0, 1, 2, 3] bcast_S32x1x32x1_S32x4x32x64_0_1_2_3
        (broadcastInDim S32x1x32x1 ![0, 2] bcast_S32x32_S32x1x32x1_0_2 E) (ix4 p' f p ch)
      = E (ix2 p' p) :=
  (broadcastInDim_apply _ _ _ (ix4 p' f p ch) (ix4 p' (0 : Fin 1) p (0 : Fin 1)) fun a =>
      match a with | ⟨0, _⟩ => rfl | ⟨1, _⟩ => rfl | ⟨2, _⟩ => rfl | ⟨3, _⟩ => rfl).trans
    (broadcastInDim_apply _ _ _ (ix4 p' (0 : Fin 1) p (0 : Fin 1)) (ix2 p' p) fun a =>
      match a with | ⟨0, _⟩ => rfl | ⟨1, _⟩ => rfl)

/-- The transposed weights broadcast to `[32, 4, 32, 64]` read their entry at the raw feature and the channel. -/
theorem wt_bcast_apply (Wt : Vec Ideal S4x64 .f32) (p' : Fin 32) (f : Fin 4) (p : Fin 32) (ch : Fin 64) :
    broadcastInDim S32x4x32x64 ![0, 1, 2, 3] bcast_S1x4x1x64_S32x4x32x64_0_1_2_3
        (broadcastInDim S1x4x1x64 ![1, 3] bcast_S4x64_S1x4x1x64_1_3 Wt) (ix4 p' f p ch)
      = Wt (ix2 f ch) :=
  (broadcastInDim_apply _ _ _ (ix4 p' f p ch) (ix4 (0 : Fin 1) f (0 : Fin 1) ch) fun a =>
      match a with | ⟨0, _⟩ => rfl | ⟨1, _⟩ => rfl | ⟨2, _⟩ => rfl | ⟨3, _⟩ => rfl).trans
    (broadcastInDim_apply _ _ _ (ix4 (0 : Fin 1) f (0 : Fin 1) ch) (ix2 f ch) fun a =>
      match a with | ⟨0, _⟩ => rfl | ⟨1, _⟩ => rfl)

/-- The identity matrix's entry: one on the diagonal, zero off it. -/
theorem eye_apply (p' p : Fin 32) :
    (uitofp (F := Ideal) .f32 (cmpi .eq (addi (iotaInDim S32x32 32 0) (broadcastInDim S32x32 ![] bcast_S_S32x32 (constantI S_ 32 0#32)))
        (iotaInDim S32x32 32 1))) (ix2 p' p) = if p' = p then (1 : EReal) else 0 := by
  show (((IntOp.cmpi .eq (IntOp.addi (BitVec.ofNat 32 p'.val) 0#32) (BitVec.ofNat 32 p.val)).toNat : ℝ) : EReal) = _
  rw [eye_word]
  by_cases h : p' = p
  · rw [if_pos h, if_pos h, Nat.cast_one, EReal.coe_one]
  · rw [if_neg h, if_neg h, Nat.cast_zero, EReal.coe_zero]

/-- Where the updates of the fold land, as a function of the update's index. -/
abbrev land (j : S64x3.Idx) : S64x4.Idx := ix2 (j 0) (Fin.castSucc (j 1))

theorem land_injective : Function.Injective land := fun j j' e => by
  funext a
  match a with
  | ⟨0, _⟩ => exact congrFun e 0
  | ⟨1, _⟩ => exact Fin.castSucc_injective _ (congrFun e 1)

theorem land_resultIdx (j : S64x3.Idx) :
    scatter_S64x4_S1_S64x3_01_n_1_0.resultIdx? j (broadcastInDim S1 ![] bcast_S_S1 (constantI S_ 32 0#32) : IVec S1 32) = some (land j) :=
  fold_resultIdx _ (fun _ => rfl) j

/-- The folded weights at one of the three columns an offset block is added into: the raw weight plus the sum of the
    two offset weights of that coordinate. -/
theorem folded_apply_lt (w : Vec Ideal S64x10 .f32) (ch : Fin 64) (k : Fin 3) (g0 g1 g2 : Fin 10)
    (h0 : g0.val = 0 + k.castSucc.val) (h1 : g1.val = 4 + k.val) (h2 : g2.val = 7 + k.val) :
    Host.scatter scatter_S64x4_S1_S64x3_01_n_1_0 (FloatOps.addf (F := Ideal) (φ := .f32))
        (extractStridedSlice S64x4 ![0, 0] w slices_S64x10_S64x4_0_0)
        (broadcastInDim S1 ![] bcast_S_S1 (constantI S_ 32 0#32))
        (addf (F := Ideal) (φ := .f32) (extractStridedSlice S64x3 ![0, 4] w slices_S64x10_S64x3_0_4)
          (extractStridedSlice S64x3 ![0, 7] w slices_S64x10_S64x3_0_7)) (ix2 ch k.castSucc)
      = w (ix2 ch g0) + (w (ix2 ch g1) + w (ix2 ch g2)) := by
  refine (scatter_apply_hit _ _ _ _ _ land land_resultIdx land_injective (ix2 ch k)).trans ?_
  show extractStridedSlice S64x4 ![0, 0] w slices_S64x10_S64x4_0_0 (ix2 ch k.castSucc)
      + (extractStridedSlice S64x3 ![0, 4] w slices_S64x10_S64x3_0_4 (ix2 ch k)
        + extractStridedSlice S64x3 ![0, 7] w slices_S64x10_S64x3_0_7 (ix2 ch k)) = _
  rw [slice_cols_apply 0 w _ ch k.castSucc g0 h0, slice_cols_apply 4 w _ ch k g1 h1, slice_cols_apply 7 w _ ch k g2 h2]

/-- The folded weights at the last column, which no update reaches: the raw weight. -/
theorem folded_apply_last (w : Vec Ideal S64x10 .f32) (ch : Fin 64) :
    Host.scatter scatter_S64x4_S1_S64x3_01_n_1_0 (FloatOps.addf (F := Ideal) (φ := .f32))
        (extractStridedSlice S64x4 ![0, 0] w slices_S64x10_S64x4_0_0)
        (broadcastInDim S1 ![] bcast_S_S1 (constantI S_ 32 0#32))
        (addf (F := Ideal) (φ := .f32) (extractStridedSlice S64x3 ![0, 4] w slices_S64x10_S64x3_0_4)
          (extractStridedSlice S64x3 ![0, 7] w slices_S64x10_S64x3_0_7)) (ix2 ch (3 : Fin 4))
      = w (ix2 ch (3 : Fin 10)) := by
  refine (scatter_apply_miss _ _ _ _ _ land land_resultIdx (ix2 ch (3 : Fin 4)) fun j e => ?_).trans
    (slice_cols_apply 0 w _ ch (3 : Fin 4) (3 : Fin 10) rfl)
  have h1 : (j 1).val = 3 := congrArg (fun i : S64x4.Idx => (i 1).val) e
  have h2 := idx2_lt1 j
  omega

/-- The folded weights at `(ch, f)`. -/
theorem folded_apply (w : Vec Ideal S64x10 .f32) (ch : Fin 64) (f : Fin 4) :
    Host.scatter scatter_S64x4_S1_S64x3_01_n_1_0 (FloatOps.addf (F := Ideal) (φ := .f32))
        (extractStridedSlice S64x4 ![0, 0] w slices_S64x10_S64x4_0_0)
        (broadcastInDim S1 ![] bcast_S_S1 (constantI S_ 32 0#32))
        (addf (F := Ideal) (φ := .f32) (extractStridedSlice S64x3 ![0, 4] w slices_S64x10_S64x3_0_4)
          (extractStridedSlice S64x3 ![0, 7] w slices_S64x10_S64x3_0_7)) (ix2 ch f)
      = weff (fun g => w (ix2 ch g)) f := by
  fin_cases f
  · exact folded_apply_lt w ch 0 0 4 7 rfl rfl rfl
  · exact folded_apply_lt w ch 1 1 5 8 rfl rfl rfl
  · exact folded_apply_lt w ch 2 2 6 9 rfl rfl rfl
  · exact folded_apply_last w ch

/-- The folded weights' matrix at the first region's entry, over the first stretch's identity matrix and transposed
    folded weights: no later host operation before the region writes it. -/
theorem V5_main_v13_eq :
    @Eq (Vec Ideal S128x2048 .f32) (V5 m ρ c main_v13)
      (shapeCast S128x2048
          (mulf (F := Ideal) (φ := .f32)
            (broadcastInDim S32x4x32x64 ![0, 1, 2, 3] bcast_S32x1x32x1_S32x4x32x64_0_1_2_3
              (broadcastInDim S32x1x32x1 ![0, 2] bcast_S32x32_S32x1x32x1_0_2 (W1 m ρ c (Proc.devRef .tc main_v11) : Vec Ideal S32x32 .f32)))
            (broadcastInDim S32x4x32x64 ![0, 1, 2, 3] bcast_S1x4x1x64_S32x4x32x64_0_1_2_3
              (broadcastInDim S1x4x1x64 ![1, 3] bcast_S4x64_S1x4x1x64_1_3 (W1 m ρ c (Proc.devRef .tc main_v12) : Vec Ideal S4x64 .f32))))
          shapeCasts_S32x4x32x64_S128x2048) := by
  have h4 : W5 m ρ c (Proc.devRef .tc main_v13) = W4 m ρ c (Proc.devRef .tc main_v13) := StableHlo.after_of_forall_not_mem (b := Proc.devRef .tc main_v13) _ _ (List.forall_iff_forall_mem.mp (by
          simp only [hostOps0_4, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  have h3 : W4 m ρ c (Proc.devRef .tc main_v13) = W3 m ρ c (Proc.devRef .tc main_v13) := StableHlo.after_of_forall_not_mem (b := Proc.devRef .tc main_v13) _ _ (List.forall_iff_forall_mem.mp (by
          simp only [hostOps0_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  have h2 : W3 m ρ c (Proc.devRef .tc main_v13) = W2 m ρ c (Proc.devRef .tc main_v13) := StableHlo.after_of_forall_not_mem (b := Proc.devRef .tc main_v13) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  show W5 m ρ c (Proc.devRef .tc main_v13) = _
  rw [h4, h3, h2]
  exact after_kron (W1 m ρ c)

end FoldedWeights

open FoldedWeights

/-! ## The three reads -/

theorem wbig_apply (p' : Fin 32) (f : Fin 4) (p : Fin 32) (ch : Fin 64) :
    (V5 m ρ c main_v13 : Vec Ideal S128x2048 .f32) (ix2 (slot p' f) (lane p ch))
      = (if p' = p then (1 : EReal) else 0) * weff (fun g => (m ((c.tc : Thread nD τ).loc main_arg3) : Vec Ideal S64x10 .f32) (ix2 ch g)) f := by
  rw [V5_main_v13_eq]
  refine (shapeCast_apply _ _ _ (ix4 p' f p ch) ?_).trans ?_
  · rw [Shape.rowMajor_val_four, Shape.rowMajor_val_two]
    show ((p'.val * 4 + f.val) * 32 + p.val) * 64 + ch.val = (p'.val * 4 + f.val) * 2048 + (p.val * 64 + ch.val)
    omega
  rw [mulf_apply, eye_bcast_apply, wt_bcast_apply, W1_main_v11_eq, eye_apply, W1_main_v12_eq, transpose_ix2_apply, folded_apply]

theorem wclus_apply (ch : Fin 64) (j : Fin 3) :
    (V5 m ρ c main_v1 : Vec Ideal S64x3 .f32) (ix2 ch j) = wcl (fun g => (m ((c.tc : Thread nD τ).loc main_arg3) : Vec Ideal S64x10 .f32) (ix2 ch g)) j := by
  rw [V5_main_v1_eq]
  fin_cases j
  · exact slice_cols_apply 4 _ _ ch 0 4 rfl
  · exact slice_cols_apply 4 _ _ ch 1 5 rfl
  · exact slice_cols_apply 4 _ _ ch 2 6 rfl

theorem wcent_apply (ch : Fin 64) (j : Fin 3) :
    (V5 m ρ c main_v2 : Vec Ideal S64x3 .f32) (ix2 ch j) = wce (fun g => (m ((c.tc : Thread nD τ).loc main_arg3) : Vec Ideal S64x10 .f32) (ix2 ch g)) j := by
  rw [V5_main_v2_eq]
  fin_cases j
  · exact slice_cols_apply 7 _ _ ch 0 7 rfl
  · exact slice_cols_apply 7 _ _ ch 1 8 rfl
  · exact slice_cols_apply 7 _ _ ch 2 9 rfl

end Cert.KernelIdeal.Host

end
-- ==== Proof.Tiles.lean ====
/-
  The parameter arrays the host lays out before the first region, read at an index: the matrix that repeats the 4 × 3
  identity for each of the 32 slots; the four statistics vectors of 64 channels, each repeated 32 times along a row
  of 2048; the raw features re-laid from 32 × 4 to a row of 128; the counts as a column.
-/
import proofs.«414826_j24292335026905_3_alg».proof.Proof.Gen.KernelIdeal.Frame
import proofs.«414826_j24292335026905_3_alg».proof.Proof.Pillar
import Idealize.ShloMosaic.Lib.ValueIdx
import Idealize.ShloMosaic.Lib.Pipeline.Value
import Idealize.ShloMosaic.PureOps.Ideal.Laws

noncomputable section

namespace Cert.KernelIdeal.Host

open Idealize.ShloMosaic Idealize.ShloMosaic.TcCoe Idealize.SL.Sem Idealize.ShloMosaic.ValueIdx Cert.KernelIdeal Cert.KernelIdeal.Gen Cert.Pillar

variable (m : (ℓ : Loc nD τ sig) → Buf (Elt Ideal) ℓ) (ρ : Dev nD → PrngReg) (c : Dev nD)

/-!
  The arrays the host builds before the first region, read at an index of the region's entry contents.

  The entry contents are the launch memory folded through five stretches of host operations. Each array read here
  is the result of a short chain of layout operations in one stretch (re-layings, broadcasts, one product, one
  comparison of two iotas), applied to arguments that no stretch writes. So each reading has three parts: the chain
  as a term over the contents before its stretch, the argument's contents walked back to the launch memory, and the
  chain read at an index by matching row-major positions.
-/

/-! ## An argument no host operation writes holds its launch contents

The contents at the first region's entry are the launch memory folded through five stretches of host operations. A
buffer none of a stretch's operations writes is the same before and after the stretch, so the fold at an argument's
buffer walks back, stretch by stretch, to the launch memory. -/

/-- One stretch back: the buffer is the result of none of the stretch's operations. -/
local macro "step_back" : tactic => `(tactic| (
  refine Eq.trans (StableHlo.after_of_forall_not_mem _ _ (List.forall_iff_forall_mem.mp (by
    simp only [hostOps0, hostOps0_1, hostOps0_2, hostOps0_3, hostOps0_4, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))) ?_))

theorem W4_arg0 : W4 m ρ c (Proc.devRef .tc main_arg0) = m ((c.tc : Thread nD τ).loc main_arg0) := by
  step_back; step_back; step_back; step_back; rfl
theorem W4_arg2 : W4 m ρ c (Proc.devRef .tc main_arg2) = m ((c.tc : Thread nD τ).loc main_arg2) := by
  step_back; step_back; step_back; step_back; rfl
theorem W4_arg4 : W4 m ρ c (Proc.devRef .tc main_arg4) = m ((c.tc : Thread nD τ).loc main_arg4) := by
  step_back; step_back; step_back; step_back; rfl
theorem W4_arg5 : W4 m ρ c (Proc.devRef .tc main_arg5) = m ((c.tc : Thread nD τ).loc main_arg5) := by
  step_back; step_back; step_back; step_back; rfl
theorem W4_arg6 : W4 m ρ c (Proc.devRef .tc main_arg6) = m ((c.tc : Thread nD τ).loc main_arg6) := by
  step_back; step_back; step_back; step_back; rfl
theorem W4_arg7 : W4 m ρ c (Proc.devRef .tc main_arg7) = m ((c.tc : Thread nD τ).loc main_arg7) := by
  step_back; step_back; step_back; step_back; rfl

/-! ## The layout chains, read at an index -/

/-- A 64-vector laid along the channels of every slot of a row of 32 × 64 lanes. -/
def tile (x : FVec Ideal S64 .f32) : FVec Ideal S1x2048 .f32 :=
  shapeCast S1x2048 (shapeCast S2048 (broadcastInDim S32x64 ![0, 1] bcast_S1x64_S32x64_0_1
    (shapeCast S1x64 x shapeCasts_S64_S1x64)) shapeCasts_S32x64_S2048) shapeCasts_S2048_S1x2048

theorem tile_apply (x : FVec Ideal S64 .f32) (p : Fin 32) (ch : Fin 64) :
    tile x (ix2 0 (lane p ch)) = x (ix1 ch) := by
  unfold tile
  have hp := p.isLt
  have hc := ch.isLt
  refine (shapeCast_apply _ shapeCasts_S2048_S1x2048 (ix2 0 (lane p ch)) (ix1 (lane p ch)) ?_).trans ?_
  · rewrite [Shape.rowMajor_val_one, Shape.rowMajor_val_two]
    show p.val * 64 + ch.val = 0 * 2048 + (p.val * 64 + ch.val)
    omega
  refine (shapeCast_apply _ shapeCasts_S32x64_S2048 (ix1 (lane p ch)) (ix2 p ch) ?_).trans ?_
  · rewrite [Shape.rowMajor_val_one, Shape.rowMajor_val_two]
    show p.val * 64 + ch.val = p.val * 64 + ch.val
    rfl
  refine (broadcastInDim_apply _ bcast_S1x64_S32x64_0_1 _ (ix2 p ch) (ix2 0 ch) (fun a => match a with
    | ⟨0, _⟩ => rfl
    | ⟨1, _⟩ => rfl)).trans ?_
  refine shapeCast_apply x shapeCasts_S64_S1x64 (ix2 0 ch) (ix1 ch) ?_
  rewrite [Shape.rowMajor_val_one, Shape.rowMajor_val_two]
  show ch.val = 0 * 64 + ch.val
  omega

theorem vox_cast_apply (x : FVec Ideal S100000x32x4 .f32) (n : Fin 100000) (p : Fin 32) (f : Fin 4) :
    shapeCast S100000x128 x shapeCasts_S100000x32x4_S100000x128 (ix2 n (slot p f)) = x (ix3 n p f) := by
  have hn := n.isLt
  have hp := p.isLt
  have hf := f.isLt
  refine shapeCast_apply x shapeCasts_S100000x32x4_S100000x128 (ix2 n (slot p f)) (ix3 n p f) ?_
  rewrite [Shape.rowMajor_val_three, Shape.rowMajor_val_two]
  show (n.val * 32 + p.val) * 4 + f.val = n.val * 128 + (p.val * 4 + f.val)
  omega

theorem npts_cast_apply (x : IVec S100000 32) (n : Fin 100000) :
    shapeCast S100000x1 x shapeCasts_S100000_S100000x1 (ix2 n 0) = x (ix1 n) := by
  refine shapeCast_apply x shapeCasts_S100000_S100000x1 (ix2 n 0) (ix1 n) ?_
  rewrite [Shape.rowMajor_val_one, Shape.rowMajor_val_two]
  show n.val = n.val * 1 + 0
  omega

/-- The Kronecker product of a 32-column with a 4 × 3 matrix, as the host spells it: both factors broadcast to
    32 × 4 × 1 × 3, multiplied, and re-laid to 128 × 3. -/
def kron (a : FVec Ideal S32x1 .f32) (b : FVec Ideal S4x3 .f32) : FVec Ideal S128x3 .f32 :=
  shapeCast S128x3 (mulf (F := Ideal)
    (broadcastInDim S32x4x1x3 ![0, 1, 2, 3] bcast_S32x1x1x1_S32x4x1x3_0_1_2_3 (broadcastInDim S32x1x1x1 ![0, 2] bcast_S32x1_S32x1x1x1_0_2 a))
    (broadcastInDim S32x4x1x3 ![0, 1, 2, 3] bcast_S1x4x1x3_S32x4x1x3_0_1_2_3 (broadcastInDim S1x4x1x3 ![1, 3] bcast_S4x3_S1x4x1x3_1_3 b)))
    shapeCasts_S32x4x1x3_S128x3

theorem kron_apply (a : FVec Ideal S32x1 .f32) (b : FVec Ideal S4x3 .f32) (p : Fin 32) (f : Fin 4) (j : Fin 3) :
    kron a b (ix2 (slot p f) j) = a (ix2 p 0) * b (ix2 f j) := by
  unfold kron
  have hp := p.isLt
  have hf := f.isLt
  have hj := j.isLt
  refine (shapeCast_apply _ shapeCasts_S32x4x1x3_S128x3 (ix2 (slot p f) j) (ix4 p f 0 j) ?_).trans ?_
  · rewrite [Shape.rowMajor_val_four, Shape.rowMajor_val_two]
    show ((p.val * 4 + f.val) * 1 + 0) * 3 + j.val = (p.val * 4 + f.val) * 3 + j.val
    omega
  rw [mulf_apply]
  congr 1
  · refine (broadcastInDim_apply _ bcast_S32x1x1x1_S32x4x1x3_0_1_2_3 _ (ix4 p f 0 j) (ix4 p 0 0 0) (fun a => match a with
      | ⟨0, _⟩ => rfl
      | ⟨1, _⟩ => rfl
      | ⟨2, _⟩ => rfl
      | ⟨3, _⟩ => rfl)).trans ?_
    exact broadcastInDim_apply _ bcast_S32x1_S32x1x1x1_0_2 a (ix4 p 0 0 0) (ix2 p 0) (fun a => match a with
      | ⟨0, _⟩ => rfl
      | ⟨1, _⟩ => rfl)
  · refine (broadcastInDim_apply _ bcast_S1x4x1x3_S32x4x1x3_0_1_2_3 _ (ix4 p f 0 j) (ix4 0 f 0 j) (fun a => match a with
      | ⟨0, _⟩ => rfl
      | ⟨1, _⟩ => rfl
      | ⟨2, _⟩ => rfl
      | ⟨3, _⟩ => rfl)).trans ?_
    exact broadcastInDim_apply _ bcast_S4x3_S1x4x1x3_1_3 b (ix4 0 f 0 j) (ix2 f j) (fun a => match a with
      | ⟨0, _⟩ => rfl
      | ⟨1, _⟩ => rfl)

/-- The 4 × 3 identity block as the host builds it: the comparison of the row iota (plus a zero splat) with the
    column iota, converted. -/
def eye43 : FVec Ideal S4x3 .f32 :=
  uitofp (F := Ideal) .f32 (cmpi .eq (addi (iotaInDim S4x3 32 0) (broadcastInDim S4x3 ![] bcast_S_S4x3 (constantI S_ 32 0#32)))
    (iotaInDim S4x3 32 1))

theorem eye43_apply (f : Fin 4) (j : Fin 3) : eye43 (ix2 f j) = if f.val = j.val then (1 : EReal) else 0 := by
  show (((IntOp.cmpi .eq (IntOp.addi (BitVec.ofNat 32 f.val) 0#32) (BitVec.ofNat 32 j.val)).toNat : ℝ) : EReal) = _
  fin_cases f <;> fin_cases j <;> simp [IntOp.cmpi, IntOp.addi]

/-- The column of 32 ones. -/
def ones32 : FVec Ideal S32x1 .f32 :=
  broadcastInDim S32x1 ![] bcast_S_S32x1 (constant (F := Ideal) S_ .f32 0x3F800000#32)

theorem ones32_apply (i : S32x1.Idx) : ones32 i = one := rfl

/-! ## What each stretch of host operations leaves in the buffers read here, from any contents before it -/

theorem ops4_v25 (Vl : Valuation τ sig (Elt Ideal)) :
    (StableHlo.after (hostOps0_4 (F := Ideal)) Vl (Proc.devRef .tc main_v25) : FVec Ideal S1x2048 .f32)
      = tile (Vl (Proc.devRef .tc main_arg4) : FVec Ideal S64 .f32) := by
  dsimp only [hostOps0_4]
  after_results
  rfl
theorem ops4_v29 (Vl : Valuation τ sig (Elt Ideal)) :
    (StableHlo.after (hostOps0_4 (F := Ideal)) Vl (Proc.devRef .tc main_v29) : FVec Ideal S1x2048 .f32)
      = tile (Vl (Proc.devRef .tc main_arg5) : FVec Ideal S64 .f32) := by
  dsimp only [hostOps0_4]
  after_results
  rfl
theorem ops4_v33 (Vl : Valuation τ sig (Elt Ideal)) :
    (StableHlo.after (hostOps0_4 (F := Ideal)) Vl (Proc.devRef .tc main_v33) : FVec Ideal S1x2048 .f32)
      = tile (Vl (Proc.devRef .tc main_arg6) : FVec Ideal S64 .f32) := by
  dsimp only [hostOps0_4]
  after_results
  rfl
theorem ops4_v37 (Vl : Valuation τ sig (Elt Ideal)) :
    (StableHlo.after (hostOps0_4 (F := Ideal)) Vl (Proc.devRef .tc main_v37) : FVec Ideal S1x2048 .f32)
      = tile (Vl (Proc.devRef .tc main_arg7) : FVec Ideal S64 .f32) := by
  dsimp only [hostOps0_4]
  after_results
  rfl
theorem ops4_v38 (Vl : Valuation τ sig (Elt Ideal)) :
    (StableHlo.after (hostOps0_4 (F := Ideal)) Vl (Proc.devRef .tc main_v38) : FVec Ideal S100000x128 .f32)
      = shapeCast S100000x128 (Vl (Proc.devRef .tc main_arg0) : FVec Ideal S100000x32x4 .f32) shapeCasts_S100000x32x4_S100000x128 := by
  dsimp only [hostOps0_4]
  after_results
  rfl
theorem ops4_v39 (Vl : Valuation τ sig (Elt Ideal)) :
    (StableHlo.after (hostOps0_4 (F := Ideal)) Vl (Proc.devRef .tc main_v39) : IVec S100000x1 32)
      = shapeCast S100000x1 (Vl (Proc.devRef .tc main_arg2) : IVec S100000 32) shapeCasts_S100000_S100000x1 := by
  dsimp only [hostOps0_4]
  after_results
  rfl

theorem ops2_v19 (Vl : Valuation τ sig (Elt Ideal)) :
    (StableHlo.after (hostOps0_2 (F := Ideal)) Vl (Proc.devRef .tc main_v19) : FVec Ideal S4x3 .f32) = eye43 := by
  dsimp only [hostOps0_2]
  after_results
  rfl
theorem ops2_v20 (Vl : Valuation τ sig (Elt Ideal)) :
    (StableHlo.after (hostOps0_2 (F := Ideal)) Vl (Proc.devRef .tc main_v20) : FVec Ideal S32x1 .f32) = ones32 := by
  dsimp only [hostOps0_2]
  after_results
  rfl
theorem ops3_v21 (Vl : Valuation τ sig (Elt Ideal)) :
    (StableHlo.after (hostOps0_3 (F := Ideal)) Vl (Proc.devRef .tc main_v21) : FVec Ideal S128x3 .f32)
      = kron (Vl (Proc.devRef .tc main_v20) : FVec Ideal S32x1 .f32) (Vl (Proc.devRef .tc main_v19) : FVec Ideal S4x3 .f32) := by
  dsimp only [hostOps0_3]
  after_results
  rfl

/-! ## The arrays at the first region's entry, read at an index -/

theorem sel_apply (p : Fin 32) (f : Fin 4) (j : Fin 3) :
    (V5 m ρ c main_v21 : Vec Ideal S128x3 .f32) (ix2 (slot p f) j) = one * (if f.val = j.val then (1 : EReal) else 0) := by
  have e : (W5 m ρ c (Proc.devRef .tc main_v21) : FVec Ideal S128x3 .f32) = kron ones32 eye43 := by
    step_back
    exact (ops3_v21 (W3 m ρ c)).trans (congrArg₂ kron (ops2_v20 (W2 m ρ c)) (ops2_v19 (W2 m ρ c)))
  exact (congrFun e (ix2 (slot p f) j)).trans
    ((kron_apply ones32 eye43 p f j).trans (congrArg₂ (· * ·) (ones32_apply (ix2 p 0)) (eye43_apply f j)))

theorem gamma_apply (p : Fin 32) (ch : Fin 64) :
    (V5 m ρ c main_v25 : Vec Ideal S1x2048 .f32) (ix2 0 (lane p ch)) = (m ((c.tc : Thread nD τ).loc main_arg4) : Vec Ideal S64 .f32) (ix1 ch) :=
  (congrFun ((ops4_v25 (W4 m ρ c)).trans (congrArg tile (W4_arg4 m ρ c))) (ix2 0 (lane p ch))).trans (tile_apply _ p ch)

theorem beta_apply (p : Fin 32) (ch : Fin 64) :
    (V5 m ρ c main_v29 : Vec Ideal S1x2048 .f32) (ix2 0 (lane p ch)) = (m ((c.tc : Thread nD τ).loc main_arg5) : Vec Ideal S64 .f32) (ix1 ch) :=
  (congrFun ((ops4_v29 (W4 m ρ c)).trans (congrArg tile (W4_arg5 m ρ c))) (ix2 0 (lane p ch))).trans (tile_apply _ p ch)

theorem rmean_apply (p : Fin 32) (ch : Fin 64) :
    (V5 m ρ c main_v33 : Vec Ideal S1x2048 .f32) (ix2 0 (lane p ch)) = (m ((c.tc : Thread nD τ).loc main_arg6) : Vec Ideal S64 .f32) (ix1 ch) :=
  (congrFun ((ops4_v33 (W4 m ρ c)).trans (congrArg tile (W4_arg6 m ρ c))) (ix2 0 (lane p ch))).trans (tile_apply _ p ch)

theorem rvar_apply (p : Fin 32) (ch : Fin 64) :
    (V5 m ρ c main_v37 : Vec Ideal S1x2048 .f32) (ix2 0 (lane p ch)) = (m ((c.tc : Thread nD τ).loc main_arg7) : Vec Ideal S64 .f32) (ix1 ch) :=
  (congrFun ((ops4_v37 (W4 m ρ c)).trans (congrArg tile (W4_arg7 m ρ c))) (ix2 0 (lane p ch))).trans (tile_apply _ p ch)

theorem vox_apply (n : Fin 100000) (p : Fin 32) (f : Fin 4) :
    (V5 m ρ c main_v38 : Vec Ideal S100000x128 .f32) (ix2 n (slot p f)) = (m ((c.tc : Thread nD τ).loc main_arg0) : Vec Ideal S100000x32x4 .f32) (ix3 n p f) :=
  (congrFun ((ops4_v38 (W4 m ρ c)).trans (congrArg (shapeCast S100000x128 · shapeCasts_S100000x32x4_S100000x128) (W4_arg0 m ρ c)))
    (ix2 n (slot p f))).trans (vox_cast_apply _ n p f)

theorem npts_apply (n : Fin 100000) :
    (V5 m ρ c main_v39 : Vec Ideal S100000x1 .i32) (ix2 n 0) = (m ((c.tc : Thread nD τ).loc main_arg2) : Vec Ideal S100000 .i32) (ix1 n) :=
  (congrFun ((ops4_v39 (W4 m ρ c)).trans (congrArg (shapeCast S100000x1 · shapeCasts_S100000_S100000x1) (W4_arg2 m ρ c)))
    (ix2 n 0)).trans (npts_cast_apply _ n)

theorem coords_eq : (V5 m ρ c main_arg1 : Vec Ideal S100000x4 .i32) = (m ((c.tc : Thread nD τ).loc main_arg1) : Vec Ideal S100000x4 .i32) := by
  show W5 m ρ c (Proc.devRef .tc main_arg1) = _
  step_back; step_back; step_back; step_back; step_back; rfl

end Cert.KernelIdeal.Host

end
-- ==== Proof.KernelFeat.lean ====
/-
  What the first region leaves for one pillar and one channel is the pooled feature of that pillar in the folded
  arrangement.  The body contracts a row of 32 × 4 raw features with a 128 × 2048 matrix that is block diagonal, 32
  copies of the folded 4 × 64 weights: only the slot's own block contributes, which gives the contraction of the
  slot's 4 features with the folded weights.  The row's sums of x, y and z come from the matrix that repeats the
  4 × 3 identity for every slot.  The statistics of the normalisation are rows of 32 copies of the 64 channel values.
-/
import proofs.«414826_j24292335026905_3_alg».proof.Proof.Rows
import proofs.«414826_j24292335026905_3_alg».proof.Proof.Gemm
import proofs.«414826_j24292335026905_3_alg».proof.Proof.Bias
import proofs.«414826_j24292335026905_3_alg».proof.Proof.MaskAt
import proofs.«414826_j24292335026905_3_alg».proof.Proof.Pooled
import proofs.«414826_j24292335026905_3_alg».proof.Proof.FoldedWeights
import proofs.«414826_j24292335026905_3_alg».proof.Proof.Tiles
import proofs.«414826_j24292335026905_3_alg».proof.Proof.PillarLaws
import Idealize.ShloMosaic.Lib.ValueIdx
import Idealize.ShloMosaic.Lib.Pipeline.Value
import Idealize.ShloMosaic.PureOps.Ideal.Laws

noncomputable section

namespace Cert.KernelIdeal.Host

open Idealize.ShloMosaic Idealize.ShloMosaic.TcCoe Idealize.SL.Sem Idealize.ShloMosaic.ValueIdx Cert.KernelIdeal Cert.KernelIdeal.Gen Cert.Pillar Cert.KernelIdeal.Body

/-- A sum over the 128 flat positions of a row of raw features, slot by slot. -/
theorem sum_slot (g : Fin 128 → EReal) : ∑ k : Fin 128, g k = ∑ p : Fin 32, ∑ f : Fin 4, g (slot p f) := by
  rw [← Fintype.sum_prod_type' (f := fun p f => g (slot p f))]
  refine (Equiv.sum_comp (finProdFinEquiv (m := 32) (n := 4)) g).symm.trans ?_
  refine Finset.sum_congr rfl fun x _ => congrArg g (Fin.ext ?_)
  simp only [finProdFinEquiv, Equiv.coe_fn_mk, slot]
  omega

/-- Against a block-diagonal matrix only the slot's own block contributes. -/
theorem blockdiag (v : Fin 32 → Fin 4 → EReal) (u : Fin 4 → EReal) (p : Fin 32) :
    ∑ p' : Fin 32, ∑ f : Fin 4, v p' f * ((if p' = p then (1 : EReal) else 0) * u f) = ∑ f : Fin 4, v p f * u f := by
  rw [Finset.sum_eq_single p]
  · simp
  · intro p' _ hp'
    simp [hp']
  · intro h; exact absurd (Finset.mem_univ p) h

/-- Against the matrix that repeats the 4 × 3 identity for every slot, coordinate `j` is summed over the slots. -/
theorem select_sum (v : Fin 32 → Fin 4 → EReal) (j : Fin 3) :
    ∑ p' : Fin 32, ∑ f : Fin 4, v p' f * (one * (if f.val = j.val then (1 : EReal) else 0)) = xyzsum v j := by
  unfold xyzsum
  refine Finset.sum_congr rfl fun p' _ => ?_
  rw [Finset.sum_eq_single j.castSucc]
  · simp [one_eq]
  · intro f _ hf
    have : ¬ f.val = j.val := fun h => hf (Fin.ext (by simpa using h))
    simp [this]
  · intro h; exact absurd (Finset.mem_univ _) h

variable (m : (ℓ : Loc nD τ sig) → Buf (Elt Ideal) ℓ) (ρ : Dev nD → PrngReg) (c : Dev nD)

/-- Every pillar is row `r` of some block `t`. -/
theorem row_div_mod (n : Fin 100000) : ∃ (t : Fin 100) (r : Fin 1000), n = row t r :=
  ⟨⟨n.val / 1000, by have := n.isLt; omega⟩, ⟨n.val % 1000, Nat.mod_lt _ (by norm_num)⟩, Fin.ext (by simp only [row]; omega)⟩

/-- What the first region leaves for pillar `n` and channel `ch`: the pooled feature in the folded arrangement,
    of the pillar's own raw features, coordinates and count, and the channel's own weights and statistics. -/
theorem kernel_feat (n : Fin 100000) (ch : Fin 64) :
    (V6 m ρ c main_v40 : Vec Ideal S100000x64 .f32) (ix2 n ch)
      = feat (actK (fun p f => (m ((c.tc : Thread nD τ).loc main_arg0) : Vec Ideal S100000x32x4 .f32) (ix3 n p f)) (fun j => (m ((c.tc : Thread nD τ).loc main_arg1) : Vec Ideal S100000x4 .i32) (ix2 n j))
            ((m ((c.tc : Thread nD τ).loc main_arg2) : Vec Ideal S100000 .i32) (ix1 n)) (fun g => (m ((c.tc : Thread nD τ).loc main_arg3) : Vec Ideal S64x10 .f32) (ix2 ch g)))
          ((m ((c.tc : Thread nD τ).loc main_arg4) : Vec Ideal S64 .f32) (ix1 ch)) ((m ((c.tc : Thread nD τ).loc main_arg5) : Vec Ideal S64 .f32) (ix1 ch)) ((m ((c.tc : Thread nD τ).loc main_arg6) : Vec Ideal S64 .f32) (ix1 ch)) ((m ((c.tc : Thread nD τ).loc main_arg7) : Vec Ideal S64 .f32) (ix1 ch)) := by
  obtain ⟨t, r, rfl⟩ := row_div_mod n
  refine (pillars_final m ρ c t r ch).trans ?_
  unfold blockOut
  refine (pay1_apply _ _ _ _ _ r ch).trans ?_
  unfold feat
  refine Finset.sup_congr rfl fun p _ => ?_
  rw [pay11_apply, gamma_apply m ρ c p ch, beta_apply m ρ c p ch, rmean_apply m ρ c p ch, rvar_apply m ρ c p ch]
  congr 1
  rw [pay10_apply, slotMask_apply, pay4_apply, pay5_apply]
  unfold actK
  have hnp : rows2 m ρ c t (ix2 r 0) = (m ((c.tc : Thread nD τ).loc main_arg2) : Vec Ideal S100000 .i32) (ix1 (row t r)) := npts_apply m ρ c (row t r)
  have hvox : ∀ (p' : Fin 32) (f : Fin 4), rows0 m ρ c t (ix2 r (slot p' f)) = (m ((c.tc : Thread nD τ).loc main_arg0) : Vec Ideal S100000x32x4 .f32) (ix3 (row t r) p' f) :=
    fun p' f => vox_apply m ρ c (row t r) p' f
  have hco : ∀ j : Fin 4, rows1 m ρ c t (ix2 r j) = (m ((c.tc : Thread nD τ).loc main_arg1) : Vec Ideal S100000x4 .i32) (ix2 (row t r) j) :=
    fun j => congrFun (coords_eq m ρ c) (ix2 (row t r) j)
  refine congrArg₂ (· * ·) ?_ (congrArg (occ p) hnp)
  refine congrArg₂ (· - ·) ?_ (congrArg₂ (· + ·) ?_ ?_)
  · rw [sum_slot]
    simp only [hvox, wbig_apply m ρ c]
    exact blockdiag _ _ p
  · refine Finset.sum_congr rfl fun j _ => ?_
    rw [pay6_apply, wclus_apply m ρ c ch j]
    refine congrArg (· * _) ?_
    unfold meanK
    rw [sum_slot]
    simp only [hvox, sel_apply m ρ c]
    rw [select_sum, hnp]
  · refine Finset.sum_congr rfl fun j _ => ?_
    rw [wcent_apply m ρ c ch j, pay7_apply, pay8_apply, pay9_apply, hco 3, hco 2, hco 1]
    rfl

end Cert.KernelIdeal.Host

end
-- ==== Proof.RefFeats.lean ====
/-
  The reference's ten features of a point, zeroed on an empty slot, read at an index: the four raw features, the
  offsets of x, y and z from the mean of the pillar's points (the sum over the 32 slots divided by the count), and the
  offsets from the centre of the pillar's voxel (an affine function of one integer coordinate).  The mask is the slot
  number compared with the count, read as a float.
-/
import proofs.«414826_j24292335026905_3_alg».proof.Proof.Gen.ReferenceIdeal.Read
import proofs.«414826_j24292335026905_3_alg».proof.Proof.Pillar
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx Cert.ReferenceIdeal Cert.ReferenceIdeal.Read Cert.Pillar

/-- A one-bit word widened to 32 bits and read as a signed integer is the bit. -/
theorem toInt_setWidth_bit' : ∀ b : BitVec 1, (b.setWidth 32).toInt = (b.toNat : ℤ) := by decide

/-- The reference's mask at (n, p, f): 1 when slot p is below the pillar's count (signed), else 0. -/
theorem mask_apply (x2 : (⟨S100000, .i32⟩ : BufTy).Contents (Elt Ideal))
    (n : Fin 100000) (p : Fin 32) (f : Fin 10) :
    val_main_v56 (F := Ideal) x2 (ix3 n p f) = occ p (x2 (ix1 n)) := by
  have e1 : idx_main_v49 (idx_main_v51 (idx_main_v55 (idx_main_v56 (ix3 n p f)))) = ix1 p :=
    funext fun a => Fin.ext (by match a with | ⟨0, _⟩ => rfl)
  have e2 : idx_main_v50 (idx_main_v52 (idx_main_v55 (idx_main_v56 (ix3 n p f)))) = ix1 n :=
    funext fun a => Fin.ext (by match a with | ⟨0, _⟩ => rfl)
  rw [val_main_v56_apply, val_main_v55_apply, val_main_v54_apply, val_main_v53_apply, val_main_v51_apply,
    val_main_v49_apply, val_main_v48_apply, val_main_v52_apply, val_main_v50_apply, e1, e2]
  show ((((IntOp.cmpi .slt (BitVec.ofNat 32 p.val) (x2 (ix1 n))).toNat : ℝ)) : EReal) = occ p (x2 (ix1 n))
  unfold occ
  rw [toInt_setWidth_bit']
  norm_cast

/-- The joined features at a raw coordinate. -/
theorem v47_raw (x0 : (⟨S100000x32x4, .f32⟩ : BufTy).Contents (Elt Ideal)) (x1 : (⟨S100000x4, .i32⟩ : BufTy).Contents (Elt Ideal)) (x2 : (⟨S100000, .i32⟩ : BufTy).Contents (Elt Ideal))
    (n : Fin 100000) (p : Fin 32) (f : Fin 10) (hf : f.val < 4) :
    val_main_v47 (F := Ideal) x0 x1 x2 (ix3 n p f) = x0 (ix3 n p ⟨f.val, hf⟩) := by
  unfold val_main_v47
  exact concatenate_apply_piece (t := S100000x32x10) 2 _ _ (ix3 n p f) 0 (by show (0 : Nat) < 3; omega) S100000x32x4 x0 rfl rfl 0 rfl
    (ix3 n p ⟨f.val, hf⟩)
    (fun b hb => by match b with | ⟨0, _⟩ => rfl | ⟨1, _⟩ => rfl | ⟨2, _⟩ => exact absurd rfl hb)
    (by show 0 + f.val = f.val; omega)

/-- The joined features at a coordinate of the offsets from the mean. -/
theorem v47_mean (x0 : (⟨S100000x32x4, .f32⟩ : BufTy).Contents (Elt Ideal)) (x1 : (⟨S100000x4, .i32⟩ : BufTy).Contents (Elt Ideal)) (x2 : (⟨S100000, .i32⟩ : BufTy).Contents (Elt Ideal))
    (n : Fin 100000) (p : Fin 32) (f : Fin 10) (j : Fin 3) (hf : 4 + j.val = f.val) :
    val_main_v47 (F := Ideal) x0 x1 x2 (ix3 n p f) = val_main_v8 (F := Ideal) x0 x2 (ix3 n p j) := by
  unfold val_main_v47
  exact concatenate_apply_piece (t := S100000x32x10) 2 _ _ (ix3 n p f) 1 (by show (1 : Nat) < 3; omega) S100000x32x3 (val_main_v8 (F := Ideal) x0 x2) rfl rfl 4 rfl
    (ix3 n p j)
    (fun b hb => by match b with | ⟨0, _⟩ => rfl | ⟨1, _⟩ => rfl | ⟨2, _⟩ => exact absurd rfl hb)
    hf

/-- The joined features at a coordinate of the offsets from the voxel's centre. -/
theorem v47_ctr (x0 : (⟨S100000x32x4, .f32⟩ : BufTy).Contents (Elt Ideal)) (x1 : (⟨S100000x4, .i32⟩ : BufTy).Contents (Elt Ideal)) (x2 : (⟨S100000, .i32⟩ : BufTy).Contents (Elt Ideal))
    (n : Fin 100000) (p : Fin 32) (f : Fin 10) (j : Fin 3) (hf : 7 + j.val = f.val) :
    val_main_v47 (F := Ideal) x0 x1 x2 (ix3 n p f) = val_main_v46 (F := Ideal) x0 x1 (ix3 n p j) := by
  unfold val_main_v47
  exact concatenate_apply_piece (t := S100000x32x10) 2 _ _ (ix3 n p f) 2 (by show (2 : Nat) < 3; omega) S100000x32x3 (val_main_v46 (F := Ideal) x0 x1) rfl rfl 7 rfl
    (ix3 n p j)
    (fun b hb => by match b with | ⟨0, _⟩ => rfl | ⟨1, _⟩ => rfl | ⟨2, _⟩ => exact absurd rfl hb)
    hf

/-- The offsets of x, y, z from the mean of the pillar's points, at (n, p, j). -/
theorem v8_apply (x0 : (⟨S100000x32x4, .f32⟩ : BufTy).Contents (Elt Ideal)) (x2 : (⟨S100000, .i32⟩ : BufTy).Contents (Elt Ideal))
    (n : Fin 100000) (p : Fin 32) (j : Fin 3) :
    val_main_v8 (F := Ideal) x0 x2 (ix3 n p j)
      = x0 (ix3 n p j.castSucc) - meanR (fun p f => x0 (ix3 n p f)) (x2 (ix1 n)) j := by
  have e0 : idx_main_v0 (ix3 n p j) = ix3 n p j.castSucc :=
    funext fun a => Fin.ext (by match a with | ⟨0, _⟩ => rfl | ⟨1, _⟩ => rfl | ⟨2, _⟩ => rfl)
  have e3 : ∀ k : Fin 32, idx_main_v0 (idx_main_v3 (idx_main_v4 (idx_main_v7 (ix3 n p j))) k) = ix3 n k j.castSucc :=
    fun k => funext fun a => Fin.ext (by match a with | ⟨0, _⟩ => rfl | ⟨1, _⟩ => rfl | ⟨2, _⟩ => rfl)
  have e5 : idx_main_v2 (idx_main_v5 (idx_main_v7 (ix3 n p j))) = ix1 n :=
    funext fun a => Fin.ext (by match a with | ⟨0, _⟩ => rfl)
  rw [val_main_v8_apply, val_main_v0_apply, val_main_v7_apply, val_main_v6_apply, val_main_v4_apply, val_main_v3_apply,
    val_main_cst_apply, val_main_v5_apply, val_main_v2_apply, val_main_v1_apply, e0, e5]
  simp only [val_main_v0_apply, e3]
  rw [Ideal.ofBits_def, Ideal.ofBits_zero_f32, zero_add]
  rfl

/-- The joined offsets from the voxel's centre: coordinate j is the j-th of the three, at (n, p, 0). -/
theorem v46_0 (x0 : (⟨S100000x32x4, .f32⟩ : BufTy).Contents (Elt Ideal)) (x1 : (⟨S100000x4, .i32⟩ : BufTy).Contents (Elt Ideal))
    (n : Fin 100000) (p : Fin 32) :
    val_main_v46 (F := Ideal) x0 x1 (ix3 n p (0 : Fin 3)) = val_main_v43 (F := Ideal) x0 x1 (ix3 n p (0 : Fin 1)) := by
  unfold val_main_v46
  exact concatenate_apply_piece (t := S100000x32x3) 2 _ _ (ix3 n p (0 : Fin 3)) 0 (by show (0 : Nat) < 3; omega) S100000x32x1
    (val_main_v43 (F := Ideal) x0 x1) rfl rfl 0 rfl (ix3 n p (0 : Fin 1))
    (fun b hb => by match b with | ⟨0, _⟩ => rfl | ⟨1, _⟩ => rfl | ⟨2, _⟩ => exact absurd rfl hb)
    rfl

theorem v46_1 (x0 : (⟨S100000x32x4, .f32⟩ : BufTy).Contents (Elt Ideal)) (x1 : (⟨S100000x4, .i32⟩ : BufTy).Contents (Elt Ideal))
    (n : Fin 100000) (p : Fin 32) :
    val_main_v46 (F := Ideal) x0 x1 (ix3 n p (1 : Fin 3)) = val_main_v44 (F := Ideal) x0 x1 (ix3 n p (0 : Fin 1)) := by
  unfold val_main_v46
  exact concatenate_apply_piece (t := S100000x32x3) 2 _ _ (ix3 n p (1 : Fin 3)) 1 (by show (1 : Nat) < 3; omega) S100000x32x1
    (val_main_v44 (F := Ideal) x0 x1) rfl rfl 1 rfl (ix3 n p (0 : Fin 1))
    (fun b hb => by match b with | ⟨0, _⟩ => rfl | ⟨1, _⟩ => rfl | ⟨2, _⟩ => exact absurd rfl hb)
    rfl

theorem v46_2 (x0 : (⟨S100000x32x4, .f32⟩ : BufTy).Contents (Elt Ideal)) (x1 : (⟨S100000x4, .i32⟩ : BufTy).Contents (Elt Ideal))
    (n : Fin 100000) (p : Fin 32) :
    val_main_v46 (F := Ideal) x0 x1 (ix3 n p (2 : Fin 3)) = val_main_v45 (F := Ideal) x0 x1 (ix3 n p (0 : Fin 1)) := by
  unfold val_main_v46
  exact concatenate_apply_piece (t := S100000x32x3) 2 _ _ (ix3 n p (2 : Fin 3)) 2 (by show (2 : Nat) < 3; omega) S100000x32x1
    (val_main_v45 (F := Ideal) x0 x1) rfl rfl 2 rfl (ix3 n p (0 : Fin 1))
    (fun b hb => by match b with | ⟨0, _⟩ => rfl | ⟨1, _⟩ => rfl | ⟨2, _⟩ => exact absurd rfl hb)
    rfl

/-- The offsets of x, y, z from the centre of the pillar's voxel, at (n, p, 0): the raw coordinate less the grid index as a float times the extent plus the shifted origin. -/
theorem v43_apply (x0 : (⟨S100000x32x4, .f32⟩ : BufTy).Contents (Elt Ideal)) (x1 : (⟨S100000x4, .i32⟩ : BufTy).Contents (Elt Ideal))
    (n : Fin 100000) (p : Fin 32) :
    val_main_v43 (F := Ideal) x0 x1 (ix3 n p (0 : Fin 1))
      = x0 (ix3 n p (0 : Fin 4)) - (fl (x1 (ix2 n (3 : Fin 4))) * vx + xo) := by
  have hp : p.val < 32 := p.isLt
  have ea : idx_main_v10 (idx_main_v11 (idx_main_v43 (ix3 n p (0 : Fin 1)))) = ix3 n p (0 : Fin 4) :=
    funext fun a => Fin.ext (by match a with
      | ⟨0, _⟩ => show (n.val * 32 + p.val) / 32 = n.val; omega
      | ⟨1, _⟩ => show (n.val * 32 + p.val) / 1 % 32 = p.val; omega
      | ⟨2, _⟩ => rfl)
  have eb : idx_main_v12 (idx_main_v13 (idx_main_v14 (idx_main_v19 (idx_main_v43 (ix3 n p (0 : Fin 1)))))) = ix2 n (3 : Fin 4) :=
    funext fun a => Fin.ext (by match a with
      | ⟨0, _⟩ => show n.val / 1 = n.val; omega
      | ⟨1, _⟩ => rfl)
  rw [val_main_v43_apply, val_main_v20_apply, val_main_v11_apply, val_main_v10_apply, val_main_v19_apply,
    val_main_v18_apply, val_main_v16_apply, val_main_v14_apply, val_main_v13_apply, val_main_v12_apply,
    val_main_v9_apply, val_main_v15_apply, val_main_cst_0_apply, val_main_v17_apply, val_main_cst_1_apply, ea, eb]
  rfl

theorem v44_apply (x0 : (⟨S100000x32x4, .f32⟩ : BufTy).Contents (Elt Ideal)) (x1 : (⟨S100000x4, .i32⟩ : BufTy).Contents (Elt Ideal))
    (n : Fin 100000) (p : Fin 32) :
    val_main_v44 (F := Ideal) x0 x1 (ix3 n p (0 : Fin 1))
      = x0 (ix3 n p (1 : Fin 4)) - (fl (x1 (ix2 n (2 : Fin 4))) * vx + yo) := by
  have hp : p.val < 32 := p.isLt
  have ea : idx_main_v21 (idx_main_v22 (idx_main_v44 (ix3 n p (0 : Fin 1)))) = ix3 n p (1 : Fin 4) :=
    funext fun a => Fin.ext (by match a with
      | ⟨0, _⟩ => show (n.val * 32 + p.val) / 32 = n.val; omega
      | ⟨1, _⟩ => show (n.val * 32 + p.val) / 1 % 32 = p.val; omega
      | ⟨2, _⟩ => rfl)
  have eb : idx_main_v23 (idx_main_v24 (idx_main_v25 (idx_main_v30 (idx_main_v44 (ix3 n p (0 : Fin 1)))))) = ix2 n (2 : Fin 4) :=
    funext fun a => Fin.ext (by match a with
      | ⟨0, _⟩ => show n.val / 1 = n.val; omega
      | ⟨1, _⟩ => rfl)
  rw [val_main_v44_apply, val_main_v31_apply, val_main_v22_apply, val_main_v21_apply, val_main_v30_apply,
    val_main_v29_apply, val_main_v27_apply, val_main_v25_apply, val_main_v24_apply, val_main_v23_apply,
    val_main_v9_apply, val_main_v26_apply, val_main_cst_2_apply, val_main_v28_apply, val_main_cst_3_apply, ea, eb]
  rfl

theorem v45_apply (x0 : (⟨S100000x32x4, .f32⟩ : BufTy).Contents (Elt Ideal)) (x1 : (⟨S100000x4, .i32⟩ : BufTy).Contents (Elt Ideal))
    (n : Fin 100000) (p : Fin 32) :
    val_main_v45 (F := Ideal) x0 x1 (ix3 n p (0 : Fin 1))
      = x0 (ix3 n p (2 : Fin 4)) - (fl (x1 (ix2 n (1 : Fin 4))) * vz + zo) := by
  have hp : p.val < 32 := p.isLt
  have ea : idx_main_v32 (idx_main_v33 (idx_main_v45 (ix3 n p (0 : Fin 1)))) = ix3 n p (2 : Fin 4) :=
    funext fun a => Fin.ext (by match a with
      | ⟨0, _⟩ => show (n.val * 32 + p.val) / 32 = n.val; omega
      | ⟨1, _⟩ => show (n.val * 32 + p.val) / 1 % 32 = p.val; omega
      | ⟨2, _⟩ => rfl)
  have eb : idx_main_v34 (idx_main_v35 (idx_main_v36 (idx_main_v41 (idx_main_v45 (ix3 n p (0 : Fin 1)))))) = ix2 n (1 : Fin 4) :=
    funext fun a => Fin.ext (by match a with
      | ⟨0, _⟩ => show n.val / 1 = n.val; omega
      | ⟨1, _⟩ => rfl)
  rw [val_main_v45_apply, val_main_v42_apply, val_main_v33_apply, val_main_v32_apply, val_main_v41_apply,
    val_main_v40_apply, val_main_v38_apply, val_main_v36_apply, val_main_v35_apply, val_main_v34_apply,
    val_main_v9_apply, val_main_v37_apply, val_main_cst_4_apply, val_main_v39_apply, val_main_cst_5_apply, ea, eb]
  rfl

/-- The reference's masked features: slot `p` of pillar `n` holds its 10 features, zeroed when the slot is empty. -/
theorem masked_feats_apply (x0 : (⟨S100000x32x4, .f32⟩ : BufTy).Contents (Elt Ideal)) (x1 : (⟨S100000x4, .i32⟩ : BufTy).Contents (Elt Ideal)) (x2 : (⟨S100000, .i32⟩ : BufTy).Contents (Elt Ideal))
    (n : Fin 100000) (p : Fin 32) (f : Fin 10) :
    val_main_v57 (F := Ideal) x0 x1 x2 (ix3 n p f)
      = feats (fun p f => x0 (ix3 n p f)) (fun j => x1 (ix2 n j)) (x2 (ix1 n)) p f * occ p (x2 (ix1 n)) := by
  show val_main_v47 (F := Ideal) x0 x1 x2 (ix3 n p f) * val_main_v56 (F := Ideal) x2 (ix3 n p f) = _
  rw [mask_apply]
  refine congrArg (· * occ p (x2 (ix1 n))) ?_
  match f with
  | ⟨0, h⟩ => exact v47_raw x0 x1 x2 n p ⟨0, h⟩ (by show (0 : Nat) < 4; omega)
  | ⟨1, h⟩ => exact v47_raw x0 x1 x2 n p ⟨1, h⟩ (by show (1 : Nat) < 4; omega)
  | ⟨2, h⟩ => exact v47_raw x0 x1 x2 n p ⟨2, h⟩ (by show (2 : Nat) < 4; omega)
  | ⟨3, h⟩ => exact v47_raw x0 x1 x2 n p ⟨3, h⟩ (by show (3 : Nat) < 4; omega)
  | ⟨4, h⟩ => exact (v47_mean x0 x1 x2 n p ⟨4, h⟩ 0 rfl).trans (v8_apply x0 x2 n p 0)
  | ⟨5, h⟩ => exact (v47_mean x0 x1 x2 n p ⟨5, h⟩ 1 rfl).trans (v8_apply x0 x2 n p 1)
  | ⟨6, h⟩ => exact (v47_mean x0 x1 x2 n p ⟨6, h⟩ 2 rfl).trans (v8_apply x0 x2 n p 2)
  | ⟨7, h⟩ => exact (v47_ctr x0 x1 x2 n p ⟨7, h⟩ 0 rfl).trans ((v46_0 x0 x1 n p).trans (v43_apply x0 x1 n p))
  | ⟨8, h⟩ => exact (v47_ctr x0 x1 x2 n p ⟨8, h⟩ 1 rfl).trans ((v46_1 x0 x1 n p).trans (v44_apply x0 x1 n p))
  | ⟨9, h⟩ => exact (v47_ctr x0 x1 x2 n p ⟨9, h⟩ 2 rfl).trans ((v46_2 x0 x1 n p).trans (v45_apply x0 x1 n p))

end Cert.ReferenceIdeal.RefValue

end
-- ==== Proof.RefPool.lean ====
/-
  The reference from its masked features to its pooled features, read at an index: the contraction of the ten
  features with the channel's ten weights, the normalisation with the channel's statistics, the rectifier, and the
  maximum over the 32 slots, which the host takes as a reduction from −∞: a fold of maxima from the bottom element is
  the supremum over the slots.
-/
import proofs.«414826_j24292335026905_3_alg».proof.Proof.Gen.ReferenceIdeal.Read
import proofs.«414826_j24292335026905_3_alg».proof.Proof.Pillar
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx Cert.ReferenceIdeal Cert.ReferenceIdeal.Read Cert.Pillar

/-- The word 0xFF800000 denotes −∞, the least extended real. -/
theorem pooled_negInf_eq_bot : Ideal.ofBits .f32 0xFF800000#32 = (⊥ : EReal) := by
  simp [Ideal.ofBits, Ideal.ieee]

/-- A fold of the maximum from −∞ over a finite set is the supremum over the set. -/
theorem pooled_fold_max_eq_sup {ι : Type} (s : Finset ι) (f : ι → EReal) :
    s.fold max (Ideal.ofBits .f32 0xFF800000#32) f = s.sup f := by
  rw [pooled_negInf_eq_bot]
  rfl

/-- The pooled index (n, ch) with slot `k` put back on the reduced axis is (n, k, ch). -/
private theorem lift_ix3 (h : S100000x32x64.Reduces [1] S100000x64) (n : Fin 100000) (ch : Fin 64) (k : Fin (S100000x32x64.size 1)) :
    h.lift (ix2 n ch) k = ix3 n (⟨k.val, k.isLt⟩ : Fin 32) ch := by
  funext c; apply Fin.ext
  match c with
  | ⟨0, _⟩ => rfl
  | ⟨1, _⟩ => rfl
  | ⟨2, _⟩ => rfl

/-- The contraction's left operand at (n, p, ch), term `k`: the masked features at (n, p, k). -/
private theorem lidx_ix3 (n : Fin 100000) (p : Fin 32) (ch : Fin 64) (k : Fin 10) :
    lidx_main_v58 (ix3 n p ch) k = ix3 n p k := by
  funext a
  match a with
  | ⟨0, _⟩ => rfl
  | ⟨1, _⟩ => rfl
  | ⟨2, _⟩ => rfl

/-- The contraction's right operand at (n, p, ch), term `k`: the weights at (ch, k). -/
private theorem ridx_ix3 (n : Fin 100000) (p : Fin 32) (ch : Fin 64) (k : Fin 10) :
    ridx_main_v58 (ix3 n p ch) k = ix2 ch k := by
  funext a
  match a with
  | ⟨0, _⟩ => rfl
  | ⟨1, _⟩ => rfl

/-- A per-channel vector broadcast to [1, 1, 64] and then to [100000, 32, 64] is read, at (n, p, ch), at `ch`:
    the mean, the reciprocal root, the scale and the shift. -/
private theorem idx_mean (n : Fin 100000) (p : Fin 32) (ch : Fin 64) : idx_main_v59 (idx_main_v60 (ix3 n p ch)) = ix1 ch := by
  funext a
  match a with
  | ⟨0, _⟩ => rfl
private theorem idx_rstd (n : Fin 100000) (p : Fin 32) (ch : Fin 64) : idx_main_v65 (idx_main_v66 (ix3 n p ch)) = ix1 ch := by
  funext a
  match a with
  | ⟨0, _⟩ => rfl
private theorem idx_scale (n : Fin 100000) (p : Fin 32) (ch : Fin 64) : idx_main_v68 (idx_main_v69 (ix3 n p ch)) = ix1 ch := by
  funext a
  match a with
  | ⟨0, _⟩ => rfl
private theorem idx_shift (n : Fin 100000) (p : Fin 32) (ch : Fin 64) : idx_main_v71 (idx_main_v72 (ix3 n p ch)) = ix1 ch := by
  funext a
  match a with
  | ⟨0, _⟩ => rfl

/-- One slot of the rectified activations: the contraction of the slot's masked features with the channel's weights,
    normalised with the channel's running statistics, scaled, shifted and rectified. -/
theorem pooled_slot_apply (x0 : (⟨S100000x32x4, .f32⟩ : BufTy).Contents (Elt Ideal)) (x1 : (⟨S100000x4, .i32⟩ : BufTy).Contents (Elt Ideal)) (x2 : (⟨S100000, .i32⟩ : BufTy).Contents (Elt Ideal)) (x3 : (⟨S64x10, .f32⟩ : BufTy).Contents (Elt Ideal)) (x4 x5 x6 x7 : (⟨S64, .f32⟩ : BufTy).Contents (Elt Ideal)) (n : Fin 100000) (p : Fin 32) (ch : Fin 64) :
    val_main_v74 (F := Ideal) x0 x1 x2 x3 x4 x5 x6 x7 (ix3 n p ch)
      = bn (∑ f : Fin 10, val_main_v57 (F := Ideal) x0 x1 x2 (ix3 n p f) * x3 (ix2 ch f)) (x4 (ix1 ch)) (x5 (ix1 ch)) (x6 (ix1 ch)) (x7 (ix1 ch)) := by
  rw [val_main_v74_apply, val_main_v73_apply, val_main_v70_apply, val_main_v67_apply, val_main_v61_apply, val_main_v58_apply,
    val_main_v60_apply, val_main_v59_apply, val_main_v66_apply, val_main_v65_apply, val_main_v64_apply, val_main_v63_apply,
    val_main_v62_apply, val_main_cst_6_apply, val_main_v69_apply, val_main_v68_apply, val_main_v72_apply, val_main_v71_apply,
    val_main_call0_v0_apply, val_main_call0_cst_apply]
  simp only [lidx_ix3, ridx_ix3, idx_mean, idx_rstd, idx_scale, idx_shift, Ideal.maximumf_def, Ideal.addf_def, Ideal.mulf_def,
    Ideal.subf_def, Ideal.hostUnary_rsqrt_def, Ideal.ofBits_def]
  rfl

/-- The reference's pooled features over its masked features: the contraction with the weights, the normalisation and
    rectifier, and the maximum over the 32 slots. -/
theorem pooled_apply (x0 : (⟨S100000x32x4, .f32⟩ : BufTy).Contents (Elt Ideal)) (x1 : (⟨S100000x4, .i32⟩ : BufTy).Contents (Elt Ideal)) (x2 : (⟨S100000, .i32⟩ : BufTy).Contents (Elt Ideal)) (x3 : (⟨S64x10, .f32⟩ : BufTy).Contents (Elt Ideal)) (x4 x5 x6 x7 : (⟨S64, .f32⟩ : BufTy).Contents (Elt Ideal)) (n : Fin 100000) (ch : Fin 64) :
    val_main_v75 (F := Ideal) x0 x1 x2 x3 x4 x5 x6 x7 (ix2 n ch)
      = Finset.univ.sup fun p : Fin 32 =>
          bn (∑ f : Fin 10, val_main_v57 (F := Ideal) x0 x1 x2 (ix3 n p f) * x3 (ix2 ch f)) (x4 (ix1 ch)) (x5 (ix1 ch)) (x6 (ix1 ch)) (x7 (ix1 ch)) := by
  have h : S100000x32x64.Reduces [1] S100000x64 := by decide
  unfold val_main_v75
  rw [Host.reduce_eq_fold_single FloatOps.maximumf _ _ Gen.reducesTo_S100000x32x64_S100000x64_d1 h Gen.h_S_]
  have hf : (val_main_v74 (F := Ideal) x0 x1 x2 x3 x4 x5 x6 x7 ∘ h.lift (ix2 n ch))
      = fun p : Fin 32 => bn (∑ f : Fin 10, val_main_v57 (F := Ideal) x0 x1 x2 (ix3 n p f) * x3 (ix2 ch f)) (x4 (ix1 ch)) (x5 (ix1 ch)) (x6 (ix1 ch)) (x7 (ix1 ch)) :=
    funext fun k => (congrArg (val_main_v74 (F := Ideal) x0 x1 x2 x3 x4 x5 x6 x7) (lift_ix3 h n ch k)).trans (pooled_slot_apply x0 x1 x2 x3 x4 x5 x6 x7 n ⟨k.val, k.isLt⟩ ch)
  refine Eq.trans ?_ (pooled_fold_max_eq_sup (Finset.univ : Finset (Fin 32)) _)
  exact congrArg (fun g => Finset.fold max (Ideal.ofBits .f32 0xFF800000#32) g (Finset.univ : Finset (Fin 32))) hf

end Cert.ReferenceIdeal.RefValue

end
-- ==== Proof.FiniteInputs.lean ====
/-
  The precondition, read entry by entry: it is the conjunction, over the six float inputs, of "every entry's absolute
  value is below +∞", each an all-reduction of a pointwise comparison.  An extended real whose absolute value is below
  +∞ is a real number; that is what the equality of the two arrangements of the linear layer needs of the raw point
  features and of the weights.
-/
import proofs.«414826_j24292335026905_3_alg».proof.Defs
import proofs.«414826_j24292335026905_3_alg».proof.Proof.Gen.Pre_finite_inputs
import Idealize.ShloMosaic.Lib.ValueIdx
import Idealize.ShloMosaic.Lib.ReduceAll

noncomputable section

namespace Cert.Proof.Finite

open Idealize.ShloMosaic Idealize.ShloMosaic.TcCoe Idealize.SL.Sem Idealize.ShloMosaic.ValueIdx

variable [hPre : Cert.Pre_finite_inputs.Facts]
variable (m : (ℓ : Loc Cert.KernelIdeal.nD Cert.KernelIdeal.τ Cert.KernelIdeal.sig) → Buf (Elt Ideal) ℓ)

/-- The rank-zero shape has a single index. -/
instance : Subsingleton Cert.Pre_finite_inputs.S_.Idx := ⟨fun a b => funext fun d => d.elim0⟩

/-- An extended real whose absolute value `max x (-x)` compares strictly below the word `0x7F800000` (which is `+∞`)
    is neither infinity: it is a real number. -/
theorem real_of_abs_lt (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  have hlt : max x (-x) < (⊤ : EReal) := by
    rw [htop] at hx
    by_contra hn
    simp [Ideal.cmp, hn] at hx
  induction x using EReal.rec with
  | bot => simp at hlt
  | coe r => exact ⟨r, rfl⟩
  | top => simp at hlt

/-- Under the precondition every raw point feature is a real number. -/
theorem vox_real (h : Cert.Pre_KernelIdeal m) (c : Dev Cert.KernelIdeal.nD) (i : Cert.KernelIdeal.S100000x32x4.Idx) :
    ∃ r : ℝ, (m ((c.tc : Thread Cert.KernelIdeal.nD Cert.KernelIdeal.τ).loc Cert.KernelIdeal.main_arg0) : Vec Ideal Cert.KernelIdeal.S100000x32x4 .f32) i = (r : EReal) := by
  have h0 := congrFun (h c) ValueIdx.ix0
  dsimp only [Cert.Pre_finite_inputs.fn, Cert.Pre_finite_inputs.fn_part1] at h0
  obtain ⟨h5, -⟩ := IntOp.andi_eq_one.1 h0
  obtain ⟨h4, -⟩ := IntOp.andi_eq_one.1 h5
  obtain ⟨h3, -⟩ := IntOp.andi_eq_one.1 h4
  obtain ⟨h2, -⟩ := IntOp.andi_eq_one.1 h3
  obtain ⟨hA, hB⟩ := IntOp.andi_eq_one.1 h2
  exact real_of_abs_lt _ (Host.reduce_andi_all _ _ _ _ _ hA i)

/-- Under the precondition every weight of the linear layer is a real number. -/
theorem weights_real (h : Cert.Pre_KernelIdeal m) (c : Dev Cert.KernelIdeal.nD) (i : Cert.KernelIdeal.S64x10.Idx) :
    ∃ r : ℝ, (m ((c.tc : Thread Cert.KernelIdeal.nD Cert.KernelIdeal.τ).loc Cert.KernelIdeal.main_arg3) : Vec Ideal Cert.KernelIdeal.S64x10 .f32) i = (r : EReal) := by
  have h0 := congrFun (h c) ValueIdx.ix0
  dsimp only [Cert.Pre_finite_inputs.fn, Cert.Pre_finite_inputs.fn_part1] at h0
  obtain ⟨h5, -⟩ := IntOp.andi_eq_one.1 h0
  obtain ⟨h4, -⟩ := IntOp.andi_eq_one.1 h5
  obtain ⟨h3, -⟩ := IntOp.andi_eq_one.1 h4
  obtain ⟨h2, -⟩ := IntOp.andi_eq_one.1 h3
  obtain ⟨hA, hB⟩ := IntOp.andi_eq_one.1 h2
  exact real_of_abs_lt _ (Host.reduce_andi_all _ _ _ _ _ hB i)

end Cert.Proof.Finite

end
-- ==== Proof.lean ====
/-
  The pillar feature network and its scatter to a bird's-eye-view grid: the kernel program against its reference,
  equal as extended reals under the precondition that every float input is finite.

  Both programs compute, for each of 100000 pillars and 64 channels, the pooled feature of the pillar (the module
  Pillar says what that is, in the two arrangements), then place the pillars' rows into a zero grid at the cell their
  coordinates name, and present the grid channel-major.  The kernel program does the first step in one region over
  100 blocks of 1000 pillars, against weights the host folds and lays out beforehand, and the channel-major
  presentation in a second region that swaps the two last axes block by block; the reference does everything with
  host operations.  The placement between the two is the same host function on both sides, so the claim comes down to
  the equality of the pooled features, which is distributivity over the ten features of a point and needs the raw
  features and the weights to be real numbers: that is where the precondition is used.

  The frames of the two kernel programs are the generated ones; the reference's frame is its generated run with the
  result dropped; the idealisation rewrote nothing, so there is nothing to preserve.
-/
import proofs.«414826_j24292335026905_3_alg».proof.Defs
import proofs.«414826_j24292335026905_3_alg».proof.Proof.Gen.Kernel
import proofs.«414826_j24292335026905_3_alg».proof.Proof.Gen.Kernel.Frame
import proofs.«414826_j24292335026905_3_alg».proof.Proof.Gen.KernelIdeal
import proofs.«414826_j24292335026905_3_alg».proof.Proof.Gen.KernelIdeal.Frame
import proofs.«414826_j24292335026905_3_alg».proof.Proof.Gen.ReferenceIdeal
import proofs.«414826_j24292335026905_3_alg».proof.Proof.Gen.ReferenceIdeal.Run
import proofs.«414826_j24292335026905_3_alg».proof.Proof.Gen.ReferenceIdeal.Read
import proofs.«414826_j24292335026905_3_alg».proof.Proof.Gen.Pre_finite_inputs
import proofs.«414826_j24292335026905_3_alg».proof.Proof.PillarLaws
import proofs.«414826_j24292335026905_3_alg».proof.Proof.KernelRun
import proofs.«414826_j24292335026905_3_alg».proof.Proof.Swapped
import proofs.«414826_j24292335026905_3_alg».proof.Proof.Scattered
import proofs.«414826_j24292335026905_3_alg».proof.Proof.KernelFeat
import proofs.«414826_j24292335026905_3_alg».proof.Proof.RefFeats
import proofs.«414826_j24292335026905_3_alg».proof.Proof.RefPool
import proofs.«414826_j24292335026905_3_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's pooled features are the array the kernel program's first region leaves, when the raw features
    and the weights are real: pillar by pillar and channel by channel the two arrangements of one feature. -/
theorem pooled_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (hpre : Cert.Pre_KernelIdeal m) :
    Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = (Cert.KernelIdeal.Gen.V6 m ρ c Cert.KernelIdeal.main_v40 : Vec Ideal Cert.KernelIdeal.S100000x64 .f32) := by
  funext i
  obtain ⟨n, ch, rfl⟩ : ∃ (n : Fin 100000) (ch : Fin 64), i = ix2 n ch := ⟨i 0, i 1, eq_ix2 i⟩
  rw [Cert.ReferenceIdeal.RefValue.pooled_apply]
  simp only [Cert.ReferenceIdeal.RefValue.masked_feats_apply]
  refine Eq.trans ?_ (Cert.KernelIdeal.Host.kernel_feat m ρ c n ch).symm
  exact (Cert.Pillar.feat_eq _ _ _ _ _ _ _ _ (fun p f => Cert.Proof.Finite.vox_real m hpre c (ix3 n p f))
    (fun f => Cert.Proof.Finite.weights_real m hpre c (ix2 ch f))).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the grid of the same pooled features, placed by the same function and presented
    channel-major: by the second region's swap of the two last axes on one side, by the host's on the other. -/
theorem algebraic : Cert.algebraic_KernelIdeal_ReferenceIdeal := by
  intro m ρ m' ρ' hpre hagree
  refine ⟨fun c => Cert.KernelIdeal.Gen.W9 m ρ c (Proc.devRef .tc Cert.KernelIdeal.main_v66),
    Cert.KernelIdeal.GenP.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v101_eq, h0, h1, h2, h3, h4, h5, h6, h7]
  show _ = Cert.KernelIdeal.Gen.W9 m ρ c (Proc.devRef .tc Cert.KernelIdeal.main_v66)
  rw [Cert.KernelIdeal.Host.result_eq m ρ c Cert.ReferenceIdeal.Gen.transposes_S4x214272x64_S4x64x214272_0_2_1,
    Cert.KernelIdeal.Host.kernel_placed m ρ c]
  unfold Cert.ReferenceIdeal.Read.val_main_v101 Cert.ReferenceIdeal.Read.val_main_v100
  rw [Cert.KernelIdeal.Host.ref_placed, pooled_agree m ρ c hpre]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
